-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temperature" .f32 0x41200000#32 ((134217728 / 13421773 : ℝ) : EReal)
  ∧ IdealRules.named_const.Statement Cert.KernelIdeal.κ "pad_fill" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v11_0)) (v2 : (c : Dev Cert.KernelIdeal.nD) → Buf (Elt Ideal) ((c.tc : Thread Cert.KernelIdeal.nD Cert.KernelIdeal.τ).loc Cert.KernelIdeal.main_v40)) (v3 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v11_0) = v1 c
          ∧ r.2.mem ((c.tc : Thread Cert.KernelIdeal.nD Cert.KernelIdeal.τ).loc Cert.KernelIdeal.main_v40) = v2 c
          ∧ r.2.mem ((c.tc : Thread Cert.KernelIdeal.nD Cert.KernelIdeal.τ).loc Cert.KernelIdeal.main_v41) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1000x512 : Shape := ⟨2, ![1000, 512]⟩
abbrev S1000 : Shape := ⟨1, ![1000]⟩
abbrev S16384 : Shape := ⟨1, ![16384]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_
  bcast_S_S1000 : S_.BroadcastsInDim S1000 (![] : Fin 0 → Fin S1000.rank)
  reducesTo_S1000_S_d0 : S1000.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg3 : IVec S16384 32) (main_v13 : IVec S_ 1) (main_v15 : IVec S16384 1) (main_c_5 : IVec S_ 32) : IVec S_ 1 :=
  let main_v16 : IVec S16384 32 := broadcastInDim S16384 ![] bcast_S_S16384 main_c_5
  let main_v17 : IVec S16384 1 := cmpi .slt main_arg3 main_v16
  let main_v18 : IVec S16384 1 := andi main_v15 main_v17
  let main_c_6 : IVec S_ 1 := constantI S_ 1 1#1
  let main_v19 : IVec S_ 1 := (fun x v => Host.reduce IntOp.andi x v reducesTo_S16384_S_d0 h_S_) main_v18 main_c_6
  let main_v20 : IVec S_ 1 := andi main_v13 main_v19
  main_v20

def fn {F : FTy → Type} [FloatOps F] (main_arg0 : FVec F S16384x512 .f32) (main_arg1 : FVec F S1000x512 .f32) (main_arg2 : FVec F S1000 .f32) (main_arg3 : IVec S16384 32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1000x512 .f32 := Host.absf main_arg1
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  let main_c_4 : IVec S_ 32 := constantI S_ 32 0#32
  let main_v14 : IVec S16384 32 := broadcastInDim S16384 ![] bcast_S_S16384 main_c_4
  let main_v15 : IVec S16384 1 := cmpi .sge main_arg3 main_v14
  let main_c_5 : IVec S_ 32 := constantI S_ 32 1000#32
  fn_part1 (F := F) main_arg3 main_v13 main_v15 main_c_5
-- ==== Kernel.lean ====
abbrev S16384x512 : Shape := ⟨2, ![16384, 512]⟩
abbrev S1000x512 : Shape := ⟨2, ![1000, 512]⟩
abbrev S1000 : Shape := ⟨1, ![1000]⟩
abbrev S16384 : Shape := ⟨1, ![16384]⟩
abbrev S_ : Shape := ⟨0, ![]⟩
abbrev S1000x1 : Shape := ⟨2, ![1000, 1]⟩
abbrev S1024x512 : Shape := ⟨2, ![1024, 512]⟩
abbrev S16384x1 : Shape := ⟨2, ![16384, 1]⟩
abbrev S16384x1000 : Shape := ⟨2, ![16384, 1000]⟩
abbrev S2x1024x512 : Shape := ⟨3, ![2, 1024, 512]⟩
abbrev S2x1x1024 : Shape := ⟨3, ![2, 1, 1024]⟩
abbrev S2x1x1 : Shape := ⟨3, ![2, 1, 1]⟩
abbrev S512x512 : Shape := ⟨2, ![512, 512]⟩
abbrev S512x1 : Shape := ⟨2, ![512, 1]⟩
abbrev S512x1000 : Shape := ⟨2, ![512, 1000]⟩
abbrev S1x1024x512 : Shape := ⟨3, ![1, 1024, 512]⟩
abbrev S1x1x1024 : Shape := ⟨3, ![1, 1, 1024]⟩
abbrev S1x1x1 : Shape := ⟨3, ![1, 1, 1]⟩
abbrev S1x1024 : Shape := ⟨2, ![1, 1024]⟩
abbrev S1x1 : Shape := ⟨2, ![1, 1]⟩
abbrev S512 : Shape := ⟨1, ![512]⟩
abbrev S512x1024 : Shape := ⟨2, ![512, 1024]⟩
abbrev S1 : Shape := ⟨1, ![1]⟩
abbrev S1024 : Shape := ⟨1, ![1024]⟩
abbrev S1x1000 : Shape := ⟨2, ![1, 1000]⟩

abbrev nBuf : Space → Nat
  | .hbm => 64
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S1000x512, .f32⟩
  | .hbm, ⟨2, _⟩ => ⟨S1000, .f32⟩
  | .hbm, ⟨3, _⟩ => ⟨S16384, .i32⟩
  | .hbm, ⟨4, _⟩ => ⟨S1000x512, .f32⟩
  | .hbm, ⟨5, _⟩ => ⟨S_, .f32⟩
  | .hbm, ⟨6, _⟩ => ⟨S1000, .f32⟩
  | .hbm, ⟨7, _⟩ => ⟨S1000x1, .f32⟩
  | .hbm, ⟨8, _⟩ => ⟨S1000x1, .f32⟩
  | .hbm, ⟨9, _⟩ => ⟨S_, .f32⟩
  | .hbm, ⟨10, _⟩ => ⟨S1000x1, .f32⟩
  | .hbm, ⟨11, _⟩ => ⟨S1000x1, .f32⟩
  | .hbm, ⟨12, _⟩ => ⟨S1000x512, .f32⟩
  | .hbm, ⟨13, _⟩ => ⟨S1000x512, .f32⟩
  | .hbm, ⟨14, _⟩ => ⟨S_, .i32⟩
  | .hbm, ⟨15, _⟩ => ⟨S_, .f32⟩
  | .hbm, ⟨16, _⟩ => ⟨S1024x512, .f32⟩
  | .hbm, ⟨17, _⟩ => ⟨S1024x512, .bf16⟩
  | .hbm, ⟨18, _⟩ => ⟨S16384x1, .i32⟩
  | .hbm, ⟨19, _⟩ => ⟨S16384x1000, .f32⟩
  | .hbm, ⟨20, _⟩ => ⟨S2x1024x512, .f32⟩
  | .hbm, ⟨21, _⟩ => ⟨S2x1x1024, .f32⟩
  | .hbm, ⟨22, _⟩ => ⟨S2x1x1, .f32⟩
  | .hbm, ⟨23, _⟩ => ⟨S_, .f32⟩
  | .hbm, ⟨24, _⟩ => ⟨S1x1024, .f32⟩
  | .hbm, ⟨25, _⟩ => ⟨S1x1000, .f32⟩
  | .hbm, ⟨26, _⟩ => ⟨S1000, .f32⟩
  | .hbm, ⟨27, _⟩ => ⟨S_, .f32⟩
  | .hbm, ⟨28, _⟩ => ⟨S1024x512, .f32⟩
  | .hbm, ⟨29, _⟩ => ⟨S1000x512, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1000, .f32⟩
  | .hbm, ⟨36, _⟩ => ⟨S1000, .f32⟩
  | .hbm, ⟨37, _⟩ => ⟨S1000x1, .f32⟩
  | .hbm, ⟨38, _⟩ => ⟨S1000x512, .f32⟩
  | .hbm, ⟨39, _⟩ => ⟨S1000x512, .f32⟩
  | .hbm, ⟨40, _⟩ => ⟨S1000x512, .f32⟩
  | .hbm, ⟨41, _⟩ => ⟨S_, .f32⟩
  | .hbm, ⟨42, _⟩ => ⟨S1000, .f32⟩
  | .hbm, ⟨43, _⟩ => ⟨S1000x1, .f32⟩
  | .hbm, ⟨44, _⟩ => ⟨S1000x1, .f32⟩
  | .hbm, ⟨45, _⟩ => ⟨S_, .f32⟩
  | .hbm, ⟨46, _⟩ => ⟨S1000x1, .f32⟩
  | .hbm, ⟨47, _⟩ => ⟨S1000x1, .f32⟩
  | .hbm, ⟨48, _⟩ => ⟨S1000x512, .f32⟩
  | .hbm, ⟨49, _⟩ => ⟨S1000x512, .f32⟩
  | .hbm, ⟨50, _⟩ => ⟨S_, .f32⟩
  | .hbm, ⟨51, _⟩ => ⟨S1000, .f32⟩
  | .hbm, ⟨52, _⟩ => ⟨S1000, .i1⟩
  | .hbm, ⟨53, _⟩ => ⟨S1000x1, .i1⟩
  | .hbm, ⟨54, _⟩ => ⟨S_, .f32⟩
  | .hbm, ⟨55, _⟩ => ⟨S1000x512, .f32⟩
  | .hbm, ⟨56, _⟩ => ⟨S1000x512, .f32⟩
  | .hbm, ⟨57, _⟩ => ⟨S_, .f32⟩
  | .hbm, ⟨58, _⟩ => ⟨S1000x512, .f32⟩
  | .hbm, ⟨59, _⟩ => ⟨S1000x512, .f32⟩
  | .hbm, ⟨60, _⟩ => ⟨S1000x512, .f32⟩
  | .hbm, ⟨61, _⟩ => ⟨S1000x512, .i1⟩
  | .hbm, ⟨62, _⟩ => ⟨S1000x512, .f32⟩
  | .hbm, ⟨63, _⟩ => ⟨S1000, .f32⟩
  | .local _ .vmem, ⟨0, _⟩ => ⟨S512x512, .f32⟩
  | .local _ .vmem, ⟨1, _⟩ => ⟨S512x512, .f32⟩
  | .local _ .vmem, ⟨2, _⟩ => ⟨S1024x512, .bf16⟩
  | .local _ .vmem, ⟨3, _⟩ => ⟨S512x1, .i32⟩
  | .local _ .vmem, ⟨4, _⟩ => ⟨S512x1, .i32⟩
  | .local _ .vmem, ⟨5, _⟩ => ⟨S512x1000, .f32⟩
  | .local _ .vmem, ⟨6, _⟩ => ⟨S512x1000, .f32⟩
  | .local _ .vmem, ⟨7, _⟩ => ⟨S1x1024x512, .f32⟩
  | .local _ .vmem, ⟨8, _⟩ => ⟨S1x1x1024, .f32⟩
  | .local _ .vmem, ⟨9, _⟩ => ⟨S1x1x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call1_v0 : Ref sig .tc := ⟨.hbm, 61, rfl⟩
abbrev main_v40 : Ref sig .tc := ⟨.hbm, 62, rfl⟩
abbrev main_v41 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

class Facts₀ : Prop where
  reducesTo_S1000x512_S1000_d1 : S1000x512.ReducesTo [1] S1000
  h_S_ : 0 < S_.numel
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1000x1_S1000x512_0_1 : S1000x1.BroadcastsInDim S1000x512 (![0, 1] : Fin 2 → Fin S1000x512.rank)
  pads_S1000x512_S1024x512_0240_000 : S1000x512.Pads (![0, 0] : Fin 2 → Nat) ![24, 0] ![0, 0] S1024x512
  bitsLt_bf16_f32 : FTy.bits .bf16 < FTy.bits .f32
  shapeCasts_S16384_S16384x1 : S16384.ShapeCasts S16384x1
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  broadcasts_S512x1_S512x512 : S512x1.Broadcasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S512x1024_o0_0_S512x1000 : S512x1024.Slices ![0, 0] S512x1000
  inb_S512x1000_S512x1000_0_0 : ∀ a, (![0, 0] : Fin 2 → Nat) a + S512x1000.size a ≤ S512x1000.size a
  h_S512x1000 : 0 < S512x1000.numel
  iota_S512x1024_d1_w32 : S512x1024.Iotas .tc 32 [1]
  reduces_S512x1024_S512 : S512x1024.Reduces [1] S512
  broadcasts_S512x1_S512x1024 : S512x1.Broadcasts S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x1_S1 : S512x1.Reduces [0] S1
  shapeCasts_S1_S1x1 : S1.ShapeCasts S1x1
  natLt_1_32 : 1 < 32
  reduces_S512x1024_S1024 : S512x1024.Reduces [0] S1024
  shapeCasts_S1024_S1x1024 : S1024.ShapeCasts S1x1024
  reducesTo_S2x1x1024_S1x1024_d0 : S2x1x1024.ReducesTo [0] S1x1024
  slices_S1x1024_S1x1000_0_0 : S1x1024.Slices ![0, 0] S1x1000
  shapeCasts_S1x1000_S1000 : S1x1000.ShapeCasts S1000
  reducesTo_S2x1024x512_S1024x512_d0 : S2x1024x512.ReducesTo [0] S1024x512
  slices_S1024x512_S1000x512_0_0 : S1024x512.Slices ![0, 0] S1000x512
  reducesTo_S2x1x1_S_d0_1_2 : S2x1x1.ReducesTo [0, 1, 2] S_
  bcast_S_S1000 : S_.BroadcastsInDim S1000 (![] : Fin 0 → Fin S1000.rank)
  bcast_S_S1000x512 : S_.BroadcastsInDim S1000x512 (![] : Fin 0 → Fin S1000x512.rank)
  dot_S512x512_S1024x512_S512x1024_1_1_0_0_n_n_wf : DotDims.WF S512x512 S1024x512 S512x1024 [1] [1] [0] [0] [] []
  dot_S512x1024_S512x512_S1024x512_0_0_1_1_n_n_wf : DotDims.WF S512x1024 S512x512 S1024x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .i32 = 32 ∨ (Rect.block (s := S16384x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1000.size a ≤ S16384x1000.size a
  hwx0_3 : ∀ i : grid0.Coords, EltTy.bits .f32 = 32 ∨ (Rect.block (s := S16384x1000) S512x1000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024x512.size a ≤ S2x1024x512.size a
  hwx0_4 : ∀ i : grid0.Coords, EltTy.bits .f32 = 32 ∨ (Rect.block (s := S2x1024x512) S1x1024x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S2x1x1024.size a
  hwx0_5 : ∀ i : grid0.Coords, EltTy.bits .f32 = 32 ∨ (Rect.block (s := S2x1x1024) S1x1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf
def dot_S512x1024_S512x512_S1024x512_0_0_1_1_n_n : DotDims S512x1024 S512x512 S1024x512 where
  lhsContracting := [0]
  rhsContracting := [0]
  lhsNonContracting := [1]
  rhsNonContracting := [1]
  lhsBatch := []
  rhsBatch := []
  wf := dot_S512x1024_S512x512_S1024x512_0_0_1_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S512x1000.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S1x1024x512.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11_2) S1x1x1024.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11_3) S1x1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x512 : Shape := ⟨2, ![16384, 512]⟩
abbrev S1000x512 : Shape := ⟨2, ![1000, 512]⟩
abbrev S1000 : Shape := ⟨1, ![1000]⟩
abbrev S16384 : Shape := ⟨1, ![16384]⟩
abbrev S_ : Shape := ⟨0, ![]⟩
abbrev S1000x1 : Shape := ⟨2, ![1000, 1]⟩
abbrev S16384x1 : Shape := ⟨2, ![16384, 1]⟩
abbrev S512x1000 : Shape := ⟨2, ![512, 1000]⟩
abbrev S16384x1000 : Shape := ⟨2, ![16384, 1000]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 112
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1000x512, .f32⟩
  | .hbm, ⟨2, _⟩ => ⟨S1000, .f32⟩
  | .hbm, ⟨3, _⟩ => ⟨S16384, .i32⟩
  | .hbm, ⟨4, _⟩ => ⟨S1000x512, .f32⟩
  | .hbm, ⟨5, _⟩ => ⟨S_, .f32⟩
  | .hbm, ⟨6, _⟩ => ⟨S1000, .f32⟩
  | .hbm, ⟨7, _⟩ => ⟨S1000x1, .f32⟩
  | .hbm, ⟨8, _⟩ => ⟨S1000x1, .f32⟩
  | .hbm, ⟨9, _⟩ => ⟨S_, .f32⟩
  | .hbm, ⟨10, _⟩ => ⟨S1000x1, .f32⟩
  | .hbm, ⟨11, _⟩ => ⟨S1000x1, .f32⟩
  | .hbm, ⟨12, _⟩ => ⟨S1000x512, .f32⟩
  | .hbm, ⟨13, _⟩ => ⟨S1000x512, .f32⟩
  | .hbm, ⟨14, _⟩ => ⟨S16384x512, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x512, .f32⟩
  | .hbm, ⟨23, _⟩ => ⟨S16384x512, .f32⟩
  | .hbm, ⟨24, _⟩ => ⟨S512x1000, .f32⟩
  | .hbm, ⟨25, _⟩ => ⟨S16384x1000, .f32⟩
  | .hbm, ⟨26, _⟩ => ⟨S_, .f32⟩
  | .hbm, ⟨27, _⟩ => ⟨S16384x1000, .f32⟩
  | .hbm, ⟨28, _⟩ => ⟨S16384x1000, .f32⟩
  | .hbm, ⟨29, _⟩ => ⟨S_, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S16384x1, .f32⟩
  | .hbm, ⟨35, _⟩ => ⟨S16384x1000, .f32⟩
  | .hbm, ⟨36, _⟩ => ⟨S16384x1000, .f32⟩
  | .hbm, ⟨37, _⟩ => ⟨S16384x1000, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1, .f32⟩
  | .hbm, ⟨42, _⟩ => ⟨S16384x1000, .f32⟩
  | .hbm, ⟨43, _⟩ => ⟨S16384x1000, .f32⟩
  | .hbm, ⟨44, _⟩ => ⟨S16384x1, .i32⟩
  | .hbm, ⟨45, _⟩ => ⟨S_, .i32⟩
  | .hbm, ⟨46, _⟩ => ⟨S16384x1, .i32⟩
  | .hbm, ⟨47, _⟩ => ⟨S16384x1, .i1⟩
  | .hbm, ⟨48, _⟩ => ⟨S_, .i32⟩
  | .hbm, ⟨49, _⟩ => ⟨S16384x1, .i32⟩
  | .hbm, ⟨50, _⟩ => ⟨S16384x1, .i32⟩
  | .hbm, ⟨51, _⟩ => ⟨S16384x1, .i32⟩
  | .hbm, ⟨52, _⟩ => ⟨S16384x1x1, .i32⟩
  | .hbm, ⟨53, _⟩ => ⟨S1, .i32⟩
  | .hbm, ⟨54, _⟩ => ⟨S_, .i32⟩
  | .hbm, ⟨55, _⟩ => ⟨S16384x1x1, .i32⟩
  | .hbm, ⟨56, _⟩ => ⟨S16384x1x1, .i1⟩
  | .hbm, ⟨57, _⟩ => ⟨S1x1x1, .i32⟩
  | .hbm, ⟨58, _⟩ => ⟨S16384x1x1, .i32⟩
  | .hbm, ⟨59, _⟩ => ⟨S16384x1x1, .i1⟩
  | .hbm, ⟨60, _⟩ => ⟨S16384x1x1, .i1⟩
  | .hbm, ⟨61, _⟩ => ⟨S_, .i1⟩
  | .hbm, ⟨62, _⟩ => ⟨S16384x1, .i1⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S1000x512, .f32⟩
  | .hbm, ⟨74, _⟩ => ⟨S16384x1, .i32⟩
  | .hbm, ⟨75, _⟩ => ⟨S1000x512, .f32⟩
  | .hbm, ⟨76, _⟩ => ⟨S_, .f32⟩
  | .hbm, ⟨77, _⟩ => ⟨S16384, .f32⟩
  | .hbm, ⟨78, _⟩ => ⟨S_, .f32⟩
  | .hbm, ⟨79, _⟩ => ⟨S1000, .f32⟩
  | .hbm, ⟨80, _⟩ => ⟨S16384x1, .i32⟩
  | .hbm, ⟨81, _⟩ => ⟨S1000, .f32⟩
  | .hbm, ⟨82, _⟩ => ⟨S_, .f32⟩
  | .hbm, ⟨83, _⟩ => ⟨S1000, .f32⟩
  | .hbm, ⟨84, _⟩ => ⟨S1000, .f32⟩
  | .hbm, ⟨85, _⟩ => ⟨S1000x1, .f32⟩
  | .hbm, ⟨86, _⟩ => ⟨S1000x512, .f32⟩
  | .hbm, ⟨87, _⟩ => ⟨S1000x512, .f32⟩
  | .hbm, ⟨88, _⟩ => ⟨S1000x512, .f32⟩
  | .hbm, ⟨89, _⟩ => ⟨S_, .f32⟩
  | .hbm, ⟨90, _⟩ => ⟨S1000, .f32⟩
  | .hbm, ⟨91, _⟩ => ⟨S1000x1, .f32⟩
  | .hbm, ⟨92, _⟩ => ⟨S1000x1, .f32⟩
  | .hbm, ⟨93, _⟩ => ⟨S_, .f32⟩
  | .hbm, ⟨94, _⟩ => ⟨S1000x1, .f32⟩
  | .hbm, ⟨95, _⟩ => ⟨S1000x1, .f32⟩
  | .hbm, ⟨96, _⟩ => ⟨S1000x512, .f32⟩
  | .hbm, ⟨97, _⟩ => ⟨S1000x512, .f32⟩
  | .hbm, ⟨98, _⟩ => ⟨S_, .f32⟩
  | .hbm, ⟨99, _⟩ => ⟨S1000, .f32⟩
  | .hbm, ⟨100, _⟩ => ⟨S1000, .i1⟩
  | .hbm, ⟨101, _⟩ => ⟨S1000x1, .i1⟩
  | .hbm, ⟨102, _⟩ => ⟨S_, .f32⟩
  | .hbm, ⟨103, _⟩ => ⟨S1000x512, .f32⟩
  | .hbm, ⟨104, _⟩ => ⟨S1000x512, .f32⟩
  | .hbm, ⟨105, _⟩ => ⟨S_, .f32⟩
  | .hbm, ⟨106, _⟩ => ⟨S1000x512, .f32⟩
  | .hbm, ⟨107, _⟩ => ⟨S1000x512, .f32⟩
  | .hbm, ⟨108, _⟩ => ⟨S1000x512, .f32⟩
  | .hbm, ⟨109, _⟩ => ⟨S1000x512, .i1⟩
  | .hbm, ⟨110, _⟩ => ⟨S1000x512, .f32⟩
  | .hbm, ⟨111, _⟩ => ⟨S1000, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_call2_cst : Ref sig .tc := ⟨.hbm, 29, rfl⟩
abbrev main_call2_v0 : Ref sig .tc := ⟨.hbm, 30, rfl⟩
abbrev main_call2_cst_0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_cst_1 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_v14 : Ref sig .tc := ⟨.hbm, 43, rfl⟩
abbrev main_v15 : Ref sig .tc := ⟨.hbm, 44, rfl⟩
abbrev main_call3_c : Ref sig .tc := ⟨.hbm, 45, rfl⟩
abbrev main_call3_v0 : Ref sig .tc := ⟨.hbm, 46, rfl⟩
abbrev main_call3_v1 : Ref sig .tc := ⟨.hbm, 47, rfl⟩
abbrev main_call3_c_0 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_call3_v5 : Ref sig .tc := ⟨.hbm, 52, rfl⟩
abbrev main_call3_c_1 : Ref sig .tc := ⟨.hbm, 53, rfl⟩
abbrev main_call3_c_2 : Ref sig .tc := ⟨.hbm, 54, rfl⟩
abbrev main_call3_v6 : Ref sig .tc := ⟨.hbm, 55, rfl⟩
abbrev main_call3_v7 : Ref sig .tc := ⟨.hbm, 56, rfl⟩
abbrev main_call3_v8 : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_call3_c_3 : Ref sig .tc := ⟨.hbm, 61, rfl⟩
abbrev main_call3_v12 : Ref sig .tc := ⟨.hbm, 62, rfl⟩
abbrev main_call3_v13 : Ref sig .tc := ⟨.hbm, 63, rfl⟩
abbrev main_call3_cst : Ref sig .tc := ⟨.hbm, 64, rfl⟩
abbrev main_call3_v14 : Ref sig .tc := ⟨.hbm, 65, rfl⟩
abbrev main_v16 : Ref sig .tc := ⟨.hbm, 66, rfl⟩
abbrev main_cst_2 : Ref sig .tc := ⟨.hbm, 67, rfl⟩
abbrev main_v17 : Ref sig .tc := ⟨.hbm, 68, rfl⟩
abbrev main_cst_3 : Ref sig .tc := ⟨.hbm, 69, rfl⟩
abbrev main_v18 : Ref sig .tc := ⟨.hbm, 70, rfl⟩
abbrev main_v19 : Ref sig .tc := ⟨.hbm, 71, rfl⟩
abbrev main_cst_4 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_cst_5 : Ref sig .tc := ⟨.hbm, 76, rfl⟩
abbrev main_v23 : Ref sig .tc := ⟨.hbm, 77, rfl⟩
abbrev main_cst_6 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_cst_7 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_call4_v0 : Ref sig .tc := ⟨.hbm, 88, rfl⟩
abbrev main_call4_cst : Ref sig .tc := ⟨.hbm, 89, rfl⟩
abbrev main_call4_v1 : Ref sig .tc := ⟨.hbm, 90, rfl⟩
abbrev main_call4_v2 : Ref sig .tc := ⟨.hbm, 91, rfl⟩
abbrev main_v32 : Ref sig .tc := ⟨.hbm, 92, rfl⟩
abbrev main_cst_8 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_cst_9 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_cst_10 : Ref sig .tc := ⟨.hbm, 102, rfl⟩
abbrev main_v40 : Ref sig .tc := ⟨.hbm, 103, rfl⟩
abbrev main_v41 : Ref sig .tc := ⟨.hbm, 104, rfl⟩
abbrev main_cst_11 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_call5_v0 : Ref sig .tc := ⟨.hbm, 109, rfl⟩
abbrev main_v45 : Ref sig .tc := ⟨.hbm, 110, rfl⟩
abbrev main_v46 : Ref sig .tc := ⟨.hbm, 111, rfl⟩

abbrev nD : Nat := 1
abbrev τ : Topo := Topo.v7x

variable {F : FTy → Type} [FloatOps F]

class Facts₀ : Prop where
  reducesTo_S1000x512_S1000_d1 : S1000x512.ReducesTo [1] S1000
  h_S_ : 0 < S_.numel
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1000x1_S1000x512_0_1 : S1000x1.BroadcastsInDim S1000x512 (![0, 1] : Fin 2 → Fin S1000x512.rank)
  reducesTo_S16384x512_S16384_d1 : S16384x512.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  transposes_S1000x512_S512x1000_1_0 : S1000x512.Transposes [1, 0] S512x1000
  bcast_S_S16384x1000 : S_.BroadcastsInDim S16384x1000 (![] : Fin 0 → Fin S16384x1000.rank)
  reducesTo_S16384x1000_S16384_d1 : S16384x1000.ReducesTo [1] S16384
  bcast_S_S16384 : S_.BroadcastsInDim S16384 (![] : Fin 0 → Fin S16384.rank)
  bcast_S16384x1_S16384x1000_0_1 : S16384x1.BroadcastsInDim S16384x1000 (![0, 1] : Fin 2 → Fin S16384x1000.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  reducesTo_S16384x1_S_d0_1 : S16384x1.ReducesTo [0, 1] S_
  bcast_S_S1000x512 : S_.BroadcastsInDim S1000x512 (![] : Fin 0 → Fin S1000x512.rank)
  bcast_S_S1000 : S_.BroadcastsInDim S1000 (![] : Fin 0 → Fin S1000.rank)
  dot_S16384x512_S512x1000_S16384x1000_1_0_0_1_n_n_wf : DotDims.WF S16384x512 S512x1000 S16384x1000 [1] [0] [0] [1] [] []
  gather_S16384x1000_S16384x1x1_S16384x1_n_1_0_0_1_2_11_wf : GatherDims.WF S16384x1000 S16384x1x1 S16384x1 [] [1] [0] [1] [0] 2 ![1, 1]
  scatter_S1000x512_S16384x1_S16384x512_1_0_0_1_wf : ScatterDims.WF S1000x512 S16384x1 S16384x512 [1] [0] [0] 1
  scatter_S1000_S16384x1_S16384_n_0_0_1_wf : ScatterDims.WF S1000 S16384x1 S16384 [] [0] [0] 1

variable [Facts₀]

def dot_S16384x512_S512x1000_S16384x1000_1_0_0_1_n_n : DotDims S16384x512 S512x1000 S16384x1000 where
  lhsContracting := [1]
  rhsContracting := [0]
  lhsNonContracting := [0]
  rhsNonContracting := [1]
  lhsBatch := []
  rhsBatch := []
  wf := dot_S16384x512_S512x1000_S16384x1000_1_0_0_1_n_n_wf
def gather_S16384x1000_S16384x1x1_S16384x1_n_1_0_0_1_2_11 : GatherDims S16384x1000 S16384x1x1 S16384x1 where
  offsetDims := []
  collapsedSliceDims := [1]
  operandBatchingDims := [0]
  startIndicesBatchingDims := [0]
  startIndexMap := [1]
  indexVectorDim := 2
  sliceSizes := ![1, 1]
  wf := gather_S16384x1000_S16384x1x1_S16384x1_n_1_0_0_1_2_11_wf
def scatter_S1000x512_S16384x1_S16384x512_1_0_0_1 : ScatterDims S1000x512 S16384x1 S16384x512 where
  updateWindowDims := [1]
  insertedWindowDims := [0]
  scatterDimsToOperandDims := [0]
  indexVectorDim := 1
  wf := scatter_S1000x512_S16384x1_S16384x512_1_0_0_1_wf
def scatter_S1000_S16384x1_S16384_n_0_0_1 : ScatterDims S1000 S16384x1 S16384 where
  updateWindowDims := []
  insertedWindowDims := [0]
  scatterDimsToOperandDims := [0]
  indexVectorDim := 1
  wf := scatter_S1000_S16384x1_S16384_n_0_0_1_wf

class Facts : Prop extends Facts₀ where

variable [Facts]
-- ==== Proof.RefRun19.lean ====
/-
  The loss result of the reference program, read off the fold of its operations stretch by stretch: the scaled logits
  (the first stretch), the log-softmax over them, the gather at the labels, and the mean with its sign — each stretch's
  result in terms of the stretch before, so that no step ever holds the whole chain at once.
-/
import proofs.«417236_j85134841741643_3_alg».proof.Proof.RefRun
import proofs.«417236_j85134841741643_3_alg».proof.Proof.RefRead

noncomputable section

namespace Cert.ReferenceIdeal.Run19

open Cert.ReferenceIdeal Cert.ReferenceIdeal.Gen Idealize.ShloMosaic Idealize.ShloMosaic.TcCoe Idealize.SL.Sem Idealize.ShloMosaic.StableHlo
open Cert.ReferenceIdeal.Value (ops)

variable {F : FTy → Type} [FloatOps F]

/-! ## The fold over a concatenation -/

/-- The fold over a concatenation is the fold of the second list over the fold of the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-! ## Typed references at literal buffers

An operation of an outlined function states its function at the tensor value's type and moves contents to and from
the buffer's own type. Both moves are the identity: back and forth in general, and one way alone at a literal
reference, where the two types agree by computation. -/

/-- Contents moved to a typed reference's buffer type and back are the contents. -/
theorem ofBuf_toBuf {sig : RefSig} {Val : EltTy → Type} {T : BufTy} (x : TRef sig T) (v : T.Contents Val) :
    x.ofBuf (x.toBuf v) = v := by
  show cast _ (cast _ v) = v
  rw [cast_cast, cast_eq]

theorem ofBuf_v13 (v : (⟨S16384x1000, .f32⟩ : BufTy).Contents (Elt F)) :
    (TRef.of (T := ⟨S16384x1000, .f32⟩) (sig := sig) main_v13).ofBuf v = v := rfl
theorem toBuf_v14 (v : (⟨S16384x1000, .f32⟩ : BufTy).Contents (Elt F)) :
    (TRef.of (T := ⟨S16384x1000, .f32⟩) (sig := sig) main_v14).toBuf v = v := rfl
theorem ofBuf_v14 (v : (⟨S16384x1000, .f32⟩ : BufTy).Contents (Elt F)) :
    (TRef.of (T := ⟨S16384x1000, .f32⟩) (sig := sig) main_v14).ofBuf v = v := rfl
theorem ofBuf_v15 (v : (⟨S16384x1, .i32⟩ : BufTy).Contents (Elt F)) :
    (TRef.of (T := ⟨S16384x1, .i32⟩) (sig := sig) main_v15).ofBuf v = v := rfl
theorem toBuf_c3v4 (v : (⟨S16384x1, .i32⟩ : BufTy).Contents (Elt F)) :
    (TRef.of (T := ⟨S16384x1, .i32⟩) (sig := sig) main_call3_v4).toBuf v = v := rfl
theorem ofBuf_c3v5 (v : (⟨S16384x1x1, .i32⟩ : BufTy).Contents (Elt F)) :
    (TRef.of (T := ⟨S16384x1x1, .i32⟩) (sig := sig) main_call3_v5).ofBuf v = v := rfl
theorem toBuf_v16 (v : (⟨S16384x1, .f32⟩ : BufTy).Contents (Elt F)) :
    (TRef.of (T := ⟨S16384x1, .f32⟩) (sig := sig) main_v16).toBuf v = v := rfl

/-! ## The program's operations, cut into stretches -/

/-- Both arrays normalised by rows, their product, and its division by the temperature: the scaled logits, in main_v13. -/
def l1 : List (HloOp τ sig (Elt F)) :=
  [ TRef.binary (TRef.of (T := ⟨S1000x512, .f32⟩) main_arg1) (TRef.of (T := ⟨S1000x512, .f32⟩) main_arg1) (TRef.of (T := ⟨S1000x512, .f32⟩) main_call0_v0) mulf,
    TRef.nullary (TRef.of (T := ⟨S_, .f32⟩) main_call0_cst) (constant S_ .f32 0x00000000#32),
    TRef.binary (TRef.of (T := ⟨S1000x512, .f32⟩) main_call0_v0) (TRef.of (T := ⟨S_, .f32⟩) main_call0_cst) (TRef.of (T := ⟨S1000, .f32⟩) main_call0_v1) (fun x v => Host.reduceAdd x v reducesTo_S1000x512_S1000_d1 h_S_),
    TRef.unary (TRef.of (T := ⟨S1000, .f32⟩) main_call0_v1) (TRef.of (T := ⟨S1000x1, .f32⟩) main_call0_v2) (broadcastInDim S1000x1 ![0] bcast_S1000_S1000x1_0),
    TRef.unary (TRef.of (T := ⟨S1000x1, .f32⟩) main_call0_v2) (TRef.of (T := ⟨S1000x1, .f32⟩) main_v0) Host.sqrt,
    nullary main_cst (constant S_ .f32 0x2B8CBCCC#32),
    unary main_cst main_v1 (broadcastInDim S1000x1 ![] bcast_S_S1000x1 : (⟨S_, .f32⟩ : BufTy).Contents (Elt F) → (⟨S1000x1, .f32⟩ : BufTy).Contents (Elt F)),
    binary main_v0 main_v1 main_v2 (maximumf : (⟨S1000x1, .f32⟩ : BufTy).Contents (Elt F) → (⟨S1000x1, .f32⟩ : BufTy).Contents (Elt F) → (⟨S1000x1, .f32⟩ : BufTy).Contents (Elt F)),
    unary main_v2 main_v3 (broadcastInDim S1000x512 ![0, 1] bcast_S1000x1_S1000x512_0_1 : (⟨S1000x1, .f32⟩ : BufTy).Contents (Elt F) → (⟨S1000x512, .f32⟩ : BufTy).Contents (Elt F)),
    binary main_arg1 main_v3 main_v4 (Host.divf : (⟨S1000x512, .f32⟩ : BufTy).Contents (Elt F) → (⟨S1000x512, .f32⟩ : BufTy).Contents (Elt F) → (⟨S1000x512, .f32⟩ : BufTy).Contents (Elt F)),
    TRef.binary (TRef.of (T := ⟨S16384x512, .f32⟩) main_arg0) (TRef.of (T := ⟨S16384x512, .f32⟩) main_arg0) (TRef.of (T := ⟨S16384x512, .f32⟩) main_call1_v0) mulf,
    TRef.nullary (TRef.of (T := ⟨S_, .f32⟩) main_call1_cst) (constant S_ .f32 0x00000000#32),
    TRef.binary (TRef.of (T := ⟨S16384x512, .f32⟩) main_call1_v0) (TRef.of (T := ⟨S_, .f32⟩) main_call1_cst) (TRef.of (T := ⟨S16384, .f32⟩) main_call1_v1) (fun x v => Host.reduceAdd x v reducesTo_S16384x512_S16384_d1 h_S_),
    TRef.unary (TRef.of (T := ⟨S16384, .f32⟩) main_call1_v1) (TRef.of (T := ⟨S16384x1, .f32⟩) main_call1_v2) (broadcastInDim S16384x1 ![0] bcast_S16384_S16384x1_0),
    TRef.unary (TRef.of (T := ⟨S16384x1, .f32⟩) main_call1_v2) (TRef.of (T := ⟨S16384x1, .f32⟩) main_v5) Host.sqrt,
    nullary main_cst_0 (constant S_ .f32 0x2B8CBCCC#32),
    unary main_cst_0 main_v6 (broadcastInDim S16384x1 ![] bcast_S_S16384x1 : (⟨S_, .f32⟩ : BufTy).Contents (Elt F) → (⟨S16384x1, .f32⟩ : BufTy).Contents (Elt F)),
    binary main_v5 main_v6 main_v7 (maximumf : (⟨S16384x1, .f32⟩ : BufTy).Contents (Elt F) → (⟨S16384x1, .f32⟩ : BufTy).Contents (Elt F) → (⟨S16384x1, .f32⟩ : BufTy).Contents (Elt F)),
    unary main_v7 main_v8 (broadcastInDim S16384x512 ![0, 1] bcast_S16384x1_S16384x512_0_1 : (⟨S16384x1, .f32⟩ : BufTy).Contents (Elt F) → (⟨S16384x512, .f32⟩ : BufTy).Contents (Elt F)),
    binary main_arg0 main_v8 main_v9 (Host.divf : (⟨S16384x512, .f32⟩ : BufTy).Contents (Elt F) → (⟨S16384x512, .f32⟩ : BufTy).Contents (Elt F) → (⟨S16384x512, .f32⟩ : BufTy).Contents (Elt F)),
    unary main_v4 main_v10 ((transpose S512x1000 [1, 0] · transposes_S1000x512_S512x1000_1_0) : (⟨S1000x512, .f32⟩ : BufTy).Contents (Elt F) → (⟨S512x1000, .f32⟩ : BufTy).Contents (Elt F)),
    binary main_v9 main_v10 main_v11 ((fun l r => Host.dotGeneral dot_S16384x512_S512x1000_S16384x1000_1_0_0_1_n_n none l r) : (⟨S16384x512, .f32⟩ : BufTy).Contents (Elt F) → (⟨S512x1000, .f32⟩ : BufTy).Contents (Elt F) → (⟨S16384x1000, .f32⟩ : BufTy).Contents (Elt F)),
    nullary main_cst_1 (constant S_ .f32 0x3DCCCCCD#32),
    unary main_cst_1 main_v12 (broadcastInDim S16384x1000 ![] bcast_S_S16384x1000 : (⟨S_, .f32⟩ : BufTy).Contents (Elt F) → (⟨S16384x1000, .f32⟩ : BufTy).Contents (Elt F)),
    binary main_v11 main_v12 main_v13 (Host.divf : (⟨S16384x1000, .f32⟩ : BufTy).Contents (Elt F) → (⟨S16384x1000, .f32⟩ : BufTy).Contents (Elt F) → (⟨S16384x1000, .f32⟩ : BufTy).Contents (Elt F)) ]

/-- The log-softmax of the scaled logits along each row, in main_v14. -/
def l2 : List (HloOp τ sig (Elt F)) :=
  [ TRef.nullary (TRef.of (T := ⟨S_, .f32⟩) main_call2_cst) (constant S_ .f32 0xFF800000#32),
    TRef.binary (TRef.of (T := ⟨S16384x1000, .f32⟩) main_v13) (TRef.of (T := ⟨S_, .f32⟩) main_call2_cst) (TRef.of (T := ⟨S16384, .f32⟩) main_call2_v0) (fun x v => Host.reduce FloatOps.maximumf x v reducesTo_S16384x1000_S16384_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S16384, .f32⟩) main_call2_v1) (broadcastInDim S16384 ![] bcast_S_S16384),
    TRef.binary (TRef.of (T := ⟨S16384, .f32⟩) main_call2_v1) (TRef.of (T := ⟨S16384, .f32⟩) main_call2_v0) (TRef.of (T := ⟨S16384, .f32⟩) main_call2_v2) maximumf,
    TRef.unary (TRef.of (T := ⟨S16384, .f32⟩) main_call2_v2) (TRef.of (T := ⟨S16384x1, .f32⟩) main_call2_v3) (broadcastInDim S16384x1 ![0] bcast_S16384_S16384x1_0),
    TRef.unary (TRef.of (T := ⟨S16384x1, .f32⟩) main_call2_v3) (TRef.of (T := ⟨S16384x1000, .f32⟩) main_call2_v4) (broadcastInDim S16384x1000 ![0, 1] bcast_S16384x1_S16384x1000_0_1),
    TRef.binary (TRef.of (T := ⟨S16384x1000, .f32⟩) main_v13) (TRef.of (T := ⟨S16384x1000, .f32⟩) main_call2_v4) (TRef.of (T := ⟨S16384x1000, .f32⟩) main_call2_v5) subf,
    TRef.unary (TRef.of (T := ⟨S16384x1000, .f32⟩) main_call2_v5) (TRef.of (T := ⟨S16384x1000, .f32⟩) main_call2_v6) Host.exp,
    TRef.nullary (TRef.of (T := ⟨S_, .f32⟩) main_call2_cst_1) (constant S_ .f32 0x00000000#32),
    TRef.binary (TRef.of (T := ⟨S16384x1000, .f32⟩) main_call2_v6) (TRef.of (T := ⟨S_, .f32⟩) main_call2_cst_1) (TRef.of (T := ⟨S16384, .f32⟩) main_call2_v7) (fun x v => Host.reduceAdd x v reducesTo_S16384x1000_S16384_d1 h_S_),
    TRef.unary (TRef.of (T := ⟨S16384, .f32⟩) main_call2_v7) (TRef.of (T := ⟨S16384x1, .f32⟩) main_call2_v8) (broadcastInDim S16384x1 ![0] bcast_S16384_S16384x1_0),
    TRef.unary (TRef.of (T := ⟨S16384x1, .f32⟩) main_call2_v8) (TRef.of (T := ⟨S16384x1, .f32⟩) main_call2_v9) Host.log,
    TRef.unary (TRef.of (T := ⟨S16384x1, .f32⟩) main_call2_v9) (TRef.of (T := ⟨S16384x1000, .f32⟩) main_call2_v10) (broadcastInDim S16384x1000 ![0, 1] bcast_S16384x1_S16384x1000_0_1),
    TRef.binary (TRef.of (T := ⟨S16384x1000, .f32⟩) main_call2_v5) (TRef.of (T := ⟨S16384x1000, .f32⟩) main_call2_v10) (TRef.of (T := ⟨S16384x1000, .f32⟩) main_v14) subf ]

/-- The labels as a column, a negative one shifted by the class count, reshaped to one index vector per row, in main_call3_v5. -/
def l3a : List (HloOp τ sig (Elt F)) :=
  [ unary main_arg3 main_v15 (broadcastInDim S16384x1 ![0] bcast_S16384_S16384x1_0 : (⟨S16384, .i32⟩ : BufTy).Contents (Elt F) → (⟨S16384x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S16384x1, .i32⟩) main_call3_v0) (broadcastInDim S16384x1 ![] bcast_S_S16384x1),
    TRef.binary (TRef.of (T := ⟨S16384x1, .i32⟩) main_v15) (TRef.of (T := ⟨S16384x1, .i32⟩) main_call3_v0) (TRef.of (T := ⟨S16384x1, .i1⟩) main_call3_v1) (cmpi .slt),
    TRef.nullary (TRef.of (T := ⟨S_, .i32⟩) main_call3_c_0) (constantI S_ 32 1000#32),
    TRef.unary (TRef.of (T := ⟨S_, .i32⟩) main_call3_c_0) (TRef.of (T := ⟨S16384x1, .i32⟩) main_call3_v2) (broadcastInDim S16384x1 ![] bcast_S_S16384x1),
    TRef.binary (TRef.of (T := ⟨S16384x1, .i32⟩) main_v15) (TRef.of (T := ⟨S16384x1, .i32⟩) main_call3_v2) (TRef.of (T := ⟨S16384x1, .i32⟩) main_call3_v3) addi,
    TRef.ternary (TRef.of (T := ⟨S16384x1, .i1⟩) main_call3_v1) (TRef.of (T := ⟨S16384x1, .i32⟩) main_call3_v3) (TRef.of (T := ⟨S16384x1, .i32⟩) main_v15) (TRef.of (T := ⟨S16384x1, .i32⟩) main_call3_v4) select,
    TRef.reshape (TRef.of (T := ⟨S16384x1, .i32⟩) main_call3_v4) (TRef.of (T := ⟨S16384x1x1, .i32⟩) main_call3_v5) rfl shapeCasts_S16384x1_S16384x1x1 ]

/-- The range test of the index vectors, the gather of the log-softmax at them, and the guarded choice, in main_v16. -/
def l3b : List (HloOp τ sig (Elt F)) :=
  [ TRef.nullary (TRef.of (T := ⟨S1, .i32⟩) main_call3_c_1) (constantI S1 32 999#32),
    TRef.nullary (TRef.of (T := ⟨S_, .i32⟩) main_call3_c_2) (constantI S_ 32 0#32),
    TRef.unary (TRef.of (T := ⟨S_, .i32⟩) main_call3_c_2) (TRef.of (T := ⟨S16384x1x1, .i32⟩) main_call3_v6) (broadcastInDim S16384x1x1 ![] bcast_S_S16384x1x1),
    TRef.binary (TRef.of (T := ⟨S16384x1x1, .i32⟩) main_call3_v5) (TRef.of (T := ⟨S16384x1x1, .i32⟩) main_call3_v6) (TRef.of (T := ⟨S16384x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S16384x1x1, .i32⟩) main_call3_v9) (broadcastInDim S16384x1x1 ![0, 1, 2] bcast_S1x1x1_S16384x1x1_0_1_2),
    TRef.binary (TRef.of (T := ⟨S16384x1x1, .i32⟩) main_call3_v5) (TRef.of (T := ⟨S16384x1x1, .i32⟩) main_call3_v9) (TRef.of (T := ⟨S16384x1x1, .i1⟩) main_call3_v10) (cmpi .sle),
    TRef.binary (TRef.of (T := ⟨S16384x1x1, .i1⟩) main_call3_v7) (TRef.of (T := ⟨S16384x1x1, .i1⟩) main_call3_v10) (TRef.of (T := ⟨S16384x1x1, .i1⟩) main_call3_v11) andi,
    TRef.nullary (TRef.of (T := ⟨S_, .i1⟩) main_call3_c_3) (constantI S_ 1 1#1),
    TRef.binary (TRef.of (T := ⟨S16384x1x1, .i1⟩) main_call3_v11) (TRef.of (T := ⟨S_, .i1⟩) main_call3_c_3) (TRef.of (T := ⟨S16384x1, .i1⟩) main_call3_v12) (fun x v => Host.reduce IntOp.andi x v reducesTo_S16384x1x1_S16384x1_d2 h_S_),
    TRef.binary (TRef.of (T := ⟨S16384x1000, .f32⟩) main_v14) (TRef.of (T := ⟨S16384x1x1, .i32⟩) main_call3_v5) (TRef.of (T := ⟨S16384x1, .f32⟩) main_call3_v13) (fun x i => Host.gather gather_S16384x1000_S16384x1x1_S16384x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S16384x1, .f32⟩) main_call3_v14) (broadcastInDim S16384x1 ![] bcast_S_S16384x1),
    TRef.ternary (TRef.of (T := ⟨S16384x1, .i1⟩) main_call3_v12) (TRef.of (T := ⟨S16384x1, .f32⟩) main_call3_v13) (TRef.of (T := ⟨S16384x1, .f32⟩) main_call3_v14) (TRef.of (T := ⟨S16384x1, .f32⟩) main_v16) select ]

/-- The sum over all rows, its quotient by the row count, and the sign: the loss, in main_v19. -/
def l4 : List (HloOp τ sig (Elt F)) :=
  [ nullary main_cst_2 (constant S_ .f32 0x00000000#32),
    binary main_v16 main_cst_2 main_v17 ((fun x v => Host.reduceAdd x v reducesTo_S16384x1_S_d0_1 h_S_) : (⟨S16384x1, .f32⟩ : BufTy).Contents (Elt F) → (⟨S_, .f32⟩ : BufTy).Contents (Elt F) → (⟨S_, .f32⟩ : BufTy).Contents (Elt F)),
    nullary main_cst_3 (constant S_ .f32 0x46800000#32),
    binary main_v17 main_cst_3 main_v18 (Host.divf : (⟨S_, .f32⟩ : BufTy).Contents (Elt F) → (⟨S_, .f32⟩ : BufTy).Contents (Elt F) → (⟨S_, .f32⟩ : BufTy).Contents (Elt F)),
    unary main_v18 main_v19 (Host.negf : (⟨S_, .f32⟩ : BufTy).Contents (Elt F) → (⟨S_, .f32⟩ : BufTy).Contents (Elt F)) ]

/-- The rest of the program (the class sums, the counts and the prototype update): it never writes main_v19. -/
def l5 : List (HloOp τ sig (Elt F)) :=
  [ nullary main_cst_4 (constant S_ .f32 0x00000000#32),
    unary main_cst_4 main_v20 (broadcastInDim S1000x512 ![] bcast_S_S1000x512 : (⟨S_, .f32⟩ : BufTy).Contents (Elt F) → (⟨S1000x512, .f32⟩ : BufTy).Contents (Elt F)),
    unary main_arg3 main_v21 (broadcastInDim S16384x1 ![0] bcast_S16384_S16384x1_0 : (⟨S16384, .i32⟩ : BufTy).Contents (Elt F) → (⟨S16384x1, .i32⟩ : BufTy).Contents (Elt F)),
    ternary main_v20 main_v21 main_v9 main_v22 ((fun x i u => Host.scatterAdd scatter_S1000x512_S16384x1_S16384x512_1_0_0_1 x i u) : (⟨S1000x512, .f32⟩ : BufTy).Contents (Elt F) → (⟨S16384x1, .i32⟩ : BufTy).Contents (Elt F) → (⟨S16384x512, .f32⟩ : BufTy).Contents (Elt F) → (⟨S1000x512, .f32⟩ : BufTy).Contents (Elt F)),
    nullary main_cst_5 (constant S_ .f32 0x3F800000#32),
    unary main_cst_5 main_v23 (broadcastInDim S16384 ![] bcast_S_S16384 : (⟨S_, .f32⟩ : BufTy).Contents (Elt F) → (⟨S16384, .f32⟩ : BufTy).Contents (Elt F)),
    nullary main_cst_6 (constant S_ .f32 0x00000000#32),
    unary main_cst_6 main_v24 (broadcastInDim S1000 ![] bcast_S_S1000 : (⟨S_, .f32⟩ : BufTy).Contents (Elt F) → (⟨S1000, .f32⟩ : BufTy).Contents (Elt F)),
    unary main_arg3 main_v25 (broadcastInDim S16384x1 ![0] bcast_S16384_S16384x1_0 : (⟨S16384, .i32⟩ : BufTy).Contents (Elt F) → (⟨S16384x1, .i32⟩ : BufTy).Contents (Elt F)),
    ternary main_v24 main_v25 main_v23 main_v26 ((fun x i u => Host.scatterAdd scatter_S1000_S16384x1_S16384_n_0_0_1 x i u) : (⟨S1000, .f32⟩ : BufTy).Contents (Elt F) → (⟨S16384x1, .i32⟩ : BufTy).Contents (Elt F) → (⟨S16384, .f32⟩ : BufTy).Contents (Elt F) → (⟨S1000, .f32⟩ : BufTy).Contents (Elt F)),
    nullary main_cst_7 (constant S_ .f32 0x3F800000#32),
    unary main_cst_7 main_v27 (broadcastInDim S1000 ![] bcast_S_S1000 : (⟨S_, .f32⟩ : BufTy).Contents (Elt F) → (⟨S1000, .f32⟩ : BufTy).Contents (Elt F)),
    binary main_v26 main_v27 main_v28 (maximumf : (⟨S1000, .f32⟩ : BufTy).Contents (Elt F) → (⟨S1000, .f32⟩ : BufTy).Contents (Elt F) → (⟨S1000, .f32⟩ : BufTy).Contents (Elt F)),
    unary main_v28 main_v29 (broadcastInDim S1000x1 ![0] bcast_S1000_S1000x1_0 : (⟨S1000, .f32⟩ : BufTy).Contents (Elt F) → (⟨S1000x1, .f32⟩ : BufTy).Contents (Elt F)),
    unary main_v29 main_v30 (broadcastInDim S1000x512 ![0, 1] bcast_S1000x1_S1000x512_0_1 : (⟨S1000x1, .f32⟩ : BufTy).Contents (Elt F) → (⟨S1000x512, .f32⟩ : BufTy).Contents (Elt F)),
    binary main_v22 main_v30 main_v31 (Host.divf : (⟨S1000x512, .f32⟩ : BufTy).Contents (Elt F) → (⟨S1000x512, .f32⟩ : BufTy).Contents (Elt F) → (⟨S1000x512, .f32⟩ : BufTy).Contents (Elt F)),
    TRef.binary (TRef.of (T := ⟨S1000x512, .f32⟩) main_v31) (TRef.of (T := ⟨S1000x512, .f32⟩) main_v31) (TRef.of (T := ⟨S1000x512, .f32⟩) main_call4_v0) mulf,
    TRef.nullary (TRef.of (T := ⟨S_, .f32⟩) main_call4_cst) (constant S_ .f32 0x00000000#32),
    TRef.binary (TRef.of (T := ⟨S1000x512, .f32⟩) main_call4_v0) (TRef.of (T := ⟨S_, .f32⟩) main_call4_cst) (TRef.of (T := ⟨S1000, .f32⟩) main_call4_v1) (fun x v => Host.reduceAdd x v reducesTo_S1000x512_S1000_d1 h_S_),
    TRef.unary (TRef.of (T := ⟨S1000, .f32⟩) main_call4_v1) (TRef.of (T := ⟨S1000x1, .f32⟩) main_call4_v2) (broadcastInDim S1000x1 ![0] bcast_S1000_S1000x1_0),
    TRef.unary (TRef.of (T := ⟨S1000x1, .f32⟩) main_call4_v2) (TRef.of (T := ⟨S1000x1, .f32⟩) main_v32) Host.sqrt,
    nullary main_cst_8 (constant S_ .f32 0x2B8CBCCC#32),
    unary main_cst_8 main_v33 (broadcastInDim S1000x1 ![] bcast_S_S1000x1 : (⟨S_, .f32⟩ : BufTy).Contents (Elt F) → (⟨S1000x1, .f32⟩ : BufTy).Contents (Elt F)),
    binary main_v32 main_v33 main_v34 (maximumf : (⟨S1000x1, .f32⟩ : BufTy).Contents (Elt F) → (⟨S1000x1, .f32⟩ : BufTy).Contents (Elt F) → (⟨S1000x1, .f32⟩ : BufTy).Contents (Elt F)),
    unary main_v34 main_v35 (broadcastInDim S1000x512 ![0, 1] bcast_S1000x1_S1000x512_0_1 : (⟨S1000x1, .f32⟩ : BufTy).Contents (Elt F) → (⟨S1000x512, .f32⟩ : BufTy).Contents (Elt F)),
    binary main_v31 main_v35 main_v36 (Host.divf : (⟨S1000x512, .f32⟩ : BufTy).Contents (Elt F) → (⟨S1000x512, .f32⟩ : BufTy).Contents (Elt F) → (⟨S1000x512, .f32⟩ : BufTy).Contents (Elt F)),
    nullary main_cst_9 (constant S_ .f32 0x00000000#32),
    unary main_cst_9 main_v37 (broadcastInDim S1000 ![] bcast_S_S1000 : (⟨S_, .f32⟩ : BufTy).Contents (Elt F) → (⟨S1000, .f32⟩ : BufTy).Contents (Elt F)),
    binary main_v26 main_v37 main_v38 (cmpf .ogt : (⟨S1000, .f32⟩ : BufTy).Contents (Elt F) → (⟨S1000, .f32⟩ : BufTy).Contents (Elt F) → (⟨S1000, .i1⟩ : BufTy).Contents (Elt F)),
    unary main_v38 main_v39 (broadcastInDim S1000x1 ![0] bcast_S1000_S1000x1_0 : (⟨S1000, .i1⟩ : BufTy).Contents (Elt F) → (⟨S1000x1, .i1⟩ : BufTy).Contents (Elt F)),
    nullary main_cst_10 (constant S_ .f32 0x3F666666#32),
    unary main_cst_10 main_v40 (broadcastInDim S1000x512 ![] bcast_S_S1000x512 : (⟨S_, .f32⟩ : BufTy).Contents (Elt F) → (⟨S1000x512, .f32⟩ : BufTy).Contents (Elt F)),
    binary main_v40 main_arg1 main_v41 (mulf : (⟨S1000x512, .f32⟩ : BufTy).Contents (Elt F) → (⟨S1000x512, .f32⟩ : BufTy).Contents (Elt F) → (⟨S1000x512, .f32⟩ : BufTy).Contents (Elt F)),
    nullary main_cst_11 (constant S_ .f32 0x3DCCCCCD#32),
    unary main_cst_11 main_v42 (broadcastInDim S1000x512 ![] bcast_S_S1000x512 : (⟨S_, .f32⟩ : BufTy).Contents (Elt F) → (⟨S1000x512, .f32⟩ : BufTy).Contents (Elt F)),
    binary main_v42 main_v36 main_v43 (mulf : (⟨S1000x512, .f32⟩ : BufTy).Contents (Elt F) → (⟨S1000x512, .f32⟩ : BufTy).Contents (Elt F) → (⟨S1000x512, .f32⟩ : BufTy).Contents (Elt F)),
    binary main_v41 main_v43 main_v44 (addf : (⟨S1000x512, .f32⟩ : BufTy).Contents (Elt F) → (⟨S1000x512, .f32⟩ : BufTy).Contents (Elt F) → (⟨S1000x512, .f32⟩ : BufTy).Contents (Elt F)),
    TRef.unary (TRef.of (T := ⟨S1000x1, .i1⟩) main_v39) (TRef.of (T := ⟨S1000x512, .i1⟩) main_call5_v0) (broadcastInDim S1000x512 ![0, 1] bcast_S1000x1_S1000x512_0_1),
    TRef.ternary (TRef.of (T := ⟨S1000x512, .i1⟩) main_call5_v0) (TRef.of (T := ⟨S1000x512, .f32⟩) main_v44) (TRef.of (T := ⟨S1000x512, .f32⟩) main_arg1) (TRef.of (T := ⟨S1000x512, .f32⟩) main_v45) select,
    binary main_arg2 main_v26 main_v46 (addf : (⟨S1000, .f32⟩ : BufTy).Contents (Elt F) → (⟨S1000, .f32⟩ : BufTy).Contents (Elt F) → (⟨S1000, .f32⟩ : BufTy).Contents (Elt F)) ]

set_option maxRecDepth 8192 in
/-- The program's operation list is the concatenation of the stretches. -/
theorem ops_cut : (ops (F := F)) = l1 ++ (l2 ++ (l3a ++ (l3b ++ (l4 ++ l5)))) := rfl

/-! ## Each stretch, from any contents of the buffers it starts from -/

set_option maxRecDepth 8192 in
/-- After the first stretch the scaled-logits buffer holds the scaled-logits stage of the two arrays. -/
theorem s1_v13 (V : Valuation τ sig (Elt F)) :
    after (l1 (F := F)) V (Proc.devRef .tc main_v13)
      = Read.val_main_v13 (F := F) (V (Proc.devRef .tc main_arg0)) (V (Proc.devRef .tc main_arg1)) := by
  unfold l1
  refine Eq.trans ?_ (Read.val_main_v13_eq _ _)
  after_results_simp <;> rfl

set_option maxRecDepth 8192 in
/-- The first stretch leaves the labels as they were. -/
theorem s1_arg3 (V : Valuation τ sig (Elt F)) :
    after (l1 (F := F)) V (Proc.devRef .tc main_arg3) = V (Proc.devRef .tc main_arg3) := by
  unfold l1
  after_results_simp

set_option maxRecDepth 8192 in
/-- From contents whose scaled-logits buffer holds the scaled-logits stage, the second stretch leaves the
    log-softmax stage in main_v14. -/
theorem s2_v14 (W : Valuation τ sig (Elt F)) (x0 : (⟨S16384x512, .f32⟩ : BufTy).Contents (Elt F)) (x1 : (⟨S1000x512, .f32⟩ : BufTy).Contents (Elt F))
    (h13 : W (Proc.devRef .tc main_v13) = Read.val_main_v13 (F := F) x0 x1) :
    after (l2 (F := F)) W (Proc.devRef .tc main_v14) = Read.val_main_v14 (F := F) x0 x1 := by
  unfold l2
  after_results_simp
  rw [h13]
  simp only [ofBuf_toBuf, ofBuf_v13, toBuf_v14]
  rfl

set_option maxRecDepth 8192 in
/-- The second stretch leaves the labels as they were. -/
theorem s2_arg3 (W : Valuation τ sig (Elt F)) :
    after (l2 (F := F)) W (Proc.devRef .tc main_arg3) = W (Proc.devRef .tc main_arg3) := by
  unfold l2
  after_results_simp

set_option maxRecDepth 8192 in
/-- From contents whose label buffer holds x3, the third stretch's first half leaves the index-vector stage in
    main_call3_v5. -/
theorem s3a_v5 (W : Valuation τ sig (Elt F)) (x3 : (⟨S16384, .i32⟩ : BufTy).Contents (Elt F))
    (h3 : W (Proc.devRef .tc main_arg3) = x3) :
    after (l3a (F := F)) W (Proc.devRef .tc main_call3_v5) = Read.val_main_call3_v5 (F := F) x3 := by
  unfold l3a
  after_results_simp
  rw [h3]
  simp only [ofBuf_toBuf, ofBuf_v15, toBuf_c3v4]
  rfl

set_option maxRecDepth 8192 in
/-- The third stretch's first half leaves the log-softmax buffer as it was. -/
theorem s3a_v14 (W : Valuation τ sig (Elt F)) :
    after (l3a (F := F)) W (Proc.devRef .tc main_v14) = W (Proc.devRef .tc main_v14) := by
  unfold l3a
  after_results_simp

set_option maxRecDepth 8192 in
/-- From contents holding the log-softmax stage and the index-vector stage, the third stretch's second half leaves the
    gathered, guarded column stage in main_v16. -/
theorem s3b_v16 (W : Valuation τ sig (Elt F)) (x0 : (⟨S16384x512, .f32⟩ : BufTy).Contents (Elt F)) (x1 : (⟨S1000x512, .f32⟩ : BufTy).Contents (Elt F)) (x3 : (⟨S16384, .i32⟩ : BufTy).Contents (Elt F))
    (h14 : W (Proc.devRef .tc main_v14) = Read.val_main_v14 (F := F) x0 x1)
    (h5 : W (Proc.devRef .tc main_call3_v5) = Read.val_main_call3_v5 (F := F) x3) :
    after (l3b (F := F)) W (Proc.devRef .tc main_v16) = Read.val_main_v16 (F := F) x0 x1 x3 := by
  unfold l3b
  after_results_simp
  rw [h14, h5]
  simp only [ofBuf_toBuf, ofBuf_v14, ofBuf_c3v5, toBuf_v16]
  rfl

set_option maxRecDepth 8192 in
/-- From contents holding the gathered column stage, the fourth stretch leaves the loss stage in main_v19. -/
theorem s4_v19 (W : Valuation τ sig (Elt F)) (x0 : (⟨S16384x512, .f32⟩ : BufTy).Contents (Elt F)) (x1 : (⟨S1000x512, .f32⟩ : BufTy).Contents (Elt F)) (x3 : (⟨S16384, .i32⟩ : BufTy).Contents (Elt F))
    (h16 : W (Proc.devRef .tc main_v16) = Read.val_main_v16 (F := F) x0 x1 x3) :
    after (l4 (F := F)) W (Proc.devRef .tc main_v19) = Read.val_main_v19 (F := F) x0 x1 x3 := by
  unfold l4
  after_results_simp
  rw [h16]
  rfl

set_option maxRecDepth 8192 in
/-- The rest of the program leaves the loss buffer as it was. -/
theorem s5_v19 (W : Valuation τ sig (Elt F)) :
    after (l5 (F := F)) W (Proc.devRef .tc main_v19) = W (Proc.devRef .tc main_v19) := by
  unfold l5
  after_results_simp

/-! ## The join -/

/-- The fold of the program's operations over the launch contents, at the loss's buffer, is the loss stage. -/
theorem after_v19 (m : (ℓ : Loc nD τ sig) → Buf (Elt F) ℓ) (c : Dev nD) :
    after (ops (F := F)) (launchContents m c) (Proc.devRef .tc main_v19)
      = Read.val_main_v19 (F := F) (m ((c.tc : Thread nD τ).loc main_arg0)) (m ((c.tc : Thread nD τ).loc main_arg1)) (m ((c.tc : Thread nD τ).loc main_arg3)) := by
  have e1 := s1_v13 (F := F) (launchContents m c)
  have a1 := s1_arg3 (F := F) (launchContents m c)
  have e2 := s2_v14 _ _ _ e1
  have a2 := (s2_arg3 (F := F) (after l1 (launchContents m c))).trans a1
  have e3a := s3a_v5 _ _ a2
  have k3a := (s3a_v14 (F := F) (after l2 (after l1 (launchContents m c)))).trans e2
  have e3b := s3b_v16 _ _ _ _ k3a e3a
  have e4 := s4_v19 _ _ _ _ e3b
  rw [ops_cut, after_append, after_append, after_append, after_append, after_append]
  exact (s5_v19 _).trans e4

end Cert.ReferenceIdeal.Run19

end
-- ==== Proof.RefRunHand.lean ====
/-
  The reference program's run read as values: every weakly fair execution of its @main terminates with each of the four
  results at its stage function of the argument arrays (the stages compose the program's 108 host operations) and the
  arguments unchanged. The operations run in sequence, so the final contents of a buffer are the fold of the operations'
  results over the launch contents; for three results the fold is read in one pass, and for the loss, the deepest chain
  (scaled logits, log-softmax, the gather at the labels, the mean and the sign), it is read stretch by stretch.
-/
import proofs.«417236_j85134841741643_3_alg».proof.Proof.RefRun
import proofs.«417236_j85134841741643_3_alg».proof.Proof.RefRead
import proofs.«417236_j85134841741643_3_alg».proof.Proof.RefJoin
import proofs.«417236_j85134841741643_3_alg».proof.Proof.RefRun19

noncomputable section

namespace Cert.ReferenceIdeal.RunHand

open Cert.ReferenceIdeal Cert.ReferenceIdeal.Gen Idealize.ShloMosaic Idealize.ShloMosaic.TcCoe Idealize.SL.Sem Idealize.ShloMosaic.StableHlo
open Cert.ReferenceIdeal.Value (ops main_eq scopedRefs_eq scopedSems_eq ops_sub res_main_v45)

variable {F : FTy → Type} [FloatOps F]

set_option maxRecDepth 8192 in
set_option maxHeartbeats 43200000 in
/-- The run, with every result at its stage. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
          = Read.val_main_v19 (F := F) (m ((c.tc : Thread nD τ).loc main_arg0)) (m ((c.tc : Thread nD τ).loc main_arg1)) (m ((c.tc : Thread nD τ).loc main_arg3))
      ∧ r.2.mem ((c.tc : Thread nD τ).loc main_v13)
          = Read.val_main_v13 (F := F) (m ((c.tc : Thread nD τ).loc main_arg0)) (m ((c.tc : Thread nD τ).loc main_arg1))
      ∧ r.2.mem ((c.tc : Thread nD τ).loc main_v45)
          = Read.val_main_v45 (F := F) (m ((c.tc : Thread nD τ).loc main_arg0)) (m ((c.tc : Thread nD τ).loc main_arg1)) (m ((c.tc : Thread nD τ).loc main_arg3))
      ∧ r.2.mem ((c.tc : Thread nD τ).loc main_v46)
          = Read.val_main_v46 (F := F) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v19).trans (Cert.ReferenceIdeal.Run19.after_v19 m c),
      (h c main_v13).trans (Eq.trans (by after_results_simp <;> rfl) (Read.val_main_v13_eq _ _)),
      (h c main_v45).trans (Eq.trans (by after_results_simp <;> rfl <;> (unfold res_main_v45; rfl)) (Read.val_main_v45_eq m c)),
      (h c main_v46).trans (Eq.trans (by after_results_simp <;> rfl) (Read.val_main_v46_eq _ _)),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RunHand

end
-- ==== Proof.PreRead.lean ====
/-
  The precondition read at the ideal instance (floats are extended reals).

  The printed predicate is the conjunction of four tests, each a universally quantified comparison folded by "and" from
  the constant 1: for each of the three float inputs, the absolute value of every entry lies strictly below the word
  0x7F800000, which denotes plus infinity; and every 32-bit label, read signed, is at least 0 and below 1000. When the
  predicate comes out 1, every fold came out 1, so every comparison did. An extended real whose absolute value
  max x (-x) is below plus infinity is neither infinity, hence a real. A 32-bit word whose signed value lies in
  [0, 1000) has its top bit clear, so its unsigned value is the same number, below 1000.
-/
import proofs.«417236_j85134841741643_3_alg».proof.Pre_finite_inputs
import proofs.«417236_j85134841741643_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreRead

open Idealize.ShloMosaic

attribute [local instance] Cert.Pre_finite_inputs.Gen.facts

/-- The rank-0 shape has one index. -/
instance : Subsingleton Cert.Pre_finite_inputs.S_.Idx := ⟨fun a b => funext fun d => d.elim0⟩

/-- The f32 word 0x7F800000 (sign clear, exponent all ones, significand zero) denotes plus infinity. -/
theorem inf_word : Ideal.ofBits .f32 0x7F800000#32 = (⊤ : EReal) := by
  simp [Ideal.ofBits, Ideal.ieee]

/-- An extended real whose absolute value is below plus infinity is a real. -/
theorem real_of_abs_lt_top (x : EReal) (h : max x (-x) < ⊤) : ∃ r : ℝ, x = (r : EReal) := by
  induction x using EReal.rec with
  | bot => simp at h
  | coe r => exact ⟨r, rfl⟩
  | top => simp at h

/-- A 32-bit word whose signed value lies in [0, 1000) has unsigned value below 1000. -/
theorem toNat_lt_of_signed (w : BitVec 32) (h0 : (0#32 : BitVec 32).toInt ≤ w.toInt)
    (h1 : w.toInt < (1000#32 : BitVec 32).toInt) : w.toNat < 1000 := by
  have e0 : (0#32 : BitVec 32).toInt = 0 := by decide
  have e1 : (1000#32 : BitVec 32).toInt = 1000 := by decide
  rw [e0] at h0
  rw [e1] at h1
  have hw := w.isLt
  rw [BitVec.toInt_eq_toNat_cond] at h0 h1
  split at h0 <;> omega

/-- A fold by "and" of the tests |v i| < +inf that came out 1: every entry of v is a real. -/
theorem all_finite {s : Shape} {axes : List (Fin s.rank)} (V : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
          (cmpf .olt (Host.absf V)
            (broadcastInDim s ![] hb (constant (F := Ideal) Cert.Pre_finite_inputs.S_ .f32 0x7F800000#32)))
          (constantI Cert.Pre_finite_inputs.S_ 1 1#1) hr h0 ValueIdx.ix0 = 1#1)
    (i : s.Idx) : ∃ r : ℝ, V i = (r : EReal) := by
  have hi := Host.reduce_andi_all _ _ hr h0 _ e i
  have hc : Ideal.cmp .olt (max (V i) (-(V i))) (Ideal.ofBits .f32 0x7F800000#32) = 1#1 := hi
  rw [inf_word] at hc
  have hlt : max (V i) (-(V i)) < (⊤ : EReal) := by
    simpa [Ideal.cmp, StableHlo.Predicate.ofBool_eq_one_iff] using hc
  exact real_of_abs_lt_top _ hlt

/-- The precondition, read: every float entry is a real and every label is below 1000. -/
theorem read (X : FVec Ideal Cert.Pre_finite_inputs.S16384x512 .f32) (P : FVec Ideal Cert.Pre_finite_inputs.S1000x512 .f32)
    (CC : FVec Ideal Cert.Pre_finite_inputs.S1000 .f32) (L : IVec Cert.Pre_finite_inputs.S16384 32)
    (h : Cert.Pre_finite_inputs.fn (F := Ideal) X P CC L = fun _ => 1#1) :
    (∀ i, ∃ r : ℝ, X i = (r : EReal)) ∧ (∀ i, ∃ r : ℝ, P i = (r : EReal)) ∧ (∀ i, ∃ r : ℝ, CC i = (r : EReal))
      ∧ (∀ b : Fin 16384, (L (Idealize.ShloMosaic.ValueIdx.ix1 b)).toNat < 1000) := by
  have e := congrFun h ValueIdx.ix0
  dsimp only [Cert.Pre_finite_inputs.fn, Cert.Pre_finite_inputs.fn_part1] at e
  -- the outer three "and"s of the four folds, read at the one index
  obtain ⟨e123, eL⟩ := IntOp.andi_eq_one.1 e
  obtain ⟨e12, eC⟩ := IntOp.andi_eq_one.1 e123
  obtain ⟨eX, eP⟩ := IntOp.andi_eq_one.1 e12
  refine ⟨fun i => all_finite X _ _ _ eX i, fun i => all_finite P _ _ _ eP i, fun i => all_finite CC _ _ _ eC i, fun b => ?_⟩
  -- the label test at row b: the "and" of the two signed comparisons against the broadcast constants
  have hb := Host.reduce_andi_all _ _ _ _ _ eL (ValueIdx.ix1 b)
  obtain ⟨hge, hlt⟩ := IntOp.andi_eq_one.1 hb
  exact toNat_lt_of_signed _ (IntOp.cmpi_sge.1 hge) (IntOp.cmpi_slt.1 hlt)

end Cert.PreRead

end
-- ==== Proof.Spec.lean ====
/-
  The mathematics both programs compute, at the ideal instance (floats are extended reals, every operation exact),
  stated once over literal shapes so that each side is proved equal to THESE functions and never to the other side.

  A row of features or of prototypes is scaled by the larger of its Euclidean length and eps; a logit is the dot product
  of a scaled feature row with a scaled prototype row times the reciprocal of the temperature; a row's log-probabilities
  are its logits shifted by the row's largest logit, less the logarithm of the sum of the shifted logits' exponentials;
  the loss is minus the mean, over the batch, of the log-probability each row gives to its own label; a class's count is
  the number of rows carrying its label and its sum the sum of those rows' scaled features; a prototype of a class with
  at least one row moves to 0.9 of itself plus 0.1 of the class mean scaled to unit length.

  The kernel works tile by tile (512 rows of the batch at a grid point, the class axis padded from 1000 to 1024 columns
  whose logits are replaced by minus infinity): the `t…` functions say what ONE tile contributes.
-/
import Idealize.ShloMosaic.PureOps.Ideal
import Idealize.ShloMosaic.Lib.ValueIdx

noncomputable section

namespace Cert.Spec

open Idealize.ShloMosaic Idealize.ShloMosaic.ValueIdx

/-- The clamp under the norms: the f32 word of 1e-12. -/
def epsE : EReal := Ideal.ofBits .f32 0x2B8CBCCC#32

/-- The reciprocal of the temperature: one over the f32 word of 0.1, which is 13421773 / 2^27. -/
def invT : EReal := ((134217728 / 13421773 : ℝ) : EReal)

/-- Entry `k` of row `r` of an `[n, 512]` array, over the larger of the row's Euclidean length and eps. -/
def unit {n : ℕ} (A : (⟨2, ![n, 512]⟩ : Shape).Idx → EReal) (r : Fin n) (k : Fin 512) : EReal :=
  Ideal.div (A (ix2 r k)) (max (Ideal.sqrt (∑ j : Fin 512, A (ix2 r j) * A (ix2 r j))) epsE)

/-! ## One tile: 512 rows against the 1024 padded prototype rows -/

section Tile

variable (x0 : (⟨2, ![512, 512]⟩ : Shape).Idx → EReal) (x1 : (⟨2, ![1024, 512]⟩ : Shape).Idx → EReal)
  (x2 : (⟨2, ![512, 1]⟩ : Shape).Idx → BitVec 32)

/-- The tile's logit of row `r` against padded prototype row `c` (already scaled: the block `x1` holds scaled rows). -/
def tLogit (r : Fin 512) (c : Fin 1024) : EReal := (∑ k : Fin 512, unit x0 r k * x1 (ix2 c k)) * invT

/-- The padding columns replaced by minus infinity. -/
def tMasked (r : Fin 512) (c : Fin 1024) : EReal := if c.val < 1000 then tLogit x0 x1 r c else ⊥

/-- The row's largest masked logit. -/
def tMax (r : Fin 512) : EReal := Finset.univ.sup fun c : Fin 1024 => tMasked x0 x1 r c

/-- The masked logits shifted by the row's largest. -/
def tShift (r : Fin 512) (c : Fin 1024) : EReal := tMasked x0 x1 r c - tMax x0 x1 r

/-- The logarithm of the sum of the shifted logits' exponentials. -/
def tLse (r : Fin 512) : EReal := Ideal.log (∑ c : Fin 1024, Ideal.exp (tShift x0 x1 r c))

/-- Column `c` is the label of the tile's row `r` (as 32-bit words). -/
def tHot (r : Fin 512) (c : Fin 1024) : Prop := BitVec.ofNat 32 c.val = x2 (ix2 r 0)

instance (r : Fin 512) (c : Fin 1024) : Decidable (tHot x2 r c) := by unfold tHot; infer_instance

/-- The shifted logit at the row's label, picked by a sum against the one-hot row. -/
def tSel (r : Fin 512) : EReal := ∑ c : Fin 1024, if tHot x2 r c then tShift x0 x1 r c else 0

/-- What the tile adds to its core's loss accumulator: zero minus the sum of its rows' label log-probabilities. -/
def tLoss : EReal := 0 - ∑ r : Fin 512, (tSel x0 x1 x2 r - tLse x0 x1 r)

/-- What the tile adds to its core's class sums at (padded class `c`, feature `d`). -/
def tSum (c : Fin 1024) (d : Fin 512) : EReal :=
  ∑ r : Fin 512, (if tHot x2 r c then (1 : EReal) else 0) * unit x0 r d

/-- What the tile adds to its core's class counts at padded class `c`. -/
def tCnt (c : Fin 1024) : EReal := ∑ r : Fin 512, if tHot x2 r c then (1 : EReal) else 0

end Tile

/-! ## The whole batch -/

section Whole

variable (X : (⟨2, ![16384, 512]⟩ : Shape).Idx → EReal) (P : (⟨2, ![1000, 512]⟩ : Shape).Idx → EReal)
  (CC : (⟨1, ![1000]⟩ : Shape).Idx → EReal) (L : (⟨1, ![16384]⟩ : Shape).Idx → BitVec 32)

/-- The logit of batch row `b` against class `c`. -/
def logit (b : Fin 16384) (c : Fin 1000) : EReal := (∑ k : Fin 512, unit X b k * unit P c k) * invT

/-- The row's largest logit. -/
def rowMax (b : Fin 16384) : EReal := Finset.univ.sup fun c : Fin 1000 => logit X P b c

/-- The logarithm of the sum of the shifted logits' exponentials. -/
def rowLse (b : Fin 16384) : EReal := Ideal.log (∑ c : Fin 1000, Ideal.exp (logit X P b c - rowMax X P b))

/-- The log-probability row `b` gives to class `c`. -/
def logp (b : Fin 16384) (c : Fin 1000) : EReal := (logit X P b c - rowMax X P b) - rowLse X P b

/-- Class `c` is the label of batch row `b` (as 32-bit words). -/
def hot (b : Fin 16384) (c : Fin 1000) : Prop := BitVec.ofNat 32 c.val = L (ix1 b)

instance (b : Fin 16384) (c : Fin 1000) : Decidable (hot L b c) := by unfold hot; infer_instance

/-- The log-probability row `b` gives to its own label. -/
def labLogp (b : Fin 16384) : EReal := ∑ c : Fin 1000, if hot L b c then logp X P b c else 0

/-- The number of rows labelled `c`. -/
def count (c : Fin 1000) : EReal := ∑ b : Fin 16384, if hot L b c then (1 : EReal) else 0

/-- The sum of the scaled feature rows labelled `c`, at feature `d`. -/
def classSum (c : Fin 1000) (d : Fin 512) : EReal := ∑ b : Fin 16384, if hot L b c then unit X b d else 0

/-- The class mean: the sum over the larger of the count and one. -/
def classMean (c : Fin 1000) (d : Fin 512) : EReal :=
  Ideal.div (classSum X L c d) (max (count L c) (Ideal.ofBits .f32 0x3F800000#32))

/-- The class mean scaled to unit length (by the larger of its length and eps). -/
def classDir (c : Fin 1000) (d : Fin 512) : EReal :=
  Ideal.div (classMean X L c d)
    (max (Ideal.sqrt (∑ j : Fin 512, classMean X L c j * classMean X L c j)) epsE)

/-! ### The four results -/

/-- Result 0: the loss. -/
def outLoss : (⟨0, ![]⟩ : Shape).Idx → EReal := fun _ =>
  -(Ideal.div (∑ b : Fin 16384, labLogp X P L b) (Ideal.ofBits .f32 0x46800000#32))

/-- Result 1: the logits. -/
def outLogits : (⟨2, ![16384, 1000]⟩ : Shape).Idx → EReal := fun i =>
  logit X P ⟨(i 0).val, idx2_lt0 i⟩ ⟨(i 1).val, idx2_lt1 i⟩

/-- Result 3: the updated counts. -/
def outCounts : (⟨1, ![1000]⟩ : Shape).Idx → EReal := fun i => CC i + count L ⟨(i 0).val, (i 0).isLt⟩

end Whole

/-! ## The same results as the kernel forms them: tile by tile, two cores of sixteen tiles

Tile `t` holds batch rows `512 t … 512 t + 511`; core `k` runs tiles `16 k … 16 k + 15` and keeps one accumulator. -/

section KForm

variable (X : (⟨2, ![16384, 512]⟩ : Shape).Idx → EReal) (P : (⟨2, ![1000, 512]⟩ : Shape).Idx → EReal)
  (CC : (⟨1, ![1000]⟩ : Shape).Idx → EReal) (L : (⟨1, ![16384]⟩ : Shape).Idx → BitVec 32)

/-- Tile `t`'s block of the features. -/
def xTile (t : Fin 32) : (⟨2, ![512, 512]⟩ : Shape).Idx → EReal := fun i =>
  X (ix2 ⟨512 * t.val + (i 0).val, by have := idx2_lt0 i; have := t.isLt; omega⟩ ⟨(i 1).val, idx2_lt1 i⟩)

/-- Tile `t`'s block of the labels (a column). -/
def lTile (t : Fin 32) : (⟨2, ![512, 1]⟩ : Shape).Idx → BitVec 32 := fun i =>
  L (ix1 ⟨512 * t.val + (i 0).val, by have := idx2_lt0 i; have := t.isLt; omega⟩)

/-- The scaled prototypes padded with 24 zero rows. -/
def pPad : (⟨2, ![1024, 512]⟩ : Shape).Idx → EReal := fun i =>
  if h : (i 0).val < 1000 then unit P ⟨(i 0).val, h⟩ ⟨(i 1).val, idx2_lt1 i⟩ else 0

/-- Tile `j` of core `k`. -/
def tileOf (k : Fin 2) (j : Fin 16) : Fin 32 := ⟨16 * k.val + j.val, by have := k.isLt; have := j.isLt; omega⟩

/-- The two cores' class sums added. -/
def kSum (c : Fin 1024) (d : Fin 512) : EReal :=
  ∑ k : Fin 2, ∑ j : Fin 16, tSum (xTile X (tileOf k j)) (lTile L (tileOf k j)) c d

/-- The two cores' class counts added. -/
def kCnt (c : Fin 1024) : EReal := ∑ k : Fin 2, ∑ j : Fin 16, tCnt (lTile L (tileOf k j)) c

/-- The two cores' loss accumulators added. -/
def kLossSum : EReal := ∑ k : Fin 2, ∑ j : Fin 16, tLoss (xTile X (tileOf k j)) (pPad P) (lTile L (tileOf k j))

/-- The logit as its tile computes it. -/
def kLogit (b : Fin 16384) (c : Fin 1000) : EReal :=
  tLogit (xTile X ⟨b.val / 512, by have := b.isLt; omega⟩) (pPad P) ⟨b.val % 512, Nat.mod_lt _ (by norm_num)⟩
    ⟨c.val, by have := c.isLt; omega⟩

end KForm

/-- The prototype update from class sums `S` and class counts `N`: the class mean (sum over the larger of count and
    one) scaled to unit length, blended 0.9 / 0.1 into the prototype where the class has a row. -/
def protoUpd (S : Fin 1000 → Fin 512 → EReal) (N : Fin 1000 → EReal) (P : (⟨2, ![1000, 512]⟩ : Shape).Idx → EReal) :
    (⟨2, ![1000, 512]⟩ : Shape).Idx → EReal := fun i =>
  let c : Fin 1000 := ⟨(i 0).val, idx2_lt0 i⟩
  let mean : Fin 512 → EReal := fun d => Ideal.div (S c d) (max (N c) (Ideal.ofBits .f32 0x3F800000#32))
  let dir : EReal := Ideal.div (mean ⟨(i 1).val, idx2_lt1 i⟩) (max (Ideal.sqrt (∑ j : Fin 512, mean j * mean j)) epsE)
  if (0 : EReal) < N c then Ideal.ofBits .f32 0x3F666666#32 * P i + Ideal.ofBits .f32 0x3DCCCCCD#32 * dir else P i

section KOut

variable (X : (⟨2, ![16384, 512]⟩ : Shape).Idx → EReal) (P : (⟨2, ![1000, 512]⟩ : Shape).Idx → EReal)
  (CC : (⟨1, ![1000]⟩ : Shape).Idx → EReal) (L : (⟨1, ![16384]⟩ : Shape).Idx → BitVec 32)

/-- Kernel result 0. -/
def kOutLoss : (⟨0, ![]⟩ : Shape).Idx → EReal := fun _ => Ideal.div (kLossSum X P L) (Ideal.ofBits .f32 0x46800000#32)

/-- Kernel result 1. -/
def kOutLogits : (⟨2, ![16384, 1000]⟩ : Shape).Idx → EReal := fun i =>
  kLogit X P ⟨(i 0).val, idx2_lt0 i⟩ ⟨(i 1).val, idx2_lt1 i⟩

/-- Kernel result 2. -/
def kOutProtos : (⟨2, ![1000, 512]⟩ : Shape).Idx → EReal :=
  protoUpd (fun c d => kSum X L ⟨c.val, by have := c.isLt; omega⟩ d) (fun c => kCnt L ⟨c.val, by have := c.isLt; omega⟩) P

/-- Kernel result 3. -/
def kOutCounts : (⟨1, ![1000]⟩ : Shape).Idx → EReal := fun i =>
  CC i + kCnt L ⟨(i 0).val, lt_trans (show (i 0).val < 1000 from (i 0).isLt) (by norm_num)⟩

/-- The reference's prototype update is the same formula over the whole-batch sums and counts. -/
def rOutProtos : (⟨2, ![1000, 512]⟩ : Shape).Idx → EReal := protoUpd (classSum X L) (count L) P

end KOut

/-! ## The accumulator arrays the kernel writes back: one slot per core, the core's sixteen tiles added -/

section KAcc

variable (X : (⟨2, ![16384, 512]⟩ : Shape).Idx → EReal) (P : (⟨2, ![1000, 512]⟩ : Shape).Idx → EReal)
  (L : (⟨1, ![16384]⟩ : Shape).Idx → BitVec 32)

/-- The class-sum accumulator `[2, 1024, 512]`. -/
def accSum : (⟨3, ![2, 1024, 512]⟩ : Shape).Idx → EReal := fun i =>
  ∑ j : Fin 16, tSum (xTile X (tileOf ⟨(i 0).val, (i 0).isLt⟩ j)) (lTile L (tileOf ⟨(i 0).val, (i 0).isLt⟩ j))
    ⟨(i 1).val, (i 1).isLt⟩ ⟨(i 2).val, (i 2).isLt⟩

/-- The class-count accumulator `[2, 1, 1024]`. -/
def accCnt : (⟨3, ![2, 1, 1024]⟩ : Shape).Idx → EReal := fun i =>
  ∑ j : Fin 16, tCnt (lTile L (tileOf ⟨(i 0).val, (i 0).isLt⟩ j)) ⟨(i 2).val, (i 2).isLt⟩

/-- The loss accumulator `[2, 1, 1]`. -/
def accLoss : (⟨3, ![2, 1, 1]⟩ : Shape).Idx → EReal := fun i =>
  ∑ j : Fin 16, tLoss (xTile X (tileOf ⟨(i 0).val, (i 0).isLt⟩ j)) (pPad P) (lTile L (tileOf ⟨(i 0).val, (i 0).isLt⟩ j))

end KAcc

end Cert.Spec

end
-- ==== Proof.BridgeIndex.lean ====
/-
  The kernel's tile-by-tile forms of the logits, the class counts and the class sums are the whole-batch forms.

  Batch row `b` is row `b % 512` of tile `b / 512`; conversely row `r` of tile `j` of core `k` is batch row
  `512 * (16 * k + j) + r`, and `(k, j, r) ↦ 512 * (16 * k + j) + r` is a bijection of
  `Fin 2 × Fin 16 × Fin 512` with `Fin 16384`. A sum over the batch is therefore the triple sum over cores, tiles and
  rows. Sums of extended reals re-index freely, and `(if p then 1 else 0) * x = if p then x else 0` holds for every
  extended real `x`, so no finiteness is used.
-/
import proofs.«417236_j85134841741643_3_alg».proof.Proof.Spec
import Mathlib.Algebra.BigOperators.Group.Finset.Basic
import Mathlib.Algebra.BigOperators.Fin
import Mathlib.Data.Fintype.BigOperators

noncomputable section

namespace Cert.Bridge

open Idealize.ShloMosaic Idealize.ShloMosaic.ValueIdx
open Cert

/-! ## Batch rows as (core, tile, row) -/

/-- Row `r` of tile `t` as a batch row. -/
def rowAt (t : Fin 32) (r : Fin 512) : Fin 16384 :=
  ⟨512 * t.val + r.val, by have := t.isLt; have := r.isLt; omega⟩

/-- `(k, j, r) ↦ 512 * (16 * k + j) + r` is a bijection onto the batch rows. -/
def rowEquiv : Fin 2 × Fin 16 × Fin 512 ≃ Fin 16384 where
  toFun p := rowAt (Spec.tileOf p.1 p.2.1) p.2.2
  invFun b :=
    (⟨b.val / 8192, by have := b.isLt; omega⟩, ⟨b.val / 512 % 16, Nat.mod_lt _ (by norm_num)⟩,
      ⟨b.val % 512, Nat.mod_lt _ (by norm_num)⟩)
  left_inv p := by
    obtain ⟨k, j, r⟩ := p
    have hk := k.isLt
    have hj := j.isLt
    have hr := r.isLt
    refine Prod.ext (Fin.ext ?_) (Prod.ext (Fin.ext ?_) (Fin.ext ?_))
    · show (512 * (16 * k.val + j.val) + r.val) / 8192 = k.val
      omega
    · show (512 * (16 * k.val + j.val) + r.val) / 512 % 16 = j.val
      omega
    · show (512 * (16 * k.val + j.val) + r.val) % 512 = r.val
      omega
  right_inv b := by
    have hb := b.isLt
    refine Fin.ext ?_
    show 512 * (16 * (b.val / 8192) + b.val / 512 % 16) + b.val % 512 = b.val
    omega

/-- A sum over the batch is the sum over cores, tiles of a core and rows of a tile. -/
theorem sum_batch (f : Fin 16384 → EReal) :
    ∑ b : Fin 16384, f b = ∑ k : Fin 2, ∑ j : Fin 16, ∑ r : Fin 512, f (rowAt (Spec.tileOf k j) r) := by
  rw [← Equiv.sum_comp rowEquiv f, Fintype.sum_prod_type]
  refine Finset.sum_congr rfl fun k _ => ?_
  rw [Fintype.sum_prod_type]
  rfl

/-! ## A tile's blocks read at an index -/

section

variable (X : (⟨2, ![16384, 512]⟩ : Shape).Idx → EReal) (P : (⟨2, ![1000, 512]⟩ : Shape).Idx → EReal)
  (CC : (⟨1, ![1000]⟩ : Shape).Idx → EReal) (L : (⟨1, ![16384]⟩ : Shape).Idx → BitVec 32)

/-- Entry `(r, k)` of tile `t`'s feature block is entry `(512 t + r, k)` of the features. -/
theorem xTile_apply (t : Fin 32) (r k : Fin 512) : Spec.xTile X t (ix2 r k) = X (ix2 (rowAt t r) k) := rfl

/-- Row `r` of tile `t`'s label column is label `512 t + r`. -/
theorem lTile_apply (t : Fin 32) (r : Fin 512) (z : Fin 1) : Spec.lTile L t (ix2 r z) = L (ix1 (rowAt t r)) := rfl

/-- A scaled entry of a tile's block is the scaled entry of the batch row (the row's length is over the same entries). -/
theorem unit_xTile (t : Fin 32) (r k : Fin 512) : Spec.unit (Spec.xTile X t) r k = Spec.unit X (rowAt t r) k := by
  unfold Spec.unit
  simp only [xTile_apply]

/-- A padded prototype row below 1000 is the scaled prototype row. -/
theorem pPad_apply (c : Fin 1000) (k : Fin 512) :
    Spec.pPad P (ix2 (⟨c.val, by have := c.isLt; omega⟩ : Fin 1024) k) = Spec.unit P c k := by
  unfold Spec.pPad
  exact dif_pos c.isLt

/-- Column `c < 1000` is the label of a tile's row exactly when class `c` is the label of the batch row. -/
theorem tHot_iff (t : Fin 32) (r : Fin 512) (c : Fin 1000) :
    Spec.tHot (Spec.lTile L t) r ⟨c.val, by have := c.isLt; omega⟩ ↔ Spec.hot L (rowAt t r) c := Iff.rfl

/-- The batch row of row `b % 512` of tile `b / 512` is `b`. -/
theorem rowAt_div_mod (b : Fin 16384) :
    rowAt ⟨b.val / 512, by have := b.isLt; omega⟩ ⟨b.val % 512, Nat.mod_lt _ (by norm_num)⟩ = b :=
  Fin.ext (Nat.div_add_mod b.val 512)

/-! ## The three forms -/

theorem kLogit_eq (b : Fin 16384) (c : Fin 1000) : Spec.kLogit X P b c = Spec.logit X P b c := by
  unfold Spec.kLogit Spec.tLogit Spec.logit
  congr 1
  refine Finset.sum_congr rfl fun k _ => ?_
  rw [unit_xTile, rowAt_div_mod, pPad_apply]

theorem kCnt_eq (c : Fin 1000) : Spec.kCnt L ⟨c.val, by have := c.isLt; omega⟩ = Spec.count L c := by
  unfold Spec.kCnt Spec.count Spec.tCnt
  rw [sum_batch]
  refine Finset.sum_congr rfl fun k _ => Finset.sum_congr rfl fun j _ => Finset.sum_congr rfl fun r _ => ?_
  exact if_congr (tHot_iff L (Spec.tileOf k j) r c) rfl rfl

theorem kSum_eq (c : Fin 1000) (d : Fin 512) :
    Spec.kSum X L ⟨c.val, by have := c.isLt; omega⟩ d = Spec.classSum X L c d := by
  unfold Spec.kSum Spec.classSum Spec.tSum
  rw [sum_batch]
  refine Finset.sum_congr rfl fun k _ => Finset.sum_congr rfl fun j _ => Finset.sum_congr rfl fun r _ => ?_
  rw [ite_mul, one_mul, zero_mul, unit_xTile]
  exact if_congr (tHot_iff L (Spec.tileOf k j) r c) rfl rfl

/-! ## The results -/

theorem kOutLogits_eq : Spec.kOutLogits X P = Spec.outLogits X P := by
  funext i
  exact kLogit_eq X P _ _

theorem kOutCounts_eq : Spec.kOutCounts CC L = Spec.outCounts CC L := by
  funext i
  exact congrArg (CC i + ·) (kCnt_eq L ⟨(i 0).val, (i 0).isLt⟩)

theorem kOutProtos_eq : Spec.kOutProtos X P L = Spec.rOutProtos X P L := by
  have hS : (fun (c : Fin 1000) (d : Fin 512) => Spec.kSum X L ⟨c.val, by have := c.isLt; omega⟩ d)
      = Spec.classSum X L := by
    funext c d
    exact kSum_eq X L c d
  have hN : (fun (c : Fin 1000) => Spec.kCnt L ⟨c.val, by have := c.isLt; omega⟩) = Spec.count L := by
    funext c
    exact kCnt_eq L c
  unfold Spec.kOutProtos Spec.rOutProtos
  rw [hS, hN]

end

end Cert.Bridge

end
-- ==== Proof.BridgeRow.lean ====
/-
  One tile row's loss term is the batch row's label log-probability, when every label is a class id.

  Tile t holds batch rows 512 t … 512 t + 511 and sees the class axis padded from 1000 to 1024 columns whose logits are
  minus infinity. Row r of the tile is batch row b = 512 t + r. On the 1000 real columns the tile's logit is the batch
  row's logit; the 24 padding columns carry the bottom element, which changes neither the row's supremum nor, since the
  exponential of minus infinity is zero, the sum of exponentials; and a label below 1000 is met by exactly one column,
  a real one. Everything is argued on extended reals as they stand: no finiteness is used.
-/
import proofs.«417236_j85134841741643_3_alg».proof.Proof.Spec

noncomputable section

namespace Cert.Bridge.Row

open Idealize.ShloMosaic Idealize.ShloMosaic.ValueIdx Cert

/-! ## Padding a family over 1000 columns to 1024 -/

/-- The supremum over 1024 columns of a family that is the bottom element on the last 24 is the supremum over the
    first 1000. -/
theorem sup_pad (f : Fin 1000 → EReal) :
    (Finset.univ.sup fun c : Fin 1024 => if h : c.val < 1000 then f ⟨c.val, h⟩ else ⊥) = Finset.univ.sup f := by
  apply le_antisymm
  · apply Finset.sup_le
    intro c _
    by_cases h : c.val < 1000
    · rw [dif_pos h]; exact Finset.le_sup (f := f) (Finset.mem_univ _)
    · rw [dif_neg h]; exact bot_le
  · apply Finset.sup_le
    intro c _
    have hc : ((⟨c.val, lt_trans c.isLt (by norm_num)⟩ : Fin 1024)).val < 1000 := c.isLt
    have h := Finset.le_sup (f := fun c : Fin 1024 => if h : c.val < 1000 then f ⟨c.val, h⟩ else ⊥)
      (Finset.mem_univ (⟨c.val, lt_trans c.isLt (by norm_num)⟩ : Fin 1024))
    rw [dif_pos hc] at h
    exact h

/-- The sum over 1024 columns of a family that is zero on the last 24 is the sum over the first 1000. -/
theorem sum_pad (g : Fin 1000 → EReal) :
    (∑ c : Fin 1024, if h : c.val < 1000 then g ⟨c.val, h⟩ else 0) = ∑ c : Fin 1000, g c := by
  have h := Fin.sum_univ_add (a := 1000) (b := 24)
    (fun c : Fin (1000 + 24) => if h : c.val < 1000 then g ⟨c.val, h⟩ else 0)
  refine h.trans ?_
  have h1 : ∀ i : Fin 1000,
      (if h : (Fin.castAdd 24 i).val < 1000 then g ⟨(Fin.castAdd 24 i).val, h⟩ else 0) = g i := fun i =>
    dif_pos (show (Fin.castAdd 24 i).val < 1000 from i.isLt)
  have h2 : ∀ i : Fin 24,
      (if h : (Fin.natAdd 1000 i).val < 1000 then g ⟨(Fin.natAdd 1000 i).val, h⟩ else 0) = 0 := fun i =>
    dif_neg (by rw [Fin.coe_natAdd]; omega)
  simp only [h1, h2, Finset.sum_const_zero, add_zero]

/-- A 32-bit word is the word of a natural below 2^32 exactly when that natural is its value. -/
theorem ofNat_eq_iff (n : ℕ) (hn : n < 2 ^ 32) (l : BitVec 32) : BitVec.ofNat 32 n = l ↔ n = l.toNat := by
  constructor
  · intro h; rw [← h, BitVec.toNat_ofNat, Nat.mod_eq_of_lt hn]
  · intro h
    apply BitVec.eq_of_toNat_eq
    rw [BitVec.toNat_ofNat, Nat.mod_eq_of_lt hn, h]

/-! ## A tile row against its batch row -/

section Row

variable (X : (⟨2, ![16384, 512]⟩ : Shape).Idx → EReal) (P : (⟨2, ![1000, 512]⟩ : Shape).Idx → EReal)
  (L : (⟨1, ![16384]⟩ : Shape).Idx → BitVec 32)

/-- Row r of tile t is batch row 512 t + r. -/
abbrev rowOf (t : Fin 32) (r : Fin 512) : Fin 16384 :=
  ⟨512 * t.val + r.val, by have := t.isLt; have := r.isLt; omega⟩

/-- The scaled entry of the tile's row is the scaled entry of the batch row. -/
theorem unit_xTile (t : Fin 32) (r : Fin 512) (k : Fin 512) :
    Spec.unit (Spec.xTile X t) r k = Spec.unit X (rowOf t r) k := rfl

/-- A padded prototype row below 1000 is the scaled prototype row. -/
theorem pPad_lt (c : Fin 1024) (hc : c.val < 1000) (k : Fin 512) :
    Spec.pPad P (ix2 c k) = Spec.unit P ⟨c.val, hc⟩ k := dif_pos hc

/-- On a real column the tile's logit is the batch row's logit. -/
theorem tLogit_eq (t : Fin 32) (r : Fin 512) (c : Fin 1024) (hc : c.val < 1000) :
    Spec.tLogit (Spec.xTile X t) (Spec.pPad P) r c = Spec.logit X P (rowOf t r) ⟨c.val, hc⟩ := by
  unfold Spec.tLogit Spec.logit
  congr 1
  refine Finset.sum_congr rfl fun k _ => ?_
  rw [unit_xTile, pPad_lt P c hc]

/-- The masked logits are the batch row's logits padded with the bottom element. -/
theorem tMasked_eq (t : Fin 32) (r : Fin 512) (c : Fin 1024) :
    Spec.tMasked (Spec.xTile X t) (Spec.pPad P) r c
      = if h : c.val < 1000 then Spec.logit X P (rowOf t r) ⟨c.val, h⟩ else ⊥ := by
  unfold Spec.tMasked
  by_cases h : c.val < 1000
  · rw [if_pos h, dif_pos h, tLogit_eq X P t r c h]
  · rw [if_neg h, dif_neg h]

/-- The tile row's largest masked logit is the batch row's largest logit. -/
theorem tMax_eq (t : Fin 32) (r : Fin 512) :
    Spec.tMax (Spec.xTile X t) (Spec.pPad P) r = Spec.rowMax X P (rowOf t r) := by
  unfold Spec.tMax Spec.rowMax
  rw [show (fun c : Fin 1024 => Spec.tMasked (Spec.xTile X t) (Spec.pPad P) r c)
      = fun c : Fin 1024 => if h : c.val < 1000 then Spec.logit X P (rowOf t r) ⟨c.val, h⟩ else ⊥ from
    funext fun c => tMasked_eq X P t r c]
  exact sup_pad (fun c => Spec.logit X P (rowOf t r) c)

/-- The exponential of a shifted masked logit: the batch row's on a real column, zero on a padding column, because
    minus infinity less anything is minus infinity and its exponential is zero. -/
theorem exp_tShift (t : Fin 32) (r : Fin 512) (c : Fin 1024) :
    Ideal.exp (Spec.tShift (Spec.xTile X t) (Spec.pPad P) r c)
      = if h : c.val < 1000 then Ideal.exp (Spec.logit X P (rowOf t r) ⟨c.val, h⟩ - Spec.rowMax X P (rowOf t r))
        else 0 := by
  unfold Spec.tShift
  rw [tMasked_eq, tMax_eq]
  by_cases h : c.val < 1000
  · rw [dif_pos h, dif_pos h]
  · rw [dif_neg h, dif_neg h, EReal.bot_sub, Ideal.exp_bot]

/-- The tile row's log-sum-exp is the batch row's. -/
theorem tLse_eq (t : Fin 32) (r : Fin 512) :
    Spec.tLse (Spec.xTile X t) (Spec.pPad P) r = Spec.rowLse X P (rowOf t r) := by
  unfold Spec.tLse Spec.rowLse
  rw [show (fun c : Fin 1024 => Ideal.exp (Spec.tShift (Spec.xTile X t) (Spec.pPad P) r c))
      = fun c : Fin 1024 => if h : c.val < 1000 then
          Ideal.exp (Spec.logit X P (rowOf t r) ⟨c.val, h⟩ - Spec.rowMax X P (rowOf t r)) else 0 from
    funext fun c => exp_tShift X P t r c]
  rw [sum_pad (fun c => Ideal.exp (Spec.logit X P (rowOf t r) c - Spec.rowMax X P (rowOf t r)))]

/-- A column of the tile is the label of row r exactly when it is the label's value. -/
theorem tHot_iff (t : Fin 32) (r : Fin 512) (c : Fin 1024) :
    Spec.tHot (Spec.lTile L t) r c ↔ c.val = (L (ix1 (rowOf t r))).toNat := by
  unfold Spec.tHot
  show BitVec.ofNat 32 c.val = L (ix1 (rowOf t r)) ↔ _
  exact ofNat_eq_iff c.val (lt_trans c.isLt (by norm_num)) _

/-- A class is the label of batch row b exactly when it is the label's value. -/
theorem hot_iff (b : Fin 16384) (c : Fin 1000) : Spec.hot L b c ↔ c.val = (L (ix1 b)).toNat := by
  unfold Spec.hot
  exact ofNat_eq_iff c.val (lt_trans c.isLt (by norm_num)) _

/-- With the label below 1000 the one-hot sum picks the shifted logit at the label. -/
theorem tSel_eq (t : Fin 32) (r : Fin 512) (hl : (L (ix1 (rowOf t r))).toNat < 1000) :
    Spec.tSel (Spec.xTile X t) (Spec.pPad P) (Spec.lTile L t) r
      = Spec.logit X P (rowOf t r) ⟨(L (ix1 (rowOf t r))).toNat, hl⟩ - Spec.rowMax X P (rowOf t r) := by
  unfold Spec.tSel
  rw [Finset.sum_eq_single (⟨(L (ix1 (rowOf t r))).toNat, lt_trans hl (by norm_num)⟩ : Fin 1024)]
  · rw [if_pos ((tHot_iff L t r _).2 rfl)]
    unfold Spec.tShift
    rw [tMasked_eq, tMax_eq, dif_pos hl]
  · intro c _ hne
    rw [if_neg fun h => hne (Fin.ext ((tHot_iff L t r c).1 h))]
  · intro h; exact absurd (Finset.mem_univ _) h

/-- With the label below 1000 the row's label log-probability is the log-probability at the label. -/
theorem labLogp_eq (b : Fin 16384) (hl : (L (ix1 b)).toNat < 1000) :
    Spec.labLogp X P L b = Spec.logp X P b ⟨(L (ix1 b)).toNat, hl⟩ := by
  unfold Spec.labLogp
  rw [Finset.sum_eq_single (⟨(L (ix1 b)).toNat, hl⟩ : Fin 1000)]
  · rw [if_pos ((hot_iff L b _).2 rfl)]
  · intro c _ hne
    rw [if_neg fun h => hne (Fin.ext ((hot_iff L b c).1 h))]
  · intro h; exact absurd (Finset.mem_univ _) h

/-- One tile row's loss term is the batch row's label log-probability. -/
theorem tile_row_eq (hL : ∀ b : Fin 16384, (L (ix1 b)).toNat < 1000) (t : Fin 32) (r : Fin 512) :
    Spec.tSel (Spec.xTile X t) (Spec.pPad P) (Spec.lTile L t) r - Spec.tLse (Spec.xTile X t) (Spec.pPad P) r
      = Spec.labLogp X P L ⟨512 * t.val + r.val, by have := t.isLt; have := r.isLt; omega⟩ := by
  rw [tSel_eq X P L t r (hL (rowOf t r)), tLse_eq X P t r]
  exact (labLogp_eq X P L (rowOf t r) (hL (rowOf t r))).symm

end Row

end Cert.Bridge.Row

end
-- ==== Proof.BridgeReal.lean ====
/-
  With finite inputs every row's label log-probability is a real number.

  The chain: a row's sum of squares is a nonnegative real, so its square root is a real; the clamp eps is a positive
  real, so the larger of the two is a positive real and the scaled entries are reals; a logit, a finite sum of products
  of reals times a real, is a real; the largest of finitely many reals is one of them; the exponentials of the shifted
  logits are positive reals, so their sum is a positive real and its logarithm a real; a log-probability is a difference
  of reals; and the label's log-probability, a finite sum of terms each a log-probability or zero, is a real.
-/
import proofs.«417236_j85134841741643_3_alg».proof.Proof.Spec

noncomputable section

namespace Cert.Bridge.Real

open Idealize.ShloMosaic Idealize.ShloMosaic.ValueIdx Cert

/-! ## Reals inside the extended reals -/

/-- The coercion commutes with finite sums. -/
theorem coe_sum {ι : Type*} (s : Finset ι) (g : ι → ℝ) :
    (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- The coercion commutes with the larger of two. -/
theorem coe_max (a b : ℝ) : max (a : EReal) (b : EReal) = ((max a b : ℝ) : EReal) :=
  (EReal.coe_strictMono.monotone.map_max).symm

/-- A finite sum of reals is a real. -/
theorem real_sum {ι : Type*} (s : Finset ι) {f : ι → EReal} (h : ∀ i, ∃ r : ℝ, f i = (r : EReal)) :
    ∃ r : ℝ, ∑ i ∈ s, f i = (r : EReal) := by
  choose g hg using h
  exact ⟨∑ i ∈ s, g i, by simp only [hg]; exact coe_sum s g⟩

/-- The supremum of finitely many reals over a nonempty index set is a real (it is attained). -/
theorem real_sup {ι : Type*} (s : Finset ι) (hs : s.Nonempty) {f : ι → EReal} (h : ∀ i, ∃ r : ℝ, f i = (r : EReal)) :
    ∃ r : ℝ, s.sup f = (r : EReal) := by
  obtain ⟨i, -, hi⟩ := Finset.exists_mem_eq_sup s hs f
  obtain ⟨r, hr⟩ := h i
  exact ⟨r, hi.trans hr⟩

/-- The division of a real by a nonzero real is their real quotient. -/
theorem div_real (x : ℝ) {y : ℝ} (hy : y ≠ 0) : Ideal.div (x : EReal) (y : EReal) = ((x / y : ℝ) : EReal) := by
  rw [Ideal.div_coe hy, ← EReal.coe_mul, mul_one_div]

/-- The square root of a nonnegative real is its real square root. -/
theorem sqrt_real {x : ℝ} (hx : 0 ≤ x) : Ideal.sqrt (x : EReal) = ((Real.sqrt x : ℝ) : EReal) := by
  rw [Ideal.sqrt_coe, if_neg (not_lt.2 hx)]

/-- The logarithm of a positive real is its real logarithm. -/
theorem log_real {x : ℝ} (hx : 0 < x) : Ideal.log (x : EReal) = ((Real.log x : ℝ) : EReal) := by
  rw [Ideal.log_coe, if_neg (not_le.2 hx)]

/-! ## The clamp is a positive real -/

/-- The f32 word of 1e-12 denotes 9223372 / 2^63. -/
theorem epsE_eq : Spec.epsE = ((9223372 / 2 ^ 63 : ℝ) : EReal) := by
  unfold Spec.epsE
  simp [Ideal.ofBits, Ideal.ieee, -EReal.coe_mul]
  norm_num

theorem epsE_pos : ∃ e : ℝ, 0 < e ∧ Spec.epsE = (e : EReal) := ⟨_, by norm_num, epsE_eq⟩

/-! ## Scaled rows, logits, log-probabilities -/

/-- A scaled entry of a row of reals is a real. -/
theorem unit_real {n : ℕ} {A : (⟨2, ![n, 512]⟩ : Shape).Idx → EReal} (hA : ∀ i, ∃ r : ℝ, A i = (r : EReal))
    (r : Fin n) (k : Fin 512) : ∃ u : ℝ, Spec.unit A r k = (u : EReal) := by
  choose a ha using hA
  obtain ⟨e, he, hE⟩ := epsE_pos
  have hs : (∑ j : Fin 512, A (ix2 r j) * A (ix2 r j))
      = ((∑ j : Fin 512, a (ix2 r j) * a (ix2 r j) : ℝ) : EReal) := by
    simp only [ha, ← EReal.coe_mul]; exact coe_sum _ _
  have hn : 0 ≤ ∑ j : Fin 512, a (ix2 r j) * a (ix2 r j) := Finset.sum_nonneg fun j _ => mul_self_nonneg _
  unfold Spec.unit
  rw [hs, sqrt_real hn, hE, coe_max, ha, div_real _ (ne_of_gt (lt_max_of_lt_right he))]
  exact ⟨_, rfl⟩

section Whole

variable {X : (⟨2, ![16384, 512]⟩ : Shape).Idx → EReal} {P : (⟨2, ![1000, 512]⟩ : Shape).Idx → EReal}
  {L : (⟨1, ![16384]⟩ : Shape).Idx → BitVec 32}

/-- A logit of rows of reals is a real. -/
theorem logit_real (hX : ∀ i, ∃ r : ℝ, X i = (r : EReal)) (hP : ∀ i, ∃ r : ℝ, P i = (r : EReal))
    (b : Fin 16384) (c : Fin 1000) : ∃ l : ℝ, Spec.logit X P b c = (l : EReal) := by
  choose u hu using fun k => unit_real hX b k
  choose v hv using fun k => unit_real hP c k
  unfold Spec.logit Spec.invT
  simp only [hu, hv, ← EReal.coe_mul]
  rw [coe_sum, ← EReal.coe_mul]
  exact ⟨_, rfl⟩

/-- The largest logit of a row is a real. -/
theorem rowMax_real (hX : ∀ i, ∃ r : ℝ, X i = (r : EReal)) (hP : ∀ i, ∃ r : ℝ, P i = (r : EReal))
    (b : Fin 16384) : ∃ m : ℝ, Spec.rowMax X P b = (m : EReal) :=
  real_sup _ ⟨⟨0, by norm_num⟩, Finset.mem_univ _⟩ fun c => logit_real hX hP b c

/-- The logarithm of the sum of the shifted logits' exponentials is a real: the sum is a positive real. -/
theorem rowLse_real (hX : ∀ i, ∃ r : ℝ, X i = (r : EReal)) (hP : ∀ i, ∃ r : ℝ, P i = (r : EReal))
    (b : Fin 16384) : ∃ s : ℝ, Spec.rowLse X P b = (s : EReal) := by
  choose l hl using fun c => logit_real hX hP b c
  obtain ⟨m, hm⟩ := rowMax_real hX hP b
  have hpos : 0 < ∑ c : Fin 1000, Real.exp (l c - m) :=
    Finset.sum_pos (fun c _ => Real.exp_pos _) ⟨⟨0, by norm_num⟩, Finset.mem_univ _⟩
  unfold Spec.rowLse
  simp only [hl, hm, ← EReal.coe_sub, Ideal.exp_coe]
  rw [coe_sum, log_real hpos]
  exact ⟨_, rfl⟩

/-- Every log-probability is a real. -/
theorem logp_real (hX : ∀ i, ∃ r : ℝ, X i = (r : EReal)) (hP : ∀ i, ∃ r : ℝ, P i = (r : EReal))
    (b : Fin 16384) (c : Fin 1000) : ∃ q : ℝ, Spec.logp X P b c = (q : EReal) := by
  obtain ⟨l, hl⟩ := logit_real hX hP b c
  obtain ⟨m, hm⟩ := rowMax_real hX hP b
  obtain ⟨s, hs⟩ := rowLse_real hX hP b
  unfold Spec.logp
  rw [hl, hm, hs, ← EReal.coe_sub, ← EReal.coe_sub]
  exact ⟨_, rfl⟩

/-- The label's log-probability is a real: a finite sum whose every term is a log-probability or zero. -/
theorem labLogp_real (hX : ∀ i, ∃ r : ℝ, X i = (r : EReal)) (hP : ∀ i, ∃ r : ℝ, P i = (r : EReal))
    (hL : ∀ b : Fin 16384, (L (ix1 b)).toNat < 1000) (b : Fin 16384) :
    ∃ r : ℝ, Spec.labLogp X P L b = (r : EReal) := by
  unfold Spec.labLogp
  refine real_sum _ fun c => ?_
  by_cases h : Spec.hot L b c
  · rw [if_pos h]; exact logp_real hX hP b c
  · rw [if_neg h]; exact ⟨0, EReal.coe_zero.symm⟩

end Whole

end Cert.Bridge.Real

end
-- ==== Proof.BridgeLoss.lean ====
/-
  The loss, kernel form against reference form, as pure algebra over the common vocabulary.

  The kernel runs two cores of sixteen tiles; every tile adds zero minus the sum of its 512 rows' label
  log-probabilities to its core's accumulator, the two accumulators are added and the total is divided by 16384.
  The reference sums the 16384 label log-probabilities, divides by 16384 and takes the sign last.

  Negation of extended reals does not distribute over sums in general (top plus bottom), so the label
  log-probabilities are first named as real numbers; then every sum and the sign are taken in the reals, where
  tile t's row r is batch row 512 t + r, tile j of core k is tile 16 k + j, and the two index maps are bijections
  of Fin 32 x Fin 512 with Fin 16384 and of Fin 2 x Fin 16 with Fin 32.
-/
import proofs.«417236_j85134841741643_3_alg».proof.Proof.Spec
import Mathlib.Data.Fintype.BigOperators

noncomputable section

namespace Cert.Bridge.LossSum
open Idealize.ShloMosaic Idealize.ShloMosaic.ValueIdx Cert

/-- The divisor: the f32 word 0x46800000 is the real number 16384 (= 2^14). -/
theorem divisor_eq : Ideal.ofBits .f32 0x46800000#32 = ((16384 : ℝ) : EReal) := by
  simp [Ideal.ofBits, Ideal.ieee, -EReal.coe_mul]; norm_num

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Batch row 512 t + r: row r of tile t. -/
def rowOf (t : Fin 32) (r : Fin 512) : Fin 16384 :=
  ⟨512 * t.val + r.val, by have := t.isLt; have := r.isLt; omega⟩

/-- (tile, row in the tile) against the batch row: quotient and remainder by 512. -/
def rowEquiv : Fin 32 × Fin 512 ≃ Fin 16384 where
  toFun p := rowOf p.1 p.2
  invFun b := (⟨b.val / 512, by have := b.isLt; omega⟩, ⟨b.val % 512, Nat.mod_lt _ (by norm_num)⟩)
  left_inv p := by
    rcases p with ⟨⟨t, ht⟩, ⟨r, hr⟩⟩
    simp only [rowOf, Prod.mk.injEq, Fin.mk.injEq]
    constructor <;> omega
  right_inv b := by
    apply Fin.ext
    simp only [rowOf]
    omega

/-- (core, tile of the core) against the tile: quotient and remainder by 16. -/
def coreEquiv : Fin 2 × Fin 16 ≃ Fin 32 where
  toFun p := Spec.tileOf p.1 p.2
  invFun t := (⟨t.val / 16, by have := t.isLt; omega⟩, ⟨t.val % 16, Nat.mod_lt _ (by norm_num)⟩)
  left_inv p := by
    rcases p with ⟨⟨k, hk⟩, ⟨j, hj⟩⟩
    simp only [Spec.tileOf, Prod.mk.injEq, Fin.mk.injEq]
    constructor <;> omega
  right_inv t := by
    apply Fin.ext
    simp only [Spec.tileOf]
    omega

/-- A sum over the tiles, taken core by core. -/
theorem sum_cores (g : Fin 32 → ℝ) :
    ∑ k : Fin 2, ∑ j : Fin 16, g (Spec.tileOf k j) = ∑ t : Fin 32, g t :=
  calc ∑ k : Fin 2, ∑ j : Fin 16, g (Spec.tileOf k j)
      = ∑ p : Fin 2 × Fin 16, g (coreEquiv p) :=
        (Fintype.sum_prod_type' (fun k j => g (Spec.tileOf k j))).symm
    _ = ∑ t : Fin 32, g t := Equiv.sum_comp coreEquiv g

/-- A sum over the batch, taken tile by tile. -/
theorem sum_tiles (a : Fin 16384 → ℝ) :
    ∑ t : Fin 32, ∑ r : Fin 512, a (rowOf t r) = ∑ b : Fin 16384, a b :=
  calc ∑ t : Fin 32, ∑ r : Fin 512, a (rowOf t r)
      = ∑ p : Fin 32 × Fin 512, a (rowEquiv p) :=
        (Fintype.sum_prod_type' (fun t r => a (rowOf t r))).symm
    _ = ∑ b : Fin 16384, a b := Equiv.sum_comp rowEquiv a

section Loss

variable (X : (⟨2, ![16384, 512]⟩ : Shape).Idx → EReal) (P : (⟨2, ![1000, 512]⟩ : Shape).Idx → EReal)
  (L : (⟨1, ![16384]⟩ : Shape).Idx → BitVec 32)

/-- The kernel's loss is the reference's, given that every tile row's selected shifted logit less its
    log-sum-exp is the batch row's label log-probability, and that these are real numbers. -/
theorem kOutLoss_eq
    (hrow : ∀ (t : Fin 32) (r : Fin 512),
      Spec.tSel (Spec.xTile X t) (Spec.pPad P) (Spec.lTile L t) r - Spec.tLse (Spec.xTile X t) (Spec.pPad P) r
        = Spec.labLogp X P L ⟨512 * t.val + r.val, by have := t.isLt; have := r.isLt; omega⟩)
    (hreal : ∀ b : Fin 16384, ∃ r : ℝ, Spec.labLogp X P L b = (r : EReal)) :
    Spec.kOutLoss X P L = Spec.outLoss X P L := by
  -- the label log-probabilities as real numbers
  choose a ha using hreal
  -- one tile: zero minus the sum of its rows, a real number
  have htile : ∀ t : Fin 32, Spec.tLoss (Spec.xTile X t) (Spec.pPad P) (Spec.lTile L t)
      = ((-(∑ r : Fin 512, a (rowOf t r)) : ℝ) : EReal) := by
    intro t
    unfold Spec.tLoss
    rw [Finset.sum_congr rfl (fun r _ => (hrow t r).trans (ha (rowOf t r)))]
    rw [← coe_sum, ← EReal.coe_zero, ← EReal.coe_sub, zero_sub]
  -- the two accumulators added: minus the batch sum
  have hk : Spec.kLossSum X P L = ((-(∑ b : Fin 16384, a b) : ℝ) : EReal) := by
    unfold Spec.kLossSum
    simp only [htile]
    simp only [← coe_sum]
    rw [sum_cores (fun t => -(∑ r : Fin 512, a (rowOf t r))), Finset.sum_neg_distrib, sum_tiles]
  -- the reference's batch sum
  have hr : (∑ b : Fin 16384, Spec.labLogp X P L b) = ((∑ b : Fin 16384, a b : ℝ) : EReal) := by
    rw [coe_sum]
    exact Finset.sum_congr rfl (fun b _ => ha b)
  funext _
  show Ideal.div (Spec.kLossSum X P L) (Ideal.ofBits .f32 0x46800000#32)
      = -(Ideal.div (∑ b : Fin 16384, Spec.labLogp X P L b) (Ideal.ofBits .f32 0x46800000#32))
  rw [hk, hr, divisor_eq, Ideal.div_coe (by norm_num : (16384 : ℝ) ≠ 0),
    Ideal.div_coe (by norm_num : (16384 : ℝ) ≠ 0), ← EReal.coe_mul, ← EReal.coe_mul, ← EReal.coe_neg, neg_mul]

end Loss

end Cert.Bridge.LossSum
end
-- ==== Proof.KPieces.lean ====
/-
  What each control case of the kernel body leaves in each output's staging buffer, as the body's named payloads:
  the logits block is stored once; the three accumulators (class sums, class counts, loss) are, at a core's first tile,
  reset to zero and then added to, and at every later tile added to what the tile before left.
-/
import proofs.«417236_j85134841741643_3_alg».proof.Proof.Gen.KernelIdeal.Frame
import Idealize.ShloMosaic.Lib.Pipeline.Value
import Idealize.ShloMosaic.Lib.ValueIdx
import Idealize.ShloMosaic.Lib.Tactic

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F] [Named F]

/-- The rank-2 zero offsets, however spelt, are the constant zero. -/
private theorem hz2 : (![0, 0] : Fin 2 → Nat) = fun _ => 0 := funext fun a => by fin_cases a <;> rfl

/-- The rank-3 zero offsets likewise. -/
private theorem hz3 : (![0, 0, 0] : Fin 3 → Nat) = fun _ => 0 := funext fun a => by fin_cases a <;> rfl

/-- First tile of a core: the logits block is the scaled product's first 1000 columns. -/
theorem out_A_3 (c : Dev nD) (i : grid0.Coords) (arg2 : Memref sig .tc .vmem S512x512 .f32) (harg2 : arg2.IsWhole) (arg3 : Memref sig .tc .vmem S1024x512 .bf16) (harg3 : arg3.IsWhole) (arg4 : Memref sig .tc .vmem S512x1 .i32) (harg4 : arg4.IsWhole) (arg5 : Memref sig .tc .vmem S512x1000 .f32) (harg5 : arg5.IsWhole) (arg6 : Memref sig .tc .vmem S1x1024x512 .f32) (harg6 : arg6.IsWhole) (arg7 : Memref sig .tc .vmem S1x1x1024 .f32) (harg7 : arg7.IsWhole) (arg8 : Memref sig .tc .vmem S1x1x1 .f32) (harg8 : arg8.IsWhole) (hc0 : cond0_0 i) (x0 : Vec F S512x512 .f32) (x1 : Vec F S1024x512 .bf16) (x2 : Vec F S512x1 .i32) :
    out0_A_3 c i arg2 harg2 arg3 harg3 arg4 harg4 arg5 harg5 arg6 harg6 arg7 harg7 arg8 harg8 hc0 x0 x1 x2 = k0_pay6 x0 x1 := by
  unfold out0_A_3
  rw [View.read_writes_eq_canon _ _ _ (cover0_A_3 c i arg2 harg2 arg3 harg3 arg4 harg4 arg5 harg5 arg6 harg6 arg7 harg7 arg8 harg8 hc0 x0 x1 x2)]
  unfold kernelRun0_A
  dsimp only
  sl_unfold_words
  rw [View.canon_unit_zero hz2]
  simp only [View.readAt_eq_ld, harg2.read_unread, harg3.read_unread, View.ld_unit_zero (S := S512x512) hz2,
    View.ld_unit_zero (S := S1024x512) hz2]

/-- First tile: the class sums are the tile's contribution added to the zero block just stored. -/
theorem out_A_4 (c : Dev nD) (i : grid0.Coords) (arg2 : Memref sig .tc .vmem S512x512 .f32) (harg2 : arg2.IsWhole) (arg3 : Memref sig .tc .vmem S1024x512 .bf16) (harg3 : arg3.IsWhole) (arg4 : Memref sig .tc .vmem S512x1 .i32) (harg4 : arg4.IsWhole) (arg5 : Memref sig .tc .vmem S512x1000 .f32) (harg5 : arg5.IsWhole) (arg6 : Memref sig .tc .vmem S1x1024x512 .f32) (harg6 : arg6.IsWhole) (arg7 : Memref sig .tc .vmem S1x1x1024 .f32) (harg7 : arg7.IsWhole) (arg8 : Memref sig .tc .vmem S1x1x1 .f32) (harg8 : arg8.IsWhole) (hc0 : cond0_0 i) (x0 : Vec F S512x512 .f32) (x1 : Vec F S1024x512 .bf16) (x2 : Vec F S512x1 .i32) :
    out0_A_4 c i arg2 harg2 arg3 harg3 arg4 harg4 arg5 harg5 arg6 harg6 arg7 harg7 arg8 harg8 hc0 x0 x1 x2 = k0_pay10 (k0_pay4 x0) (k0_pay9 x2) (k0_pay1 (F := F)) := by
  unfold out0_A_4
  rw [View.read_writes_eq_canon _ _ _ (cover0_A_4 c i arg2 harg2 arg3 harg3 arg4 harg4 arg5 harg5 arg6 harg6 arg7 harg7 arg8 harg8 hc0 x0 x1 x2)]
  unfold kernelRun0_A
  dsimp only
  sl_unfold_words
  rw [View.canon_cons_unit_zero (S := S1x1024x512) hz3, View.readCov_unit_zero (S := S1x1024x512) _ hz3]
  simp only [View.readAt_eq_ld, harg2.read_unread, harg4.read_unread, View.ld_unit_zero (S := S512x512) hz2, View.ld_unit_zero (S := S512x1) hz2]

/-- First tile: the class counts likewise. -/
theorem out_A_5 (c : Dev nD) (i : grid0.Coords) (arg2 : Memref sig .tc .vmem S512x512 .f32) (harg2 : arg2.IsWhole) (arg3 : Memref sig .tc .vmem S1024x512 .bf16) (harg3 : arg3.IsWhole) (arg4 : Memref sig .tc .vmem S512x1 .i32) (harg4 : arg4.IsWhole) (arg5 : Memref sig .tc .vmem S512x1000 .f32) (harg5 : arg5.IsWhole) (arg6 : Memref sig .tc .vmem S1x1024x512 .f32) (harg6 : arg6.IsWhole) (arg7 : Memref sig .tc .vmem S1x1x1024 .f32) (harg7 : arg7.IsWhole) (arg8 : Memref sig .tc .vmem S1x1x1 .f32) (harg8 : arg8.IsWhole) (hc0 : cond0_0 i) (x0 : Vec F S512x512 .f32) (x1 : Vec F S1024x512 .bf16) (x2 : Vec F S512x1 .i32) :
    out0_A_5 c i arg2 harg2 arg3 harg3 arg4 harg4 arg5 harg5 arg6 harg6 arg7 harg7 arg8 harg8 hc0 x0 x1 x2 = k0_pay11 (k0_pay9 x2) (k0_pay2 (F := F)) := by
  unfold out0_A_5
  rw [View.read_writes_eq_canon _ _ _ (cover0_A_5 c i arg2 harg2 arg3 harg3 arg4 harg4 arg5 harg5 arg6 harg6 arg7 harg7 arg8 harg8 hc0 x0 x1 x2)]
  unfold kernelRun0_A
  dsimp only
  sl_unfold_words
  rw [View.canon_cons_unit_zero (S := S1x1x1024) hz3, View.readCov_unit_zero (S := S1x1x1024) _ hz3]
  simp only [View.readAt_eq_ld, harg4.read_unread, View.ld_unit_zero (S := S512x1) hz2]

/-- First tile: the loss likewise. -/
theorem out_A_6 (c : Dev nD) (i : grid0.Coords) (arg2 : Memref sig .tc .vmem S512x512 .f32) (harg2 : arg2.IsWhole) (arg3 : Memref sig .tc .vmem S1024x512 .bf16) (harg3 : arg3.IsWhole) (arg4 : Memref sig .tc .vmem S512x1 .i32) (harg4 : arg4.IsWhole) (arg5 : Memref sig .tc .vmem S512x1000 .f32) (harg5 : arg5.IsWhole) (arg6 : Memref sig .tc .vmem S1x1024x512 .f32) (harg6 : arg6.IsWhole) (arg7 : Memref sig .tc .vmem S1x1x1024 .f32) (harg7 : arg7.IsWhole) (arg8 : Memref sig .tc .vmem S1x1x1 .f32) (harg8 : arg8.IsWhole) (hc0 : cond0_0 i) (x0 : Vec F S512x512 .f32) (x1 : Vec F S1024x512 .bf16) (x2 : Vec F S512x1 .i32) :
    out0_A_6 c i arg2 harg2 arg3 harg3 arg4 harg4 arg5 harg5 arg6 harg6 arg7 harg7 arg8 harg8 hc0 x0 x1 x2
      = k0_pay12 (k0_pay7 x0 x1) (k0_pay8 x0 x1) (k0_pay9 x2) (Scalar.ofBits .f32 0x00000000#32) (k0_pay3 (F := F)) := by
  unfold out0_A_6
  rw [View.read_writes_eq_canon _ _ _ (cover0_A_6 c i arg2 harg2 arg3 harg3 arg4 harg4 arg5 harg5 arg6 harg6 arg7 harg7 arg8 harg8 hc0 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, View.ld_unit_zero (S := S512x512) hz2,
    View.ld_unit_zero (S := S1024x512) hz2, View.ld_unit_zero (S := S512x1) hz2]

/-- A later tile: the logits block again. -/
theorem out_B_3 (c : Dev nD) (i : grid0.Coords) (arg2 : Memref sig .tc .vmem S512x512 .f32) (harg2 : arg2.IsWhole) (arg3 : Memref sig .tc .vmem S1024x512 .bf16) (harg3 : arg3.IsWhole) (arg4 : Memref sig .tc .vmem S512x1 .i32) (harg4 : arg4.IsWhole) (arg5 : Memref sig .tc .vmem S512x1000 .f32) (harg5 : arg5.IsWhole) (arg6 : Memref sig .tc .vmem S1x1024x512 .f32) (harg6 : arg6.IsWhole) (arg7 : Memref sig .tc .vmem S1x1x1024 .f32) (harg7 : arg7.IsWhole) (arg8 : Memref sig .tc .vmem S1x1x1 .f32) (harg8 : arg8.IsWhole) (hc0 : ¬cond0_0 i) (x0 : Vec F S512x512 .f32) (x1 : Vec F S1024x512 .bf16) (x2 : Vec F S512x1 .i32) (xo4 : Vec F S1x1024x512 .f32) (xo5 : Vec F S1x1x1024 .f32) (xo6 : Vec F S1x1x1 .f32) :
    out0_B_3 c i arg2 harg2 arg3 harg3 arg4 harg4 arg5 harg5 arg6 harg6 arg7 harg7 arg8 harg8 hc0 x0 x1 x2 xo4 xo5 xo6 = k0_pay6 x0 x1 := by
  unfold out0_B_3
  rw [View.read_writes_eq_canon _ _ _ (cover0_B_3 c i arg2 harg2 arg3 harg3 arg4 harg4 arg5 harg5 arg6 harg6 arg7 harg7 arg8 harg8 hc0 x0 x1 x2 xo4 xo5 xo6)]
  unfold kernelRun0_B
  dsimp only
  sl_unfold_words
  rw [View.canon_unit_zero hz2]
  simp only [View.readAt_eq_ld, harg2.read_unread, harg3.read_unread, View.ld_unit_zero (S := S512x512) hz2,
    View.ld_unit_zero (S := S1024x512) hz2]

/-- A later tile: the class sums are the tile's contribution added to what the tile before left. -/
theorem out_B_4 (c : Dev nD) (i : grid0.Coords) (arg2 : Memref sig .tc .vmem S512x512 .f32) (harg2 : arg2.IsWhole) (arg3 : Memref sig .tc .vmem S1024x512 .bf16) (harg3 : arg3.IsWhole) (arg4 : Memref sig .tc .vmem S512x1 .i32) (harg4 : arg4.IsWhole) (arg5 : Memref sig .tc .vmem S512x1000 .f32) (harg5 : arg5.IsWhole) (arg6 : Memref sig .tc .vmem S1x1024x512 .f32) (harg6 : arg6.IsWhole) (arg7 : Memref sig .tc .vmem S1x1x1024 .f32) (harg7 : arg7.IsWhole) (arg8 : Memref sig .tc .vmem S1x1x1 .f32) (harg8 : arg8.IsWhole) (hc0 : ¬cond0_0 i) (x0 : Vec F S512x512 .f32) (x1 : Vec F S1024x512 .bf16) (x2 : Vec F S512x1 .i32) (xo4 : Vec F S1x1024x512 .f32) (xo5 : Vec F S1x1x1024 .f32) (xo6 : Vec F S1x1x1 .f32) :
    out0_B_4 c i arg2 harg2 arg3 harg3 arg4 harg4 arg5 harg5 arg6 harg6 arg7 harg7 arg8 harg8 hc0 x0 x1 x2 xo4 xo5 xo6 = k0_pay10 (k0_pay4 x0) (k0_pay9 x2) xo4 := by
  unfold out0_B_4
  rw [View.read_writes_eq_canon _ _ _ (cover0_B_4 c i arg2 harg2 arg3 harg3 arg4 harg4 arg5 harg5 arg6 harg6 arg7 harg7 arg8 harg8 hc0 x0 x1 x2 xo4 xo5 xo6)]
  unfold kernelRun0_B
  dsimp only
  sl_unfold_words
  rw [View.canon_unit_zero hz3]
  simp only [View.readAt_eq_ld, harg2.read_unread, harg4.read_unread, harg6.read_unread, View.ld_unit_zero (S := S512x512) hz2,
    View.ld_unit_zero (S := S512x1) hz2, View.ld_unit_zero (S := S1x1024x512) hz3]

/-- A later tile: the class counts likewise. -/
theorem out_B_5 (c : Dev nD) (i : grid0.Coords) (arg2 : Memref sig .tc .vmem S512x512 .f32) (harg2 : arg2.IsWhole) (arg3 : Memref sig .tc .vmem S1024x512 .bf16) (harg3 : arg3.IsWhole) (arg4 : Memref sig .tc .vmem S512x1 .i32) (harg4 : arg4.IsWhole) (arg5 : Memref sig .tc .vmem S512x1000 .f32) (harg5 : arg5.IsWhole) (arg6 : Memref sig .tc .vmem S1x1024x512 .f32) (harg6 : arg6.IsWhole) (arg7 : Memref sig .tc .vmem S1x1x1024 .f32) (harg7 : arg7.IsWhole) (arg8 : Memref sig .tc .vmem S1x1x1 .f32) (harg8 : arg8.IsWhole) (hc0 : ¬cond0_0 i) (x0 : Vec F S512x512 .f32) (x1 : Vec F S1024x512 .bf16) (x2 : Vec F S512x1 .i32) (xo4 : Vec F S1x1024x512 .f32) (xo5 : Vec F S1x1x1024 .f32) (xo6 : Vec F S1x1x1 .f32) :
    out0_B_5 c i arg2 harg2 arg3 harg3 arg4 harg4 arg5 harg5 arg6 harg6 arg7 harg7 arg8 harg8 hc0 x0 x1 x2 xo4 xo5 xo6 = k0_pay11 (k0_pay9 x2) xo5 := by
  unfold out0_B_5
  rw [View.read_writes_eq_canon _ _ _ (cover0_B_5 c i arg2 harg2 arg3 harg3 arg4 harg4 arg5 harg5 arg6 harg6 arg7 harg7 arg8 harg8 hc0 x0 x1 x2 xo4 xo5 xo6)]
  unfold kernelRun0_B
  dsimp only
  sl_unfold_words
  rw [View.canon_unit_zero hz3]
  simp only [View.readAt_eq_ld, harg4.read_unread, harg7.read_unread, View.ld_unit_zero (S := S512x1) hz2, View.ld_unit_zero (S := S1x1x1024) hz3]

/-- A later tile: the loss likewise. -/
theorem out_B_6 (c : Dev nD) (i : grid0.Coords) (arg2 : Memref sig .tc .vmem S512x512 .f32) (harg2 : arg2.IsWhole) (arg3 : Memref sig .tc .vmem S1024x512 .bf16) (harg3 : arg3.IsWhole) (arg4 : Memref sig .tc .vmem S512x1 .i32) (harg4 : arg4.IsWhole) (arg5 : Memref sig .tc .vmem S512x1000 .f32) (harg5 : arg5.IsWhole) (arg6 : Memref sig .tc .vmem S1x1024x512 .f32) (harg6 : arg6.IsWhole) (arg7 : Memref sig .tc .vmem S1x1x1024 .f32) (harg7 : arg7.IsWhole) (arg8 : Memref sig .tc .vmem S1x1x1 .f32) (harg8 : arg8.IsWhole) (hc0 : ¬cond0_0 i) (x0 : Vec F S512x512 .f32) (x1 : Vec F S1024x512 .bf16) (x2 : Vec F S512x1 .i32) (xo4 : Vec F S1x1024x512 .f32) (xo5 : Vec F S1x1x1024 .f32) (xo6 : Vec F S1x1x1 .f32) :
    out0_B_6 c i arg2 harg2 arg3 harg3 arg4 harg4 arg5 harg5 arg6 harg6 arg7 harg7 arg8 harg8 hc0 x0 x1 x2 xo4 xo5 xo6
      = k0_pay12 (k0_pay7 x0 x1) (k0_pay8 x0 x1) (k0_pay9 x2) (Scalar.ofBits .f32 0x00000000#32) xo6 := by
  unfold out0_B_6
  rw [View.read_writes_eq_canon _ _ _ (cover0_B_6 c i arg2 harg2 arg3 harg3 arg4 harg4 arg5 harg5 arg6 harg6 arg7 harg7 arg8 harg8 hc0 x0 x1 x2 xo4 xo5 xo6)]
  unfold kernelRun0_B
  dsimp only
  sl_unfold_words
  rw [View.canon_unit_zero hz3]
  simp only [View.readAt_eq_ld, harg2.read_unread, harg3.read_unread, harg4.read_unread, harg8.read_unread,
    View.ld_unit_zero (S := S512x512) hz2, View.ld_unit_zero (S := S1024x512) hz2, View.ld_unit_zero (S := S512x1) hz2, View.ld_unit_zero (S := S1x1x1) hz3]

end Cert.KernelIdeal.KV

end
-- ==== Proof.LibColumn.lean ====
/-
  Keep-dims columns read at an index.

  A row statistic of an [a, b] array (a row's maximum, a row's sum) is computed as an [a] vector, cast to the
  column [a, 1] and broadcast back over the b columns. Read at (p, c) the result is the statistic of row p,
  whatever the column c. The two layout steps, at any extents and element type.
-/
import Idealize.ShloMosaic.Lib.Pipeline.Value
import Idealize.ShloMosaic.Lib.ValueIdx

noncomputable section

namespace Idealize.ShloMosaic.Column

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: an `[a]` vector as a column, broadcast over `b` columns, at `(p, c)` is the vector at `p`. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Column

end
-- ==== Proof.LibRowRead.lean ====
/-
  Rows of a rank-2 array read through a reduction over the columns, and a unit middle axis dropped.

  A sum or a maximum over axis 1 of an [R, C] array, at row p, ranges over the entries (p, k), k a column:
  the sum is their sum, the maximum the fold of max from the starting value. An [R, 1, C] array cast to [R, C]
  reads, at (p, k), the entry (p, 0, k). And the four float words these programs use, as extended reals.
-/
import Idealize.ShloMosaic.PureOps.Ideal.Laws
import Idealize.ShloMosaic.Lib.Pipeline.Value
import Idealize.ShloMosaic.Lib.ValueIdx

noncomputable section

namespace Cert.RowRead

open Idealize.ShloMosaic Idealize.ShloMosaic.ValueIdx

variable {R C : ℕ} {φ : FTy}

/-- The reduced index p with column k put back is (p, k). -/
theorem lift_row (h : (⟨2, ![R, C]⟩ : Shape).Reduces [1] (⟨1, ![R]⟩ : Shape)) (p : Fin R)
    (k : Fin ((⟨2, ![R, C]⟩ : Shape).size 1)) : h.lift (ix1 p) k = ix2 p (⟨k.val, k.isLt⟩ : Fin C) := by
  funext c; apply Fin.ext
  fin_cases c <;> rfl

/-- A sum over the columns, at row p. -/
theorem rowSum_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, src (ix2 p k) := by
  rw [Ideal.multiReduction_add_single]
  exact Finset.sum_congr rfl fun k _ => congrArg src (lift_row h p k)

/-- A maximum over the columns, at row p: the fold of max from the accumulator's value. -/
theorem rowMax_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin C)).fold max (Ideal.ofBits φ acc) (fun k => src (ix2 p k)) := by
  rw [Ideal.multiReduction_maximumf_single]
  have hf : (src ∘ h.lift (ix1 p)) = fun k : Fin C => src (ix2 p k) := funext fun k => congrArg src (lift_row h p k)
  exact congrArg (fun f => Finset.fold max (Ideal.ofBits φ acc) f (Finset.univ : Finset (Fin C))) hf

/-- The f32 sum from the zero word, its side proofs typed as a program spells them. -/
theorem rowSum_f32 (src : FVec Ideal (⟨2, ![R, C]⟩ : Shape) .f32)
    (h : (⟨2, ![R, C]⟩ : Shape).Reduces [1] (⟨1, ![R]⟩ : Shape)) (hφ : FKind.Formats .f32)
    (hacc : (0x00000000#32 : BitVec 32) = 0x00000000#32) (p : Fin R) :
    multiReduction .add [1] (⟨1, ![R]⟩ : Shape) src 0x00000000#32 h hφ hacc (ix1 p) = ∑ k : Fin C, src (ix2 p k) :=
  rowSum_apply src _ h hφ hacc p

/-- The f32 maximum from the word of -∞, likewise: the fold of max from the bottom element. -/
theorem rowMax_f32 (src : FVec Ideal (⟨2, ![R, C]⟩ : Shape) .f32)
    (h : (⟨2, ![R, C]⟩ : Shape).Reduces [1] (⟨1, ![R]⟩ : Shape)) (hφ : FKind.Formats .f32)
    (hacc : (0xFF800000#32 : BitVec 32) = 0xFF800000#32) (p : Fin R) :
    multiReduction .maximumf [1] (⟨1, ![R]⟩ : Shape) src 0xFF800000#32 h hφ hacc (ix1 p)
      = (Finset.univ : Finset (Fin C)).fold max ⊥ (fun k => src (ix2 p k)) := by
  have e : Ideal.ofBits .f32 0xFF800000#32 = ⊥ := by simp [Ideal.ofBits, Ideal.ieee]
  rw [← e]
  exact rowMax_apply src _ h hφ hacc p

/-- The host's maximum over the columns, at row p: the fold of max from the initial value. -/
theorem hostRowMax_apply (x : FVec Ideal (⟨2, ![R, C]⟩ : Shape) φ) (init : (⟨0, ![]⟩ : Shape).Idx → Ideal φ)
    (h' : (⟨2, ![R, C]⟩ : Shape).ReducesTo [1] (⟨1, ![R]⟩ : Shape))
    (h : (⟨2, ![R, C]⟩ : Shape).Reduces [1] (⟨1, ![R]⟩ : Shape)) (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x init h' h hu]
  have hf : (x ∘ h.lift (ix1 p)) = fun k : Fin C => x (ix2 p k) := funext fun k => congrArg x (lift_row h p k)
  exact congrArg (fun f => Finset.fold max (init (Shape.Idx.first hu)) f (Finset.univ : Finset (Fin C))) hf

/-- An [R, 1, C] array with its unit axis dropped reads, at (p, k), the entry (p, 0, k). -/
theorem squeeze_apply {α : Type} (x : (⟨3, ![R, 1, C]⟩ : Shape).Idx → α)
    (h : (⟨3, ![R, 1, C]⟩ : Shape).ShapeCasts (⟨2, ![R, C]⟩ : Shape)) (p : Fin R) (k : Fin C) :
    shapeCast (⟨2, ![R, C]⟩ : Shape) x h (ix2 p k) = x (ix3 p (0 : Fin 1) k) :=
  shapeCast_apply x h _ _ (by
    rw [Shape.rowMajor_val_three, Shape.rowMajor_val_two]
    show (p.val * 1 + 0) * C + k.val = p.val * C + k.val
    rw [Nat.mul_one, Nat.add_zero])

/-- Reading a vector through `exp`, entry by entry. -/
theorem exp_apply {s : Shape} (a : FVec Ideal s φ) (i : s.Idx) : exp a i = Ideal.exp (a i) := rfl

/-! ## The float words -/

theorem word_zero : Ideal.ofBits .f32 0x00000000#32 = 0 := Ideal.ofBits_zero_f32
theorem word_one : Ideal.ofBits .f32 0x3F800000#32 = 1 := by simp [Ideal.ofBits, Ideal.ieee, -EReal.coe_mul]; norm_num
theorem word_thousand : Ideal.ofBits .f32 0x447A0000#32 = ((1000 : ℝ) : EReal) := by
  simp [Ideal.ofBits, Ideal.ieee, -EReal.coe_mul]; norm_num
theorem word_neg_inf : Ideal.ofBits .f32 0xFF800000#32 = ⊥ := by simp [Ideal.ofBits, Ideal.ieee]

end Cert.RowRead

end
-- ==== Proof.LibDotT.lean ====
/-
  A matrix product against a transposed right operand, read at an entry.

  For dimension numbers that contract axis 1 of BOTH operands, keep axis 0 of both, and have no batch axes
  (l [M, K] against r [N, K], result [M, N]: the product l rᵀ), the operand indices at the result entry (p, q) and
  contraction position k are (p, k) and (q, k). So, at the ideal values, a `tpu.matmul` into the zero accumulator is
  the sum  ∑ k, l (p, k) * r (q, k)  over the extended reals. Stated for ANY record with those six lists, at any
  extents and element formats.
-/
import Idealize.ShloMosaic.Lib.ValueIdx
import Idealize.ShloMosaic.PureOps.Ideal.Laws

noncomputable section

namespace Idealize.ShloMosaic.DotT

open Idealize.ShloMosaic Idealize.ShloMosaic.ValueIdx

variable {M K N : Nat} (d : DotDims ⟨2, ![M, K]⟩ ⟨2, ![N, K]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the result's column. -/
theorem rhs_row (hln : d.lhsNonContracting = [0]) (hrn : d.rhsNonContracting = [0]) (hlb : d.lhsBatch = [])
    (hrb : d.rhsBatch = []) (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- The right operand's column is the contraction position. -/
theorem rhs_col (hrc : d.rhsContracting = [1]) (j : (⟨2, ![M, N]⟩ : Shape).Idx) (k : d.contr.Idx) :
    (d.rhsIdx j k 1).val = (k ⟨0, by rw [d.rank_contr, ← d.length_contracting, hrc]; exact Nat.one_pos⟩).val :=
  d.rhsIdx_val_of_single hrc j k

/-- A `tpu.matmul` of such a record into the zero accumulator, at the ideal values and at entry (p, q): the sum over
    the contraction positions of the products of the left operand's row p and the right operand's row q. -/
theorem matmul_zero_apply {φ₁ φ₂ : FTy}
    (hlc : d.lhsContracting = [1]) (hrc : d.rhsContracting = [1]) (hln : d.lhsNonContracting = [0])
    (hrn : d.rhsNonContracting = [0]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![N, K]⟩ φ₂)
    (p : Fin M) (q : Fin N) :
    FloatOps.matmul d prec l r (constant (F := Ideal) ⟨2, ![M, N]⟩ .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 q k := funext fun a => Fin.ext (by
    match a with
    | ⟨0, _⟩ => exact rhs_row d hln hrn hlb hrb _ _
    | ⟨1, _⟩ => exact (rhs_col d hrc _ _).trans hk)
  rw [el, er]

end Idealize.ShloMosaic.DotT

end
-- ==== Proof.LibDot00.lean ====
/-
  A matrix product contracting the row axis of both operands, read at an entry.

  For dimension numbers that contract the left operand's axis 0 with the right operand's axis 0, keep the
  left operand's axis 1 and the right operand's axis 1, and have no batch axes, the operand indices at the
  result entry (p, q) and contraction position k are (k, p) and (k, q): the product is  lᵀ · r.  So, at the
  ideal values, a `tpu.matmul` into the zero accumulator is the sum  ∑ k, l (k, p) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.Dot00

open Idealize.ShloMosaic Idealize.ShloMosaic.ValueIdx

variable {M K N : Nat} (d : DotDims ⟨2, ![K, M]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the contraction position. -/
theorem lhs_row (hlc : d.lhsContracting = [0]) (j : (⟨2, ![M, N]⟩ : Shape).Idx) (k : d.contr.Idx) :
    (d.lhsIdx j k 0).val = (k ⟨0, by rw [d.rank_contr, hlc]; exact Nat.one_pos⟩).val :=
  d.lhsIdx_val_of_single hlc j k

/-- The left operand's column is the result's row. -/
theorem lhs_col (hln : d.lhsNonContracting = [1]) (hlb : d.lhsBatch = [])
    (j : (⟨2, ![M, N]⟩ : Shape).Idx) (k : d.contr.Idx) : (d.lhsIdx j k 1).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [1]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions k of the products of the left operand's entry (k, p) and the right operand's
    entry (k, q), that is, entry (p, q) of lᵀ · r. -/
theorem matmul_zero_apply {φ₁ φ₂ : FTy}
    (hlc : d.lhsContracting = [0]) (hrc : d.rhsContracting = [0]) (hln : d.lhsNonContracting = [1])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![K, M]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 k p) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (lhs_row d hlc _ _).trans hk
    | ⟨1, _⟩ => exact lhs_col d hln hlb _ _)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [0]) (hrc : d.rhsContracting = [0]) (hln : d.lhsNonContracting = [1])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![K, M]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 k ⟨(y 0).val, (y 0).isLt⟩) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.Dot00

end
-- ==== Proof.KTileA.lean ====
/-
  The body's payloads read at an index, at the ideal instance, in the vocabulary of the specification: the scaled
  feature rows, the tile's logits (a product over the 512 features times the temperature's reciprocal), and what the
  tile adds to the class sums (the one-hot columns against the scaled rows, summed over the tile's rows) and to the
  class counts (the one-hot columns summed over the rows). The resets store zeros.
-/
import proofs.«417236_j85134841741643_3_alg».proof.Proof.Gen.KernelIdeal.Skeleton
import proofs.«417236_j85134841741643_3_alg».proof.Proof.Spec
import proofs.«417236_j85134841741643_3_alg».proof.Proof.LibColumn
import proofs.«417236_j85134841741643_3_alg».proof.Proof.LibRowRead
import proofs.«417236_j85134841741643_3_alg».proof.Proof.LibDotT
import proofs.«417236_j85134841741643_3_alg».proof.Proof.LibDot00
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.KV

open Idealize.ShloMosaic Idealize.ShloMosaic.ValueIdx
open Cert.KernelIdeal Cert.KernelIdeal.Gen

/-! ## Words and layout steps the payloads meet -/

/-- The comparison bit of two equal words, widened and read as a signed integer, is the real one. -/
theorem bit_one (a b : BitVec 32) (h : a = b) :
    FloatOps.sitofp (F := Ideal) .f32 ((IntOp.cmpi .eq a b).setWidth 32) = (1 : EReal) := by
  have e : IntOp.cmpi .eq a b = 1#1 := by
    show BitVec.ofBool (a == b) = 1#1
    rw [beq_iff_eq.mpr h]; rfl
  rw [e]
  show ((((1#1 : BitVec 1).setWidth 32).toInt : ℝ) : EReal) = 1
  have t : ((1#1 : BitVec 1).setWidth 32).toInt = 1 := by decide
  rw [t]; simp

/-- The comparison bit of two different words, widened and read as a signed integer, is the real zero. -/
theorem bit_zero (a b : BitVec 32) (h : ¬a = b) :
    FloatOps.sitofp (F := Ideal) .f32 ((IntOp.cmpi .eq a b).setWidth 32) = (0 : EReal) := by
  have e : IntOp.cmpi .eq a b = 0#1 := by
    show BitVec.ofBool (a == b) = 0#1
    rw [beq_eq_false_iff_ne.mpr h]; rfl
  rw [e]
  show ((((0#1 : BitVec 1).setWidth 32).toInt : ℝ) : EReal) = 0
  have t : ((0#1 : BitVec 1).setWidth 32).toInt = 0 := by decide
  rw [t]; simp

/-- The first 1000 columns of a 1024-column block: entry (r, c) of the slice is entry (r, c) of the block. -/
theorem slice_apply {α : Type} (x : S512x1024.Idx → α) (h : S512x1024.Slices ![0, 0] S512x1000) (r : Fin 512)
    (c : Fin 1000) :
    extractStridedSlice S512x1000 ![0, 0] x h (ix2 r c) = x (ix2 r (⟨c.val, by have := c.isLt; omega⟩ : Fin 1024)) :=
  extractStridedSlice_apply _ x h _ _ fun a => match a with
    | ⟨0, _⟩ => by show r.val = 0 + r.val; omega
    | ⟨1, _⟩ => by show c.val = 0 + c.val; omega

/-- The reduced index q with row k put back is (k, q). -/
theorem lift_col {R C : ℕ} (h : (⟨2, ![R, C]⟩ : Shape).Reduces [0] (⟨1, ![C]⟩ : Shape)) (q : Fin C)
    (k : Fin ((⟨2, ![R, C]⟩ : Shape).size 0)) : h.lift (ix1 q) k = ix2 (⟨k.val, k.isLt⟩ : Fin R) q := by
  funext c; apply Fin.ext
  fin_cases c <;> rfl

/-- A sum over the rows, at column q, from the zero word. -/
theorem colSum_f32 {R C : ℕ} (src : FVec Ideal (⟨2, ![R, C]⟩ : Shape) .f32)
    (h : (⟨2, ![R, C]⟩ : Shape).Reduces [0] (⟨1, ![C]⟩ : Shape)) (hφ : FKind.Formats .f32)
    (hacc : (0x00000000#32 : BitVec 32) = 0x00000000#32) (q : Fin C) :
    multiReduction .add [0] (⟨1, ![C]⟩ : Shape) src 0x00000000#32 h hφ hacc (ix1 q) = ∑ k : Fin R, src (ix2 k q) := by
  refine (Ideal.multiReduction_add_single src _ h hφ hacc (ix1 q)).trans ?_
  exact Finset.sum_congr rfl fun k _ => congrArg src (lift_col h q k)

/-! ## The payloads -/

/-- The temperature's reciprocal: the named constant reads as the specification's `invT`. -/
theorem named_invT : Named.named (F := Ideal) κ "inv_temperature" (φ := .f32) 0x41200000#32 = Cert.Spec.invT := by
  exact IdealRules.named_const.ideal_named_scalar _ _ _ _ rfl

/-- The three resets store zeros. -/
theorem pay1_apply (i : S1x1024x512.Idx) : k0_pay1 (F := Ideal) i = 0 := by
  unfold k0_pay1
  exact Ideal.ofBits_zero_f32
theorem pay2_apply (i : S1x1x1024.Idx) : k0_pay2 (F := Ideal) i = 0 := by
  unfold k0_pay2
  exact Ideal.ofBits_zero_f32
theorem pay3_apply (i : S1x1x1.Idx) : k0_pay3 (F := Ideal) i = 0 := by
  unfold k0_pay3
  exact Ideal.ofBits_zero_f32

/-- The scaled feature rows. -/
theorem pay4_apply (x0 : Vec Ideal S512x512 .f32) (r k : Fin 512) :
    k0_pay4 (F := Ideal) x0 (ix2 r k) = Cert.Spec.unit x0 r k := by
  unfold k0_pay4 Cert.Spec.unit Cert.Spec.epsE
  refine (truncf_apply (φ := .f32) (ψ := .bf16) _ bitsLt_bf16_f32 (ix2 r k)).trans ?_
  refine (divf_apply _ _ _).trans ?_
  refine congrArg (Ideal.div (x0 (ix2 r k))) ?_
  refine (Column.broadcastTo_a1_ab_apply _ _ r k).trans ?_
  refine (maximumf_apply _ _ _).trans ?_
  refine congrArg₂ max ?_ rfl
  refine congrArg Ideal.sqrt ?_
  refine (Column.shapeCast_a_a1_apply _ _ r (0 : Fin 1)).trans ?_
  exact Cert.RowRead.rowSum_f32 _ _ _ _ r

/-- The one-hot block: entry (r, c) is one where column c is row r's label and zero elsewhere. -/
theorem hot_apply (x2 : Vec Ideal S512x1 .i32) (r : Fin 512) (c : Fin 1024) :
    sitofp (F := Ideal) .f32 (extui 32 (k0_pay9 (F := Ideal) x2) natLt_1_32) (ix2 r c)
      = if Cert.Spec.tHot x2 r c then (1 : EReal) else 0 := by
  have e1 : k0_pay9 (F := Ideal) x2 (ix2 r c)
      = IntOp.cmpi .eq (BitVec.ofNat 32 c.val) (x2 (ix2 r (0 : Fin 1))) := by
    unfold k0_pay9
    exact congrArg₂ (IntOp.cmpi .eq) (iota_single_apply .tc S512x1024 32 1 _ (ix2 r c))
      ((Column.broadcastTo_a1_ab_apply _ _ r c).trans (congrFun (shapeCast_self x2 _) (ix2 r (0 : Fin 1))))
  have e2 : sitofp (F := Ideal) .f32 (extui 32 (k0_pay9 (F := Ideal) x2) natLt_1_32) (ix2 r c)
      = FloatOps.sitofp (F := Ideal) .f32
          ((IntOp.cmpi .eq (BitVec.ofNat 32 c.val) (x2 (ix2 r (0 : Fin 1)))).setWidth 32) :=
    congrArg (fun w : BitVec 1 => FloatOps.sitofp (F := Ideal) .f32 (w.setWidth 32)) e1
  refine e2.trans ?_
  by_cases h : Cert.Spec.tHot x2 r c
  · rw [if_pos h]; exact bit_one _ _ h
  · rw [if_neg h]; exact bit_zero _ _ h

/-- The scaled logits before the padding columns are cut: entry (r, c) over all 1024 columns. -/
theorem pay5_apply (x0 : Vec Ideal S512x512 .f32) (x1 : Vec Ideal S1024x512 .bf16) (r : Fin 512) (c : Fin 1024) :
    k0_pay5 (F := Ideal) x0 x1 (ix2 r c) = Cert.Spec.tLogit x0 x1 r c := by
  unfold k0_pay5 Cert.Spec.tLogit
  refine (mulf_apply _ _ _).trans ?_
  refine congrArg₂ (· * ·) ?_ named_invT
  refine (DotT.matmul_zero_apply dot_S512x512_S1024x512_S512x1024_1_1_0_0_n_n rfl rfl rfl rfl rfl rfl rfl rfl
    none _ _ r c).trans ?_
  exact Finset.sum_congr rfl fun k _ =>
    congrArg₂ (· * ·) (pay4_apply x0 r k) (congrFun (shapeCast_self x1 _) (ix2 c k))

/-- The logits block. -/
theorem pay6_apply (x0 : Vec Ideal S512x512 .f32) (x1 : Vec Ideal S1024x512 .bf16) (r : Fin 512) (c : Fin 1000) :
    k0_pay6 (F := Ideal) x0 x1 (ix2 r c)
      = Cert.Spec.tLogit x0 x1 r ⟨c.val, by have := c.isLt; omega⟩ := by
  unfold k0_pay6
  exact (slice_apply _ _ r c).trans (pay5_apply x0 x1 r _)

/-- The class sums after the tile: what was there plus the tile's contribution. -/
theorem pay10_apply (x0 : Vec Ideal S512x512 .f32) (x2 : Vec Ideal S512x1 .i32) (prev : Vec Ideal S1x1024x512 .f32)
    (c : Fin 1024) (d : Fin 512) :
    k0_pay10 (F := Ideal) (k0_pay4 x0) (k0_pay9 x2) prev (ix3 (0 : Fin 1) c d)
      = prev (ix3 (0 : Fin 1) c d) + Cert.Spec.tSum x0 x2 c d := by
  unfold k0_pay10 Cert.Spec.tSum
  refine (shapeCast_ab_1ab_apply _ _ (0 : Fin 1) c d).trans ?_
  refine (addf_apply _ _ _).trans ?_
  refine congrArg₂ (· + ·) (shapeCast_1ab_ab_apply prev _ c d) ?_
  refine (Dot00.matmul_zero_apply dot_S512x1024_S512x512_S1024x512_0_0_1_1_n_n rfl rfl rfl rfl rfl rfl rfl rfl
    none _ _ c d).trans ?_
  exact Finset.sum_congr rfl fun k _ => congrArg₂ (· * ·) (hot_apply x2 k c) (pay4_apply x0 k d)

/-- The class counts after the tile. -/
theorem pay11_apply (x2 : Vec Ideal S512x1 .i32) (prev : Vec Ideal S1x1x1024 .f32) (c : Fin 1024) :
    k0_pay11 (F := Ideal) (k0_pay9 x2) prev (ix3 (0 : Fin 1) (0 : Fin 1) c)
      = prev (ix3 (0 : Fin 1) (0 : Fin 1) c) + Cert.Spec.tCnt x2 c := by
  unfold k0_pay11 Cert.Spec.tCnt
  refine (shapeCast_ab_1ab_apply _ _ (0 : Fin 1) (0 : Fin 1) c).trans ?_
  refine (addf_apply _ _ _).trans ?_
  refine congrArg₂ (· + ·) (shapeCast_1ab_ab_apply prev _ (0 : Fin 1) c) ?_
  refine (shapeCast_a_1a_apply _ _ (0 : Fin 1) c).trans ?_
  refine (colSum_f32 _ _ _ _ c).trans ?_
  exact Finset.sum_congr rfl fun k _ => hot_apply x2 k c

end Cert.KernelIdeal.KV

end
-- ==== Proof.KTileB.lean ====
/-
  The loss payload read at its one index, at the ideal instance: what was there plus zero minus the sum, over the tile's
  rows, of (the shifted logit at the row's label, picked by the one-hot row, less the logarithm of the row's sum of
  exponentials), the padding columns' logits replaced by minus infinity before the row's maximum is taken.
-/
import proofs.«417236_j85134841741643_3_alg».proof.Proof.Gen.KernelIdeal.Skeleton
import proofs.«417236_j85134841741643_3_alg».proof.Proof.Spec
import proofs.«417236_j85134841741643_3_alg».proof.Proof.LibColumn
import proofs.«417236_j85134841741643_3_alg».proof.Proof.LibRowRead
import proofs.«417236_j85134841741643_3_alg».proof.Proof.LibDotT
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.KV

open Idealize.ShloMosaic Idealize.ShloMosaic.ValueIdx
open Cert.KernelIdeal Cert.KernelIdeal.Gen

/-- A feature row scaled by the larger of its Euclidean length and eps, at an entry. -/
theorem unitB_at (x0 : Vec Ideal S512x512 .f32) (r : Fin 512) (k : Fin 512) :
    k0_pay4 (F := Ideal) x0 (ix2 r k) = Cert.Spec.unit x0 r k := by
  unfold k0_pay4 Cert.Spec.unit Cert.Spec.epsE
  dsimp only
  refine congrArg (Ideal.div (x0 (ix2 r k))) ?_
  refine (Column.broadcastTo_a1_ab_apply _ broadcasts_S512x1_S512x512 r k).trans ?_
  refine congrArg (fun t => max (Ideal.sqrt t) (Ideal.ofBits .f32 0x2B8CBCCC#32)) ?_
  refine (Column.shapeCast_a_a1_apply _ shapeCasts_S512_S512x1 r 0).trans ?_
  exact Cert.RowRead.rowSum_f32 (mulf x0 x0) reduces_S512x512_S512 (.inl rfl) rfl r

/-! ## The two named constants -/

/-- The named reciprocal of the temperature. -/
theorem invTB : Named.named (F := Ideal) Cert.KernelIdeal.κ "inv_temperature" (φ := .f32) 0x41200000#32 = Cert.Spec.invT :=
  IdealRules.named_const.ideal_named_scalar _ _ _ _ rfl

/-- The named fill of the padding columns is minus infinity. -/
theorem padFillB : Named.named (F := Ideal) Cert.KernelIdeal.κ "pad_fill" (φ := .f32) 0xFF333332#32 = (⊥ : EReal) :=
  IdealRules.named_const.ideal_named_scalar _ _ _ _ rfl

/-! ## The logits -/

/-- The scaled logits at an entry: the scaled feature row against the prototype row, times the reciprocal of the temperature. -/
theorem logitB_at (x0 : Vec Ideal S512x512 .f32) (x1 : Vec Ideal S1024x512 .bf16) (r : Fin 512) (c : Fin 1024) :
    k0_pay5 (F := Ideal) x0 x1 (ix2 r c) = Cert.Spec.tLogit x0 x1 r c := by
  unfold k0_pay5 Cert.Spec.tLogit
  rw [shapeCast_self]
  refine (mulf_apply _ _ _).trans ?_
  refine congrArg₂ (· * ·) ?_ invTB
  refine (DotT.matmul_zero_apply dot_S512x512_S1024x512_S512x1024_1_1_0_0_n_n rfl rfl rfl rfl rfl rfl rfl rfl none
    (k0_pay4 (F := Ideal) x0) x1 r c).trans ?_
  exact Finset.sum_congr rfl fun k _ => congrArg (· * x1 (ix2 c k)) (unitB_at x0 r k)

/-! ## The mask -/

/-- A column number below 1024, as a 32-bit word, is signed-less than 1000 exactly when it is less than 1000. -/
theorem sltB (c : Fin 1024) :
    IntOp.cmpi .slt (BitVec.ofNat 32 c.val) 1000#32 = if c.val < 1000 then 1#1 else 0#1 := by
  have hc := c.isLt
  have hi : (BitVec.ofNat 32 c.val).toInt = (c.val : Int) := by
    rw [BitVec.toInt_eq_toNat_of_lt (by rw [BitVec.toNat_ofNat]; omega), BitVec.toNat_ofNat]; omega
  have ht : (1000#32 : BitVec 32).toInt = 1000 := by decide
  by_cases h : c.val < 1000
  · rw [if_pos h]
    exact IntOp.cmpi_slt.mpr (by rw [hi, ht]; omega)
  · rw [if_neg h]
    refine eq_zero_of_ne_one fun h1 => h ?_
    have := IntOp.cmpi_slt.mp h1
    rw [hi, ht] at this; omega

/-- The logits with the padding columns replaced by the named fill. -/
def maskedB (x0 : Vec Ideal S512x512 .f32) (x1 : Vec Ideal S1024x512 .bf16) : FVec Ideal S512x1024 .f32 :=
  select (cmpi .slt (iota .tc S512x1024 32 [1] iota_S512x1024_d1_w32) (broadcast S512x1024 1000#32)) (k0_pay5 (F := Ideal) x0 x1)
    (broadcast S512x1024 (Named.named (F := Ideal) Cert.KernelIdeal.κ "pad_fill" (φ := .f32) 0xFF333332#32))

/-- The masked logits at an entry. -/
theorem maskedB_at (x0 : Vec Ideal S512x512 .f32) (x1 : Vec Ideal S1024x512 .bf16) (r : Fin 512) (c : Fin 1024) :
    maskedB x0 x1 (ix2 r c) = Cert.Spec.tMasked x0 x1 r c := by
  unfold maskedB Cert.Spec.tMasked
  refine (select_apply _ _ _ _).trans ?_
  have hc : cmpi .slt (iota .tc S512x1024 32 [1] iota_S512x1024_d1_w32) (broadcast S512x1024 1000#32) (ix2 r c)
      = if c.val < 1000 then 1#1 else 0#1 := by
    show IntOp.cmpi .slt (iota .tc S512x1024 32 [1] iota_S512x1024_d1_w32 (ix2 r c)) 1000#32 = _
    rw [iota_single_apply]
    exact sltB c
  rw [hc, logitB_at]
  by_cases h : c.val < 1000
  · rw [if_pos h, if_pos h]; exact select_one _ _
  · rw [if_neg h, if_neg h]; exact (select_zero _ _).trans padFillB

/-! ## The row maximum and the shift -/

/-- Folding max from the bottom element over a finite set is the supremum. -/
theorem fold_max_botB {ι : Type} (s : Finset ι) (f : ι → EReal) : s.fold max ⊥ f = s.sup f :=
  le_antisymm ((Finset.fold_max_le _).mpr ⟨bot_le, fun x hx => Finset.le_sup hx⟩)
    (Finset.sup_le fun x hx => ((Finset.fold_max_le _).mp le_rfl).2 x hx)

/-- The masked logits less their row's largest, at an entry. -/
theorem shiftB_at (x0 : Vec Ideal S512x512 .f32) (x1 : Vec Ideal S1024x512 .bf16) (r : Fin 512) (c : Fin 1024) :
    k0_pay7 (F := Ideal) x0 x1 (ix2 r c) = Cert.Spec.tShift x0 x1 r c := by
  unfold k0_pay7 Cert.Spec.tShift Cert.Spec.tMax
  dsimp only
  refine (subf_apply _ _ _).trans ?_
  refine congrArg₂ (· - ·) (maskedB_at x0 x1 r c) ?_
  refine (Column.keepdims_apply _ shapeCasts_S512_S512x1 broadcasts_S512x1_S512x1024 r c).trans ?_
  refine (Cert.RowRead.rowMax_f32 (maskedB x0 x1) reduces_S512x1024_S512 (.inl rfl) rfl r).trans ?_
  rw [fold_max_botB]
  exact congrArg (Finset.univ.sup) (funext fun k => maskedB_at x0 x1 r k)

/-! ## The logarithm of the row's sum of exponentials -/

/-- The logarithm of the sum, over the row, of the exponentials of the shifted logits, read in the keep-dims column. -/
theorem lseB_at (x0 : Vec Ideal S512x512 .f32) (x1 : Vec Ideal S1024x512 .bf16) (r : Fin 512) :
    k0_pay8 (F := Ideal) x0 x1 (ix2 r (0 : Fin 1)) = Cert.Spec.tLse x0 x1 r := by
  unfold k0_pay8 Cert.Spec.tLse
  dsimp only
  refine congrArg Ideal.log ?_
  refine (Column.shapeCast_a_a1_apply _ shapeCasts_S512_S512x1 r 0).trans ?_
  refine (Cert.RowRead.rowSum_f32 (exp (k0_pay7 (F := Ideal) x0 x1)) reduces_S512x1024_S512 (.inl rfl) rfl r).trans ?_
  exact Finset.sum_congr rfl fun k _ => congrArg Ideal.exp (shiftB_at x0 x1 r k)

/-! ## The one-hot row -/

/-- The compare of the column number with the row's label is the word 1 exactly at the label's column. -/
theorem hotB_at (x2 : Vec Ideal S512x1 .i32) (r : Fin 512) (c : Fin 1024) :
    k0_pay9 (F := Ideal) x2 (ix2 r c) = if Cert.Spec.tHot x2 r c then 1#1 else 0#1 := by
  unfold k0_pay9
  dsimp only
  rw [shapeCast_self]
  show IntOp.cmpi .eq (iota .tc S512x1024 32 [1] iota_S512x1024_d1_w32 (ix2 r c))
    (broadcastTo S512x1024 x2 broadcasts_S512x1_S512x1024 (ix2 r c)) = _
  rw [iota_single_apply, Column.broadcastTo_a1_ab_apply]
  show IntOp.cmpi .eq (BitVec.ofNat 32 c.val) (x2 (ix2 r 0)) = _
  by_cases h : Cert.Spec.tHot x2 r c
  · rw [if_pos h]; exact IntOp.cmpi_eq.mpr h
  · rw [if_neg h]; exact eq_zero_of_ne_one fun h1 => h (IntOp.cmpi_eq.mp h1)

/-! ## The loss -/

/-- The reduced index q with row k put back is (k, q). -/
theorem lift_colB {R C : ℕ} (h : (⟨2, ![R, C]⟩ : Shape).Reduces [0] (⟨1, ![C]⟩ : Shape)) (q : Fin C)
    (k : Fin ((⟨2, ![R, C]⟩ : Shape).size 0)) : h.lift (ix1 q) k = ix2 (⟨k.val, k.isLt⟩ : Fin R) q := by
  funext c; apply Fin.ext
  fin_cases c <;> rfl

/-- A sum over the rows from the zero word, at column q. -/
theorem colSumB {R C : ℕ} (src : FVec Ideal (⟨2, ![R, C]⟩ : Shape) .f32)
    (h : (⟨2, ![R, C]⟩ : Shape).Reduces [0] (⟨1, ![C]⟩ : Shape)) (hφ : FKind.Formats .f32)
    (hacc : (0x00000000#32 : BitVec 32) = 0x00000000#32) (q : Fin C) :
    multiReduction .add [0] (⟨1, ![C]⟩ : Shape) src 0x00000000#32 h hφ hacc (ix1 q) = ∑ k : Fin R, src (ix2 k q) := by
  refine (Ideal.multiReduction_add_single src 0x00000000#32 h hφ hacc (ix1 q)).trans ?_
  exact Finset.sum_congr rfl fun k _ => congrArg src (lift_colB h q k)

/-- The loss payload at its one index, over any shifted logits, any column of logarithms and any one-hot mask: what was
    there, plus zero minus the sum over the rows of (the row's masked sum less the row's logarithm). -/
theorem lossB_gen (v28 : FVec Ideal S512x1024 .f32) (v32 : FVec Ideal S512x1 .f32) (v36 : IVec S512x1024 1)
    (prev : Vec Ideal S1x1x1 .f32) :
    k0_pay12 (F := Ideal) v28 v32 v36 (Scalar.ofBits .f32 0x00000000#32) prev (ix3 (0 : Fin 1) (0 : Fin 1) (0 : Fin 1))
      = prev (ix3 (0 : Fin 1) (0 : Fin 1) (0 : Fin 1))
        + (0 - ∑ r : Fin 512, ((∑ c : Fin 1024, Scalar.select (v36 (ix2 r c)) (v28 (ix2 r c)) (0 : EReal))
            - v32 (ix2 r (0 : Fin 1)))) := by
  unfold k0_pay12
  dsimp only
  refine (shapeCast_ab_1ab_apply _ shapeCasts_S1x1_S1x1x1 0 0 0).trans ?_
  refine (addf_apply _ _ _).trans ?_
  refine congrArg₂ (· + ·) (shapeCast_1ab_ab_apply prev shapeCasts_S1x1x1_S1x1 0 0) ?_
  refine (subf_apply _ _ _).trans ?_
  refine congrArg₂ (· - ·) Ideal.ofBits_zero_f32 ?_
  refine (Column.shapeCast_a_a1_apply _ shapeCasts_S1_S1x1 0 0).trans ?_
  refine (colSumB _ reduces_S512x1_S1 (.inl rfl) rfl 0).trans ?_
  refine Finset.sum_congr rfl fun r _ => ?_
  refine (subf_apply _ _ _).trans ?_
  refine congrArg (· - v32 (ix2 r 0)) ?_
  refine (Column.shapeCast_a_a1_apply _ shapeCasts_S512_S512x1 r 0).trans ?_
  refine (Cert.RowRead.rowSum_f32 _ reduces_S512x1024_S512 (.inl rfl) rfl r).trans ?_
  refine Finset.sum_congr rfl fun c _ => ?_
  refine (select_apply _ _ _ _).trans ?_
  exact congrArg (Scalar.select (v36 (ix2 r c)) (v28 (ix2 r c))) Ideal.ofBits_zero_f32

/-- The loss after the tile. -/
theorem pay12_apply (x0 : Vec Ideal S512x512 .f32) (x1 : Vec Ideal S1024x512 .bf16) (x2 : Vec Ideal S512x1 .i32)
    (prev : Vec Ideal S1x1x1 .f32) :
    k0_pay12 (F := Ideal) (k0_pay7 x0 x1) (k0_pay8 x0 x1) (k0_pay9 x2) (Scalar.ofBits .f32 0x00000000#32) prev
        (ix3 (0 : Fin 1) (0 : Fin 1) (0 : Fin 1))
      = prev (ix3 (0 : Fin 1) (0 : Fin 1) (0 : Fin 1)) + Cert.Spec.tLoss x0 x1 x2 := by
  refine (lossB_gen _ _ _ prev).trans ?_
  unfold Cert.Spec.tLoss Cert.Spec.tSel
  refine congrArg (fun t => prev (ix3 (0 : Fin 1) (0 : Fin 1) (0 : Fin 1)) + (0 - t)) ?_
  refine Finset.sum_congr rfl fun r _ => ?_
  refine congrArg₂ (· - ·) ?_ (lseB_at x0 x1 r)
  refine Finset.sum_congr rfl fun c _ => ?_
  rw [hotB_at, shiftB_at]
  by_cases h : Cert.Spec.tHot x2 r c
  · rw [if_pos h, if_pos h]; exact select_one _ _
  · rw [if_neg h, if_neg h]; exact select_zero _ _

end Cert.KernelIdeal.KV

end
-- ==== Proof.KBlocks.lean ====
/-
  The three input blocks a grid point reads, as blocks of the argument arrays: tile t's 512 rows of the features, the
  whole padded table of scaled prototypes (the host scales each prototype row by the larger of its length and eps, pads
  24 zero rows and changes the format, which is the identity here), and tile t's 512 labels as a column.
-/
import proofs.«417236_j85134841741643_3_alg».proof.Proof.Gen.KernelIdeal.Frame
import proofs.«417236_j85134841741643_3_alg».proof.Proof.Spec
import proofs.«417236_j85134841741643_3_alg».proof.Proof.LibColumn
import proofs.«417236_j85134841741643_3_alg».proof.Proof.LibRowRead
import Idealize.ShloMosaic.Lib.Pipeline.Value
import Idealize.ShloMosaic.Lib.ValueLayout
import Idealize.ShloMosaic.Lib.KernelVsHost
import Idealize.ShloMosaic.Lib.IdealHost
import Idealize.ShloMosaic.Lib.StableHlo.Run
import Idealize.ShloMosaic.PureOps.Ideal.Laws
import Idealize.ShloMosaic.Lib.Tactic

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The features' block at point `t`, under its literal type. -/
abbrev xblk (c : Dev nD) (t : Fin cfg0.N) : Vec Ideal S512x512 .f32 := iblk m c 0 t
/-- The padded scaled prototypes, the one block of their window, under its literal type. -/
abbrev pblk (c : Dev nD) (t : Fin cfg0.N) : Vec Ideal S1024x512 .bf16 := iblk m c 1 t
/-- The labels' block at point `t`, under its literal type. -/
abbrev lblk (c : Dev nD) (t : Fin cfg0.N) : Vec Ideal S512x1 .i32 := iblk m c 2 t

/-- The grid has 32 points. -/
theorem tN (t : Fin cfg0.N) : t.val < 32 := lt_of_lt_of_eq t.isLt N_0

/-! ## Where the three windows point

Point `t` reads block row `t` of the features and of the labels (the index map sends core `k`, step `i` to
`16 k + i`, the point's number), block column 0; the table's window always reads block (0, 0), the whole table. -/

theorem idx_facts : ∀ t : Fin cfg0.N,
    win0_0.index t (0 : Fin 2) = t.val ∧ win0_0.index t (1 : Fin 2) = 0 ∧
    win0_1.index t (0 : Fin 2) = 0 ∧ win0_1.index t (1 : Fin 2) = 0 ∧
    win0_2.index t (0 : Fin 2) = t.val ∧ win0_2.index t (1 : Fin 2) = 0 :=
  (by decide +kernel : ∀ t : Fin grid0.N, _)

/-! ## The table of scaled prototypes as the host forms it

Every prototype entry is divided by the larger of its row's Euclidean length (the square root of the row's sum of
squares) and eps; 24 rows of zeros follow the 1000 rows; the change of format is the identity on extended reals. -/

/-- The host's scaled, padded and format-changed table, as a term of the prototypes. -/
def hostTable (P : FVec Ideal (⟨2, ![1000, 512]⟩ : Shape) .f32)
    (hR : (⟨2, ![1000, 512]⟩ : Shape).ReducesTo [1] (⟨1, ![1000]⟩ : Shape)) (hu : 0 < (⟨0, ![]⟩ : Shape).numel)
    (hb0 : (⟨1, ![1000]⟩ : Shape).BroadcastsInDim (⟨2, ![1000, 1]⟩ : Shape) (![0] : Fin 1 → Fin 2))
    (hbs : (⟨0, ![]⟩ : Shape).BroadcastsInDim (⟨2, ![1000, 1]⟩ : Shape) (![] : Fin 0 → Fin 2))
    (hb01 : (⟨2, ![1000, 1]⟩ : Shape).BroadcastsInDim (⟨2, ![1000, 512]⟩ : Shape) (![0, 1] : Fin 2 → Fin 2))
    (hp : (⟨2, ![1000, 512]⟩ : Shape).Pads (![0, 0] : Fin 2 → Nat) ![24, 0] ![0, 0] (⟨2, ![1024, 512]⟩ : Shape))
    (hlt : FTy.bits .bf16 < FTy.bits .f32) : FVec Ideal (⟨2, ![1024, 512]⟩ : Shape) .bf16 :=
  truncf .bf16
    (pad (⟨2, ![1024, 512]⟩ : Shape) ![0, 0] ![24, 0] ![0, 0]
      (Host.divf P
        (broadcastInDim (⟨2, ![1000, 512]⟩ : Shape) ![0, 1] hb01
          (maximumf
            (Host.sqrt (broadcastInDim (⟨2, ![1000, 1]⟩ : Shape) ![0] hb0
              (Host.reduceAdd (mulf P P) (constant (F := Ideal) (⟨0, ![]⟩ : Shape) .f32 0x00000000#32) hR hu)))
            (broadcastInDim (⟨2, ![1000, 1]⟩ : Shape) ![] hbs (constant (F := Ideal) (⟨0, ![]⟩ : Shape) .f32 0x2B8CBCCC#32)))))
      (sitofp (F := Ideal) .f32 (constantI (⟨0, ![]⟩ : Shape) 32 0#32)) hp hu) hlt

/-- Read at an index: below row 1000 the scaled prototype entry, zero from row 1000 on. -/
theorem hostTable_apply (P : FVec Ideal (⟨2, ![1000, 512]⟩ : Shape) .f32)
    (hR : (⟨2, ![1000, 512]⟩ : Shape).ReducesTo [1] (⟨1, ![1000]⟩ : Shape)) (hu : 0 < (⟨0, ![]⟩ : Shape).numel)
    (hb0 : (⟨1, ![1000]⟩ : Shape).BroadcastsInDim (⟨2, ![1000, 1]⟩ : Shape) (![0] : Fin 1 → Fin 2))
    (hbs : (⟨0, ![]⟩ : Shape).BroadcastsInDim (⟨2, ![1000, 1]⟩ : Shape) (![] : Fin 0 → Fin 2))
    (hb01 : (⟨2, ![1000, 1]⟩ : Shape).BroadcastsInDim (⟨2, ![1000, 512]⟩ : Shape) (![0, 1] : Fin 2 → Fin 2))
    (hp : (⟨2, ![1000, 512]⟩ : Shape).Pads (![0, 0] : Fin 2 → Nat) ![24, 0] ![0, 0] (⟨2, ![1024, 512]⟩ : Shape))
    (hlt : FTy.bits .bf16 < FTy.bits .f32) (j : (⟨2, ![1024, 512]⟩ : Shape).Idx) :
    hostTable P hR hu hb0 hbs hb01 hp hlt j = Cert.Spec.pPad P j := by
  have h1 : (j 1).val < 512 := idx2_lt1 j
  unfold hostTable Cert.Spec.pPad
  rw [truncf_apply]
  by_cases hr : (j 0).val < 1000
  · -- a prototype row: the pad reads the quotient at (row, column)
    rw [dif_pos hr]
    refine (pad_apply_of_inside _ _ _ _ _ hp hu j (ix2 (⟨(j 0).val, hr⟩ : Fin 1000) (⟨(j 1).val, h1⟩ : Fin 512)) (fun a => ?_)).trans ?_
    · match a with
      | ⟨0, _⟩ => show (j 0).val = 0 + (j 0).val * (0 + 1); omega
      | ⟨1, _⟩ => show (j 1).val = 0 + (j 1).val * (0 + 1); omega
    · unfold Cert.Spec.unit
      show Ideal.div (P _) _ = _
      congr 1
      -- the divisor: the norm column of the row, whatever the column
      refine (broadcastInDim_apply _ hb01 _ _ (ix2 (⟨(j 0).val, hr⟩ : Fin 1000) (0 : Fin 1)) (fun a => ?_)).trans ?_
      · match a with
        | ⟨0, _⟩ => rfl
        | ⟨1, _⟩ => rfl
      · show max (Ideal.sqrt _) _ = max (Ideal.sqrt _) _
        refine congrArg₂ max (congrArg Ideal.sqrt ?_) (broadcastInDim_scalar_apply hbs _ _)
        refine (broadcastInDim_apply _ hb0 _ _ (ix1 (⟨(j 0).val, hr⟩ : Fin 1000)) (fun a => ?_)).trans ?_
        · match a with
          | ⟨0, _⟩ => rfl
        · -- the row's sum of squares: zero plus the sum over the 512 columns
          show Ideal.hostReduceAdd hR (mulf P P) (Ideal.ofBits .f32 0x00000000#32) _ = _
          rw [Ideal.hostReduceAdd_single hR (by decide), Cert.RowRead.word_zero, zero_add]
          exact Finset.sum_congr rfl fun k _ => congrArg (fun i => P i * P i) (Cert.RowRead.lift_row (by decide) _ k)
  · -- a padding row: the pad value, the integer zero as a float
    rw [dif_neg hr]
    refine (pad_apply_of_not_inside _ _ _ _ _ hp hu j (0 : Fin 2) (fun hin => hr ?_)).trans ?_
    · have h3 : ((j 0).val - 0) / (0 + 1) < 1000 := hin.2.2
      omega
    · show ((((0#32 : BitVec 32).toInt : ℝ)) : EReal) = 0
      simp

/-! ## What the region finds in the two arrays the host wrote -/

/-- The table's array holds the host's table of the prototypes as launched. -/
theorem table_eq (c : Dev nD) :
    (V m c main_v9 : S1024x512.Idx → EReal)
      = hostTable (m ((c : Thread nD τ).loc main_arg1)) reducesTo_S1000x512_S1000_d1 h_S_ bcast_S1000_S1000x1_0
          bcast_S_S1000x1 bcast_S1000x1_S1000x512_0_1 pads_S1000x512_S1024x512_0240_000 bitsLt_bf16_f32 := by
  dsimp only [Gen.V, Gen.V0]
  simp only [Gen.hostOps0, Gen.hostOps0_1, Gen.hostOps0_2, List.flatten_cons, List.flatten_nil, List.append_nil,
    List.cons_append, List.nil_append]
  after_results
  rfl

/-- The label column's array holds the labels as launched, cast from `[16384]` to `[16384, 1]`. -/
theorem labels_eq (c : Dev nD) :
    (V m c main_v10 : S16384x1.Idx → BitVec 32)
      = shapeCast S16384x1 (m ((c : Thread nD τ).loc main_arg3)) shapeCasts_S16384_S16384x1 := by
  dsimp only [Gen.V, Gen.V0]
  simp only [Gen.hostOps0, Gen.hostOps0_1, Gen.hostOps0_2, List.flatten_cons, List.flatten_nil, List.append_nil,
    List.cons_append, List.nil_append]
  after_results
  rfl

/-! ## The three blocks -/

theorem xblk_eq (c : Dev nD) (t : Fin cfg0.N) :
    xblk m c t = Cert.Spec.xTile (m ((c : Thread nD τ).loc main_arg0)) ⟨t.val, tN t⟩ := by
  have hi := idx_facts t
  funext j
  unfold xblk iblk
  rw [View.read_apply]
  show V m c main_arg0 _ = _
  rw [V_main_arg0]
  unfold Cert.Spec.xTile
  dsimp only
  congr 1
  funext a
  apply Fin.ext
  match a with
  | ⟨0, _⟩ => show win0_0.index t 0 * 512 + 1 * (j 0).val = 512 * t.val + (j 0).val; rw [hi.1]; omega
  | ⟨1, _⟩ => show win0_0.index t 1 * 512 + 1 * (j 1).val = (j 1).val; rw [hi.2.1]; omega

theorem pblk_eq (c : Dev nD) (t : Fin cfg0.N) :
    pblk m c t = Cert.Spec.pPad (m ((c : Thread nD τ).loc main_arg1)) := by
  have hi := idx_facts t
  funext j
  unfold pblk iblk
  rw [View.read_apply]
  show V m c main_v9 _ = _
  refine (congrFun (table_eq m c) _).trans ?_
  refine (hostTable_apply _ _ _ _ _ _ _ _ _).trans ?_
  refine congrArg (Cert.Spec.pPad _) (funext fun a => Fin.ext ?_)
  match a with
  | ⟨0, _⟩ => show win0_1.index t 0 * 1024 + 1 * (j 0).val = (j 0).val; rw [hi.2.2.1]; omega
  | ⟨1, _⟩ => show win0_1.index t 1 * 512 + 1 * (j 1).val = (j 1).val; rw [hi.2.2.2.1]; omega

theorem lblk_eq (c : Dev nD) (t : Fin cfg0.N) :
    lblk m c t = Cert.Spec.lTile (m ((c : Thread nD τ).loc main_arg3)) ⟨t.val, tN t⟩ := by
  have hi := idx_facts t
  have hN := tN t
  funext j
  have h0 : (j 0).val < 512 := idx2_lt0 j
  have h1 : (j 1).val < 1 := idx2_lt1 j
  unfold lblk iblk
  rw [View.read_apply]
  show V m c main_v10 _ = _
  refine (congrFun (labels_eq m c) _).trans ?_
  unfold Cert.Spec.lTile
  dsimp only
  -- the column entry (512 t + r, 0) and the label 512 t + r have the same row-major position
  refine shapeCast_apply _ _ _ (ix1 (⟨512 * t.val + (j 0).val, by omega⟩ : Fin 16384)) ?_
  rw [Shape.rowMajor_val_two, Shape.rowMajor_val_one]
  show 512 * t.val + (j 0).val = (win0_2.index t 0 * 512 + 1 * (j 0).val) * 1 + (win0_2.index t 1 * 1 + 1 * (j 1).val)
  rw [hi.2.2.2.2.1, hi.2.2.2.2.2]
  omega

end Cert.KernelIdeal.KV

end
-- ==== Proof.KFinal.lean ====
/-
  What the four output arrays hold after the last grid point. The logits array is written block by block, block t its
  tile's logits. Each accumulator array has one slot per core, written back after the core's sixteenth tile, holding the
  ordered sum zero plus tile 0 plus … plus tile 15 of the tiles' contributions: by induction over the points, a core's
  first tile resetting and every later tile adding to what the tile before left.
-/
import proofs.«417236_j85134841741643_3_alg».proof.Proof.KPieces
import proofs.«417236_j85134841741643_3_alg».proof.Proof.KTileA
import proofs.«417236_j85134841741643_3_alg».proof.Proof.KTileB
import proofs.«417236_j85134841741643_3_alg».proof.Proof.KBlocks
import Mathlib.Algebra.BigOperators.Fin
import Mathlib.Algebra.BigOperators.Intervals

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

namespace Final

/-! ## Sums over a core's run of tiles -/

/-- At a core's first tile the run so far is that tile alone. -/
theorem run_first (A : ℕ → EReal) (n : ℕ) (h0 : n % 16 = 0) :
    A n = ∑ j ∈ Finset.range (n % 16 + 1), A (16 * (n / 16) + j) := by
  have hn : 16 * (n / 16) = n := by omega
  rw [h0, zero_add, Finset.sum_range_one, add_zero, hn]

/-- At a later tile the run so far is the run up to the tile before, and the tile. -/
theorem run_next (A : ℕ → EReal) (n : ℕ) (h0 : ¬n % 16 = 0) :
    ∑ j ∈ Finset.range ((n - 1) % 16 + 1), A (16 * ((n - 1) / 16) + j) + A n
      = ∑ j ∈ Finset.range (n % 16 + 1), A (16 * (n / 16) + j) := by
  have hq : (n - 1) / 16 = n / 16 := by omega
  have hr : (n - 1) % 16 + 1 = n % 16 := by omega
  have hn : 16 * (n / 16) + n % 16 = n := by omega
  rw [hq, hr, Finset.sum_range_succ, hn]

/-- At a core's last tile the run is the sum over the core's sixteen tiles. -/
theorem run_last (A : ℕ → EReal) (n : ℕ) (h15 : n % 16 = 15) :
    ∑ j ∈ Finset.range (n % 16 + 1), A (16 * (n / 16) + j) = ∑ j : Fin 16, A (16 * (n / 16) + j.val) := by
  rw [h15]
  exact Finset.sum_range fun j => A (16 * (n / 16) + j)

/-! ## The whole arrays read at an index -/

section Whole

variable (X : (⟨2, ![16384, 512]⟩ : Shape).Idx → EReal) (P : (⟨2, ![1000, 512]⟩ : Shape).Idx → EReal)
  (L : (⟨1, ![16384]⟩ : Shape).Idx → BitVec 32)

/-- The whole logits array at row `512 t + r`, class `cl`, is tile `t`'s logit of its row `r`. -/
theorem kOutLogits_at (i : (⟨2, ![16384, 1000]⟩ : Shape).Idx) (t : Fin 32) (r : Fin 512) (cl : Fin 1000)
    (h0 : (i 0).val = 512 * t.val + r.val) (h1 : (i 1).val = cl.val) :
    Cert.Spec.kOutLogits X P i
      = Cert.Spec.tLogit (Cert.Spec.xTile X t) (Cert.Spec.pPad P) r ⟨cl.val, by have := cl.isLt; omega⟩ := by
  have hr := r.isLt
  have a0 : (⟨(i 0).val / 512, by have := idx2_lt0 i; omega⟩ : Fin 32) = t := Fin.ext (by show (i 0).val / 512 = t.val; omega)
  have a1 : (⟨(i 0).val % 512, Nat.mod_lt _ (by norm_num)⟩ : Fin 512) = r := Fin.ext (by show (i 0).val % 512 = r.val; omega)
  have a2 : (⟨(i 1).val, idx2_lt1 i⟩ : Fin 1000) = cl := Fin.ext h1
  show Cert.Spec.kLogit X P ⟨(i 0).val, idx2_lt0 i⟩ ⟨(i 1).val, idx2_lt1 i⟩ = _
  rw [a2]
  unfold Cert.Spec.kLogit
  show Cert.Spec.tLogit (Cert.Spec.xTile X ⟨(i 0).val / 512, _⟩) (Cert.Spec.pPad P) ⟨(i 0).val % 512, _⟩ ⟨cl.val, _⟩ = _
  rw [a0, a1]

/-- The class-sum accumulator's slot `q` at (class `r1`, feature `r2`) is the sum over core `q`'s sixteen tiles. -/
theorem accSum_at (i : (⟨3, ![2, 1024, 512]⟩ : Shape).Idx) (q : ℕ) (r1 : Fin 1024) (r2 : Fin 512)
    (h0 : (i 0).val = q) (h1 : (i 1).val = r1.val) (h2 : (i 2).val = r2.val) (A : ℕ → EReal)
    (hA : ∀ (s : ℕ) (h : s < 32), A s = Cert.Spec.tSum (Cert.Spec.xTile X ⟨s, h⟩) (Cert.Spec.lTile L ⟨s, h⟩) r1 r2) :
    ∑ jj : Fin 16, A (16 * q + jj.val) = Cert.Spec.accSum X L i := by
  have hq : q < 2 := h0 ▸ (i 0).isLt
  have a1 : (⟨(i 1).val, (i 1).isLt⟩ : Fin 1024) = r1 := Fin.ext h1
  have a2 : (⟨(i 2).val, (i 2).isLt⟩ : Fin 512) = r2 := Fin.ext h2
  unfold Cert.Spec.accSum
  dsimp only
  rw [a1, a2]
  refine Finset.sum_congr rfl fun jj _ => ?_
  have hj := jj.isLt
  rw [hA (16 * q + jj.val) (by omega)]
  have e : (⟨16 * q + jj.val, by omega⟩ : Fin 32) = Cert.Spec.tileOf ⟨(i 0).val, (i 0).isLt⟩ jj :=
    Fin.ext (by show 16 * q + jj.val = 16 * (i 0).val + jj.val; rw [h0])
  rw [e]

/-- The class-count accumulator's slot `q` at class `r1`. -/
theorem accCnt_at (i : (⟨3, ![2, 1, 1024]⟩ : Shape).Idx) (q : ℕ) (r1 : Fin 1024)
    (h0 : (i 0).val = q) (h2 : (i 2).val = r1.val) (A : ℕ → EReal)
    (hA : ∀ (s : ℕ) (h : s < 32), A s = Cert.Spec.tCnt (Cert.Spec.lTile L ⟨s, h⟩) r1) :
    ∑ jj : Fin 16, A (16 * q + jj.val) = Cert.Spec.accCnt L i := by
  have hq : q < 2 := h0 ▸ (i 0).isLt
  have a2 : (⟨(i 2).val, (i 2).isLt⟩ : Fin 1024) = r1 := Fin.ext h2
  unfold Cert.Spec.accCnt
  dsimp only
  rw [a2]
  refine Finset.sum_congr rfl fun jj _ => ?_
  have hj := jj.isLt
  rw [hA (16 * q + jj.val) (by omega)]
  have e : (⟨16 * q + jj.val, by omega⟩ : Fin 32) = Cert.Spec.tileOf ⟨(i 0).val, (i 0).isLt⟩ jj :=
    Fin.ext (by show 16 * q + jj.val = 16 * (i 0).val + jj.val; rw [h0])
  rw [e]

/-- The loss accumulator's slot `q`. -/
theorem accLoss_at (i : (⟨3, ![2, 1, 1]⟩ : Shape).Idx) (q : ℕ) (h0 : (i 0).val = q) (A : ℕ → EReal)
    (hA : ∀ (s : ℕ) (h : s < 32),
      A s = Cert.Spec.tLoss (Cert.Spec.xTile X ⟨s, h⟩) (Cert.Spec.pPad P) (Cert.Spec.lTile L ⟨s, h⟩)) :
    ∑ jj : Fin 16, A (16 * q + jj.val) = Cert.Spec.accLoss X P L i := by
  have hq : q < 2 := h0 ▸ (i 0).isLt
  unfold Cert.Spec.accLoss
  dsimp only
  refine Finset.sum_congr rfl fun jj _ => ?_
  have hj := jj.isLt
  rw [hA (16 * q + jj.val) (by omega)]
  have e : (⟨16 * q + jj.val, by omega⟩ : Fin 32) = Cert.Spec.tileOf ⟨(i 0).val, (i 0).isLt⟩ jj :=
    Fin.ext (by show 16 * q + jj.val = 16 * (i 0).val + jj.val; rw [h0])
  rw [e]

end Whole

/-! ## What one tile adds to its core's accumulators, as a function of the tile's number -/

/-- What tile `s` adds to the class sums at (padded class `cc`, feature `d`); nothing past the last tile. -/
def tileSum (c : Dev nD) (cc : Fin 1024) (d : Fin 512) (s : ℕ) : EReal :=
  if h : s < 32 then Cert.Spec.tSum (Cert.Spec.xTile (m ((c : Thread nD τ).loc main_arg0)) ⟨s, h⟩) (Cert.Spec.lTile (m ((c : Thread nD τ).loc main_arg3)) ⟨s, h⟩) cc d else 0

/-- What tile `s` adds to the class counts at padded class `cc`. -/
def tileCnt (c : Dev nD) (cc : Fin 1024) (s : ℕ) : EReal :=
  if h : s < 32 then Cert.Spec.tCnt (Cert.Spec.lTile (m ((c : Thread nD τ).loc main_arg3)) ⟨s, h⟩) cc else 0

/-- What tile `s` adds to the loss accumulator. -/
def tileLoss (c : Dev nD) (s : ℕ) : EReal :=
  if h : s < 32 then Cert.Spec.tLoss (Cert.Spec.xTile (m ((c : Thread nD τ).loc main_arg0)) ⟨s, h⟩) (Cert.Spec.pPad (m ((c : Thread nD τ).loc main_arg1))) (Cert.Spec.lTile (m ((c : Thread nD τ).loc main_arg3)) ⟨s, h⟩) else 0

theorem tileSum_of_lt (c : Dev nD) (cc : Fin 1024) (d : Fin 512) (s : ℕ) (h : s < 32) :
    tileSum m c cc d s = Cert.Spec.tSum (Cert.Spec.xTile (m ((c : Thread nD τ).loc main_arg0)) ⟨s, h⟩) (Cert.Spec.lTile (m ((c : Thread nD τ).loc main_arg3)) ⟨s, h⟩) cc d := dif_pos h

theorem tileCnt_of_lt (c : Dev nD) (cc : Fin 1024) (s : ℕ) (h : s < 32) :
    tileCnt m c cc s = Cert.Spec.tCnt (Cert.Spec.lTile (m ((c : Thread nD τ).loc main_arg3)) ⟨s, h⟩) cc := dif_pos h

theorem tileLoss_of_lt (c : Dev nD) (s : ℕ) (h : s < 32) :
    tileLoss m c s = Cert.Spec.tLoss (Cert.Spec.xTile (m ((c : Thread nD τ).loc main_arg0)) ⟨s, h⟩) (Cert.Spec.pPad (m ((c : Thread nD τ).loc main_arg1))) (Cert.Spec.lTile (m ((c : Thread nD τ).loc main_arg3)) ⟨s, h⟩) := dif_pos h

/-- The contribution of the blocks read at point `t` is tile `t`'s. -/
theorem tSum_blk (c : Dev nD) (t : Fin cfg0.N) (cc : Fin 1024) (d : Fin 512) :
    Cert.Spec.tSum (xblk m c t) (lblk m c t) cc d = tileSum m c cc d t.val := by
  rw [xblk_eq, lblk_eq]
  exact (tileSum_of_lt m c cc d t.val (tN t)).symm

theorem tCnt_blk (c : Dev nD) (t : Fin cfg0.N) (cc : Fin 1024) :
    Cert.Spec.tCnt (lblk m c t) cc = tileCnt m c cc t.val := by
  rw [lblk_eq]
  exact (tileCnt_of_lt m c cc t.val (tN t)).symm

theorem tLoss_blk (c : Dev nD) (t : Fin cfg0.N) :
    Cert.Spec.tLoss (xblk m c t) (pblk m c t) (lblk m c t) = tileLoss m c t.val := by
  rw [xblk_eq, pblk_eq, lblk_eq]
  exact (tileLoss_of_lt m c t.val (tN t)).symm

/-! ## What the staging buffers hold after each point -/

/-- The logits buffer after point `t` holds tile `t`'s logits, whichever the control case. -/
theorem out3_eq (c : Dev nD) (t : Fin cfg0.N) :
    (outsAt0 m c t.val t.isLt).1 = k0_pay6 (F := Ideal) (xblk m c t) (pblk m c t) := by
  by_cases h0 : t.val % 16 = 0
  · rw [outsAt0_A m c t h0]
    dsimp only
    exact out_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk m c t) (pblk m c t) (lblk m c t)
  · rw [outsAt0_B m c t h0]
    dsimp only
    exact out_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun hc => h0 ((hcond0_0 t).mp hc)) (xblk m c t) (pblk m c t) (lblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- After point `n` the class-sum buffer holds, at (class `cc`, feature `d`), the contributions of its core's tiles up to `n`, added in order: a core's first tile resets and adds, every later tile adds to what the tile before left. -/
theorem acc4 (c : Dev nD) (cc : Fin 1024) (d : Fin 512) (n : ℕ) : ∀ (h : n < cfg0.N),
    (outsAt0 m c n h).2.1 (ix3 (0 : Fin 1) cc d)
      = ∑ j ∈ Finset.range (n % 16 + 1), tileSum m c cc d (16 * (n / 16) + j) := by
  induction n using Nat.strong_induction_on with
  | _ n ih =>
    intro h
    by_cases h0 : n % 16 = 0
    · rw [outsAt0_A m c ⟨n, h⟩ h0]
      dsimp only
      refine (congrFun (out_A_4 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) ((hcond0_0 ⟨n, h⟩).mpr h0) (xblk m c ⟨n, h⟩) (pblk m c ⟨n, h⟩) (lblk m c ⟨n, h⟩)) (ix3 (0 : Fin 1) cc d)).trans ?_
      refine (pay10_apply (xblk m c ⟨n, h⟩) (lblk m c ⟨n, h⟩) (k0_pay1 (F := Ideal)) cc d).trans ?_
      rw [pay1_apply, zero_add, tSum_blk m c ⟨n, h⟩ cc d]
      exact run_first (tileSum m c cc d) n h0
    · have hn1 : n - 1 < n := by omega
      have hlt : n - 1 < cfg0.N := Nat.lt_of_le_of_lt (Nat.sub_le _ _) h
      rw [outsAt0_B m c ⟨n, h⟩ h0]
      dsimp only
      refine (congrFun (out_B_4 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (fun hc => h0 ((hcond0_0 ⟨n, h⟩).mp hc)) (xblk m c ⟨n, h⟩) (pblk m c ⟨n, h⟩) (lblk m c ⟨n, h⟩) (outsAt0 m c (n - 1) hlt).2.1 (outsAt0 m c (n - 1) hlt).2.2.1 (outsAt0 m c (n - 1) hlt).2.2.2) (ix3 (0 : Fin 1) cc d)).trans ?_
      refine (pay10_apply (xblk m c ⟨n, h⟩) (lblk m c ⟨n, h⟩) (outsAt0 m c (n - 1) hlt).2.1 cc d).trans ?_
      rw [ih (n - 1) hn1 hlt, tSum_blk m c ⟨n, h⟩ cc d]
      exact run_next (tileSum m c cc d) n h0

/-- After point `n` the class-count buffer holds, at class `cc`, the contributions of its core's tiles up to `n`. -/
theorem acc5 (c : Dev nD) (cc : Fin 1024) (n : ℕ) : ∀ (h : n < cfg0.N),
    (outsAt0 m c n h).2.2.1 (ix3 (0 : Fin 1) (0 : Fin 1) cc)
      = ∑ j ∈ Finset.range (n % 16 + 1), tileCnt m c cc (16 * (n / 16) + j) := by
  induction n using Nat.strong_induction_on with
  | _ n ih =>
    intro h
    by_cases h0 : n % 16 = 0
    · rw [outsAt0_A m c ⟨n, h⟩ h0]
      dsimp only
      refine (congrFun (out_A_5 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) ((hcond0_0 ⟨n, h⟩).mpr h0) (xblk m c ⟨n, h⟩) (pblk m c ⟨n, h⟩) (lblk m c ⟨n, h⟩)) (ix3 (0 : Fin 1) (0 : Fin 1) cc)).trans ?_
      refine (pay11_apply (lblk m c ⟨n, h⟩) (k0_pay2 (F := Ideal)) cc).trans ?_
      rw [pay2_apply, zero_add, tCnt_blk m c ⟨n, h⟩ cc]
      exact run_first (tileCnt m c cc) n h0
    · have hn1 : n - 1 < n := by omega
      have hlt : n - 1 < cfg0.N := Nat.lt_of_le_of_lt (Nat.sub_le _ _) h
      rw [outsAt0_B m c ⟨n, h⟩ h0]
      dsimp only
      refine (congrFun (out_B_5 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (fun hc => h0 ((hcond0_0 ⟨n, h⟩).mp hc)) (xblk m c ⟨n, h⟩) (pblk m c ⟨n, h⟩) (lblk m c ⟨n, h⟩) (outsAt0 m c (n - 1) hlt).2.1 (outsAt0 m c (n - 1) hlt).2.2.1 (outsAt0 m c (n - 1) hlt).2.2.2) (ix3 (0 : Fin 1) (0 : Fin 1) cc)).trans ?_
      refine (pay11_apply (lblk m c ⟨n, h⟩) (outsAt0 m c (n - 1) hlt).2.2.1 cc).trans ?_
      rw [ih (n - 1) hn1 hlt, tCnt_blk m c ⟨n, h⟩ cc]
      exact run_next (tileCnt m c cc) n h0

/-- After point `n` the loss buffer holds the contributions of its core's tiles up to `n`. -/
theorem acc6 (c : Dev nD) (n : ℕ) : ∀ (h : n < cfg0.N),
    (outsAt0 m c n h).2.2.2 (ix3 (0 : Fin 1) (0 : Fin 1) (0 : Fin 1))
      = ∑ j ∈ Finset.range (n % 16 + 1), tileLoss m c (16 * (n / 16) + j) := by
  induction n using Nat.strong_induction_on with
  | _ n ih =>
    intro h
    by_cases h0 : n % 16 = 0
    · rw [outsAt0_A m c ⟨n, h⟩ h0]
      dsimp only
      refine (congrFun (out_A_6 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) ((hcond0_0 ⟨n, h⟩).mpr h0) (xblk m c ⟨n, h⟩) (pblk m c ⟨n, h⟩) (lblk m c ⟨n, h⟩)) (ix3 (0 : Fin 1) (0 : Fin 1) (0 : Fin 1))).trans ?_
      refine (pay12_apply (xblk m c ⟨n, h⟩) (pblk m c ⟨n, h⟩) (lblk m c ⟨n, h⟩) (k0_pay3 (F := Ideal))).trans ?_
      rw [pay3_apply, zero_add, tLoss_blk m c ⟨n, h⟩]
      exact run_first (tileLoss m c ) n h0
    · have hn1 : n - 1 < n := by omega
      have hlt : n - 1 < cfg0.N := Nat.lt_of_le_of_lt (Nat.sub_le _ _) h
      rw [outsAt0_B m c ⟨n, h⟩ h0]
      dsimp only
      refine (congrFun (out_B_6 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (fun hc => h0 ((hcond0_0 ⟨n, h⟩).mp hc)) (xblk m c ⟨n, h⟩) (pblk m c ⟨n, h⟩) (lblk m c ⟨n, h⟩) (outsAt0 m c (n - 1) hlt).2.1 (outsAt0 m c (n - 1) hlt).2.2.1 (outsAt0 m c (n - 1) hlt).2.2.2) (ix3 (0 : Fin 1) (0 : Fin 1) (0 : Fin 1))).trans ?_
      refine (pay12_apply (xblk m c ⟨n, h⟩) (pblk m c ⟨n, h⟩) (lblk m c ⟨n, h⟩) (outsAt0 m c (n - 1) hlt).2.2.2).trans ?_
      rw [ih (n - 1) hn1 hlt, tLoss_blk m c ⟨n, h⟩]
      exact run_next (tileLoss m c ) n h0

/-! ## The windows' index maps, decided over the grid -/

/-- The logits' block at point `t` is block row `t`. -/
theorem idx3 : ∀ t : Fin cfg0.N, win0_3.index t (0 : Fin 2) = t.val ∧ win0_3.index t (1 : Fin 2) = 0 :=
  (by decide +kernel : ∀ t : Fin grid0.N, _)

/-- An accumulator's block at point `t` is its core's slot. -/
theorem idx4 : ∀ t : Fin cfg0.N, win0_4.index t (0 : Fin 3) = t.val / 16 ∧ win0_4.index t (1 : Fin 3) = 0
    ∧ win0_4.index t (2 : Fin 3) = 0 :=
  (by decide +kernel : ∀ t : Fin grid0.N, _)

theorem idx5 : ∀ t : Fin cfg0.N, win0_5.index t (0 : Fin 3) = t.val / 16 ∧ win0_5.index t (1 : Fin 3) = 0
    ∧ win0_5.index t (2 : Fin 3) = 0 :=
  (by decide +kernel : ∀ t : Fin grid0.N, _)

theorem idx6 : ∀ t : Fin cfg0.N, win0_6.index t (0 : Fin 3) = t.val / 16 ∧ win0_6.index t (1 : Fin 3) = 0
    ∧ win0_6.index t (2 : Fin 3) = 0 :=
  (by decide +kernel : ∀ t : Fin grid0.N, _)

/-! ## The logits array -/

/-- What point `t` writes back is block row `t` of the whole logits array. -/
theorem flushed3_eq (c : Dev nD) (t : Fin cfg0.N) :
    (dats m 0 c).flushed 3 t = ((cfg0.win 3).blk t).view.read (Elt Ideal) (Cert.Spec.kOutLogits (m ((c : Thread nD τ).loc main_arg0)) (m ((c : Thread nD τ).loc main_arg1))) := by
  obtain ⟨i0, i1⟩ := idx3 t
  show (cfg0.win 3).cut (grid0.coords t) ((dats m 0 c).after 3 t) = _
  rw [after0_3, out3_eq]
  funext j
  have hj0 : (j 0).val < 512 := (j 0).isLt
  have hj1 : (j 1).val < 1000 := (j 1).isLt
  have hx : (cfg0.win 3).xinj (grid0.coords t) j = ix2 (⟨(j 0).val, hj0⟩ : Fin 512) (⟨(j 1).val, hj1⟩ : Fin 1000) :=
    funext fun a => by match a with | ⟨0, _⟩ => rfl | ⟨1, _⟩ => rfl
  show k0_pay6 (F := Ideal) (xblk m c t) (pblk m c t) ((cfg0.win 3).xinj (grid0.coords t) j)
    = Cert.Spec.kOutLogits (m ((c : Thread nD τ).loc main_arg0)) (m ((c : Thread nD τ).loc main_arg1)) (((cfg0.win 3).blk t).view.emb j)
  refine (congrArg (k0_pay6 (F := Ideal) (xblk m c t) (pblk m c t)) hx).trans ?_
  refine (pay6_apply (xblk m c t) (pblk m c t) ⟨(j 0).val, hj0⟩ ⟨(j 1).val, hj1⟩).trans ?_
  rw [xblk_eq, pblk_eq]
  refine (kOutLogits_at (m ((c : Thread nD τ).loc main_arg0)) (m ((c : Thread nD τ).loc main_arg1)) _ ⟨t.val, tN t⟩ ⟨(j 0).val, hj0⟩ ⟨(j 1).val, hj1⟩ ?_ ?_).symm
  · show win0_3.index t (0 : Fin 2) * 512 + 1 * (j 0).val = 512 * t.val + (j 0).val
    rw [i0]; omega
  · show win0_3.index t (1 : Fin 2) * 1000 + 1 * (j 1).val = (j 1).val
    rw [i1]; omega

/-- An index of the logits array is in point `t`'s block iff each coordinate is in the block's range on its axis. -/
theorem mem_blk3 (t : Fin cfg0.N) (i : S16384x1000.Idx) :
    i ∈ ((cfg0.win 3).blk t).view.set ↔ ∀ a : Fin 2, win0_3.index t a * S512x1000.size a ≤ (i a).val
      ∧ (i a).val < win0_3.index t a * S512x1000.size a + S512x1000.size a := by
  show i ∈ ((View.whole main_v11_0).slice (win0_3.rect t)).set ↔ _
  rw [View.set_slice_whole, Rect.mem_set_unit]
  exact Iff.rfl

/-- Row `b` of the logits lies in the block of point `b / 512`. -/
theorem cover3 (i : S16384x1000.Idx) :
    ∃ t : Fin cfg0.N, (cfg0.win 3).flush t = true ∧ i ∈ ((cfg0.win 3).blk t).view.set := by
  have h0 : (i 0).val < 16384 := (i 0).isLt
  have h1 : (i 1).val < 1000 := (i 1).isLt
  have hN : cfg0.N = 32 := N_0
  have hlt : (i 0).val / 512 < cfg0.N := by rw [hN]; omega
  refine ⟨⟨(i 0).val / 512, hlt⟩, flush0_3 _, ?_⟩
  obtain ⟨e0, e1⟩ := idx3 ⟨(i 0).val / 512, hlt⟩
  have e0' : win0_3.index ⟨(i 0).val / 512, hlt⟩ (0 : Fin 2) = (i 0).val / 512 := e0
  rw [mem_blk3]
  intro a
  match a with
  | ⟨0, _⟩ =>
    show win0_3.index ⟨(i 0).val / 512, hlt⟩ (0 : Fin 2) * 512 ≤ (i 0).val
      ∧ (i 0).val < win0_3.index ⟨(i 0).val / 512, hlt⟩ (0 : Fin 2) * 512 + 512
    rw [e0']; omega
  | ⟨1, _⟩ =>
    show win0_3.index ⟨(i 0).val / 512, hlt⟩ (1 : Fin 2) * 1000 ≤ (i 1).val
      ∧ (i 1).val < win0_3.index ⟨(i 0).val / 512, hlt⟩ (1 : Fin 2) * 1000 + 1000
    rw [e1]; omega

/-! ## The class-sum accumulator -/

/-- What a core's last point writes back is the core's slot of the whole class-sum accumulator. -/
theorem flushed4_eq (c : Dev nD) (t : Fin cfg0.N) (hf : (cfg0.win 4).flush t = true) :
    (dats m 0 c).flushed 4 t = ((cfg0.win 4).blk t).view.read (Elt Ideal) (Cert.Spec.accSum (m ((c : Thread nD τ).loc main_arg0)) (m ((c : Thread nD τ).loc main_arg3))) := by
  have h15 : t.val % 16 = 15 := (flush0_4 t).mp hf
  obtain ⟨i0, i1, i2⟩ := idx4 t
  show (cfg0.win 4).cut (grid0.coords t) ((dats m 0 c).after 4 t) = _
  rw [after0_4]
  funext j
  have hj0 : (j 0).val < 1 := (j 0).isLt
  have hj1 : (j 1).val < 1024 := (j 1).isLt
  have hj2 : (j 2).val < 512 := (j 2).isLt
  have hx : (cfg0.win 4).xinj (grid0.coords t) j
      = ix3 (0 : Fin 1) (⟨(j 1).val, hj1⟩ : Fin 1024) (⟨(j 2).val, hj2⟩ : Fin 512) :=
    funext fun a => by
      match a with
      | ⟨0, _⟩ => exact Fin.ext (by show (j 0).val = 0; omega)
      | ⟨1, _⟩ => rfl
      | ⟨2, _⟩ => rfl
  show (outsAt0 m c t.val t.isLt).2.1 ((cfg0.win 4).xinj (grid0.coords t) j)
    = Cert.Spec.accSum (m ((c : Thread nD τ).loc main_arg0)) (m ((c : Thread nD τ).loc main_arg3)) (((cfg0.win 4).blk t).view.emb j)
  refine (congrArg (outsAt0 m c t.val t.isLt).2.1 hx).trans ?_
  refine (acc4 m c ⟨(j 1).val, hj1⟩ ⟨(j 2).val, hj2⟩ t.val t.isLt).trans ?_
  rw [run_last (tileSum m c ⟨(j 1).val, hj1⟩ ⟨(j 2).val, hj2⟩) t.val h15]
  refine accSum_at (m ((c : Thread nD τ).loc main_arg0)) (m ((c : Thread nD τ).loc main_arg3)) _ (t.val / 16) ⟨(j 1).val, hj1⟩ ⟨(j 2).val, hj2⟩ ?_ ?_ ?_
    (tileSum m c ⟨(j 1).val, hj1⟩ ⟨(j 2).val, hj2⟩) (fun s h => tileSum_of_lt m c ⟨(j 1).val, hj1⟩ ⟨(j 2).val, hj2⟩ s h)
  · show win0_4.index t (0 : Fin 3) * 1 + 1 * (j 0).val = t.val / 16
    rw [i0]; omega
  · show win0_4.index t (1 : Fin 3) * 1024 + 1 * (j 1).val = (j 1).val
    rw [i1]; omega
  · show win0_4.index t (2 : Fin 3) * 512 + 1 * (j 2).val = (j 2).val
    rw [i2]; omega

theorem mem_blk4 (t : Fin cfg0.N) (i : S2x1024x512.Idx) :
    i ∈ ((cfg0.win 4).blk t).view.set ↔ ∀ a : Fin 3, win0_4.index t a * S1x1024x512.size a ≤ (i a).val
      ∧ (i a).val < win0_4.index t a * S1x1024x512.size a + S1x1024x512.size a := by
  show i ∈ ((View.whole main_v11_1).slice (win0_4.rect t)).set ↔ _
  rw [View.set_slice_whole, Rect.mem_set_unit]
  exact Iff.rfl

/-- Slot `k` is written back at point `16 k + 15`. -/
theorem cover4 (i : S2x1024x512.Idx) :
    ∃ t : Fin cfg0.N, (cfg0.win 4).flush t = true ∧ i ∈ ((cfg0.win 4).blk t).view.set := by
  have h0 : (i 0).val < 2 := (i 0).isLt
  have h1 : (i 1).val < 1024 := (i 1).isLt
  have h2 : (i 2).val < 512 := (i 2).isLt
  have hN : cfg0.N = 32 := N_0
  have hlt : 16 * (i 0).val + 15 < cfg0.N := by rw [hN]; omega
  refine ⟨⟨16 * (i 0).val + 15, hlt⟩, (flush0_4 _).mpr (by show (16 * (i 0).val + 15) % 16 = 15; omega), ?_⟩
  obtain ⟨e0, e1, e2⟩ := idx4 ⟨16 * (i 0).val + 15, hlt⟩
  have e0' : win0_4.index ⟨16 * (i 0).val + 15, hlt⟩ (0 : Fin 3) = (16 * (i 0).val + 15) / 16 := e0
  rw [mem_blk4]
  intro a
  match a with
  | ⟨0, _⟩ =>
    show win0_4.index ⟨16 * (i 0).val + 15, hlt⟩ (0 : Fin 3) * 1 ≤ (i 0).val
      ∧ (i 0).val < win0_4.index ⟨16 * (i 0).val + 15, hlt⟩ (0 : Fin 3) * 1 + 1
    rw [e0']; omega
  | ⟨1, _⟩ =>
    show win0_4.index ⟨16 * (i 0).val + 15, hlt⟩ (1 : Fin 3) * 1024 ≤ (i 1).val
      ∧ (i 1).val < win0_4.index ⟨16 * (i 0).val + 15, hlt⟩ (1 : Fin 3) * 1024 + 1024
    rw [e1]; omega
  | ⟨2, _⟩ =>
    show win0_4.index ⟨16 * (i 0).val + 15, hlt⟩ (2 : Fin 3) * 512 ≤ (i 2).val
      ∧ (i 2).val < win0_4.index ⟨16 * (i 0).val + 15, hlt⟩ (2 : Fin 3) * 512 + 512
    rw [e2]; omega

/-! ## The class-count accumulator -/

theorem flushed5_eq (c : Dev nD) (t : Fin cfg0.N) (hf : (cfg0.win 5).flush t = true) :
    (dats m 0 c).flushed 5 t = ((cfg0.win 5).blk t).view.read (Elt Ideal) (Cert.Spec.accCnt (m ((c : Thread nD τ).loc main_arg3))) := by
  have h15 : t.val % 16 = 15 := (flush0_5 t).mp hf
  obtain ⟨i0, i1, i2⟩ := idx5 t
  show (cfg0.win 5).cut (grid0.coords t) ((dats m 0 c).after 5 t) = _
  rw [after0_5]
  funext j
  have hj0 : (j 0).val < 1 := (j 0).isLt
  have hj1 : (j 1).val < 1 := (j 1).isLt
  have hj2 : (j 2).val < 1024 := (j 2).isLt
  have hx : (cfg0.win 5).xinj (grid0.coords t) j
      = ix3 (0 : Fin 1) (0 : Fin 1) (⟨(j 2).val, hj2⟩ : Fin 1024) :=
    funext fun a => by
      match a with
      | ⟨0, _⟩ => exact Fin.ext (by show (j 0).val = 0; omega)
      | ⟨1, _⟩ => exact Fin.ext (by show (j 1).val = 0; omega)
      | ⟨2, _⟩ => rfl
  show (outsAt0 m c t.val t.isLt).2.2.1 ((cfg0.win 5).xinj (grid0.coords t) j)
    = Cert.Spec.accCnt (m ((c : Thread nD τ).loc main_arg3)) (((cfg0.win 5).blk t).view.emb j)
  refine (congrArg (outsAt0 m c t.val t.isLt).2.2.1 hx).trans ?_
  refine (acc5 m c ⟨(j 2).val, hj2⟩ t.val t.isLt).trans ?_
  rw [run_last (tileCnt m c ⟨(j 2).val, hj2⟩) t.val h15]
  refine accCnt_at (m ((c : Thread nD τ).loc main_arg3)) _ (t.val / 16) ⟨(j 2).val, hj2⟩ ?_ ?_
    (tileCnt m c ⟨(j 2).val, hj2⟩) (fun s h => tileCnt_of_lt m c ⟨(j 2).val, hj2⟩ s h)
  · show win0_5.index t (0 : Fin 3) * 1 + 1 * (j 0).val = t.val / 16
    rw [i0]; omega
  · show win0_5.index t (2 : Fin 3) * 1024 + 1 * (j 2).val = (j 2).val
    rw [i2]; omega

theorem mem_blk5 (t : Fin cfg0.N) (i : S2x1x1024.Idx) :
    i ∈ ((cfg0.win 5).blk t).view.set ↔ ∀ a : Fin 3, win0_5.index t a * S1x1x1024.size a ≤ (i a).val
      ∧ (i a).val < win0_5.index t a * S1x1x1024.size a + S1x1x1024.size a := by
  show i ∈ ((View.whole main_v11_2).slice (win0_5.rect t)).set ↔ _
  rw [View.set_slice_whole, Rect.mem_set_unit]
  exact Iff.rfl

theorem cover5 (i : S2x1x1024.Idx) :
    ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 1024 := (i 2).isLt
  have hN : cfg0.N = 32 := N_0
  have hlt : 16 * (i 0).val + 15 < cfg0.N := by rw [hN]; omega
  refine ⟨⟨16 * (i 0).val + 15, hlt⟩, (flush0_5 _).mpr (by show (16 * (i 0).val + 15) % 16 = 15; omega), ?_⟩
  obtain ⟨e0, e1, e2⟩ := idx5 ⟨16 * (i 0).val + 15, hlt⟩
  have e0' : win0_5.index ⟨16 * (i 0).val + 15, hlt⟩ (0 : Fin 3) = (16 * (i 0).val + 15) / 16 := e0
  rw [mem_blk5]
  intro a
  match a with
  | ⟨0, _⟩ =>
    show win0_5.index ⟨16 * (i 0).val + 15, hlt⟩ (0 : Fin 3) * 1 ≤ (i 0).val
      ∧ (i 0).val < win0_5.index ⟨16 * (i 0).val + 15, hlt⟩ (0 : Fin 3) * 1 + 1
    rw [e0']; omega
  | ⟨1, _⟩ =>
    show win0_5.index ⟨16 * (i 0).val + 15, hlt⟩ (1 : Fin 3) * 1 ≤ (i 1).val
      ∧ (i 1).val < win0_5.index ⟨16 * (i 0).val + 15, hlt⟩ (1 : Fin 3) * 1 + 1
    rw [e1]; omega
  | ⟨2, _⟩ =>
    show win0_5.index ⟨16 * (i 0).val + 15, hlt⟩ (2 : Fin 3) * 1024 ≤ (i 2).val
      ∧ (i 2).val < win0_5.index ⟨16 * (i 0).val + 15, hlt⟩ (2 : Fin 3) * 1024 + 1024
    rw [e2]; omega

/-! ## The loss accumulator -/

theorem flushed6_eq (c : Dev nD) (t : Fin cfg0.N) (hf : (cfg0.win 6).flush t = true) :
    (dats m 0 c).flushed 6 t
      = ((cfg0.win 6).blk t).view.read (Elt Ideal) (Cert.Spec.accLoss (m ((c : Thread nD τ).loc main_arg0)) (m ((c : Thread nD τ).loc main_arg1)) (m ((c : Thread nD τ).loc main_arg3))) := by
  have h15 : t.val % 16 = 15 := (flush0_6 t).mp hf
  obtain ⟨i0, i1, i2⟩ := idx6 t
  show (cfg0.win 6).cut (grid0.coords t) ((dats m 0 c).after 6 t) = _
  rw [after0_6]
  funext j
  have hj0 : (j 0).val < 1 := (j 0).isLt
  have hj1 : (j 1).val < 1 := (j 1).isLt
  have hj2 : (j 2).val < 1 := (j 2).isLt
  have hx : (cfg0.win 6).xinj (grid0.coords t) j = ix3 (0 : Fin 1) (0 : Fin 1) (0 : Fin 1) :=
    funext fun a => by
      match a with
      | ⟨0, _⟩ => exact Fin.ext (by show (j 0).val = 0; omega)
      | ⟨1, _⟩ => exact Fin.ext (by show (j 1).val = 0; omega)
      | ⟨2, _⟩ => exact Fin.ext (by show (j 2).val = 0; omega)
  show (outsAt0 m c t.val t.isLt).2.2.2 ((cfg0.win 6).xinj (grid0.coords t) j)
    = Cert.Spec.accLoss (m ((c : Thread nD τ).loc main_arg0)) (m ((c : Thread nD τ).loc main_arg1)) (m ((c : Thread nD τ).loc main_arg3)) (((cfg0.win 6).blk t).view.emb j)
  refine (congrArg (outsAt0 m c t.val t.isLt).2.2.2 hx).trans ?_
  refine (acc6 m c t.val t.isLt).trans ?_
  rw [run_last (tileLoss m c) t.val h15]
  refine accLoss_at (m ((c : Thread nD τ).loc main_arg0)) (m ((c : Thread nD τ).loc main_arg1)) (m ((c : Thread nD τ).loc main_arg3)) _ (t.val / 16) ?_ (tileLoss m c) (fun s h => tileLoss_of_lt m c s h)
  show win0_6.index t (0 : Fin 3) * 1 + 1 * (j 0).val = t.val / 16
  rw [i0]; omega

theorem mem_blk6 (t : Fin cfg0.N) (i : S2x1x1.Idx) :
    i ∈ ((cfg0.win 6).blk t).view.set ↔ ∀ a : Fin 3, win0_6.index t a * S1x1x1.size a ≤ (i a).val
      ∧ (i a).val < win0_6.index t a * S1x1x1.size a + S1x1x1.size a := by
  show i ∈ ((View.whole main_v11_3).slice (win0_6.rect t)).set ↔ _
  rw [View.set_slice_whole, Rect.mem_set_unit]
  exact Iff.rfl

theorem cover6 (i : S2x1x1.Idx) :
    ∃ t : Fin cfg0.N, (cfg0.win 6).flush t = true ∧ i ∈ ((cfg0.win 6).blk t).view.set := by
  have h0 : (i 0).val < 2 := (i 0).isLt
  have h1 : (i 1).val < 1 := (i 1).isLt
  have h2 : (i 2).val < 1 := (i 2).isLt
  have hN : cfg0.N = 32 := N_0
  have hlt : 16 * (i 0).val + 15 < cfg0.N := by rw [hN]; omega
  refine ⟨⟨16 * (i 0).val + 15, hlt⟩, (flush0_6 _).mpr (by show (16 * (i 0).val + 15) % 16 = 15; omega), ?_⟩
  obtain ⟨e0, e1, e2⟩ := idx6 ⟨16 * (i 0).val + 15, hlt⟩
  have e0' : win0_6.index ⟨16 * (i 0).val + 15, hlt⟩ (0 : Fin 3) = (16 * (i 0).val + 15) / 16 := e0
  rw [mem_blk6]
  intro a
  match a with
  | ⟨0, _⟩ =>
    show win0_6.index ⟨16 * (i 0).val + 15, hlt⟩ (0 : Fin 3) * 1 ≤ (i 0).val
      ∧ (i 0).val < win0_6.index ⟨16 * (i 0).val + 15, hlt⟩ (0 : Fin 3) * 1 + 1
    rw [e0']; omega
  | ⟨1, _⟩ =>
    show win0_6.index ⟨16 * (i 0).val + 15, hlt⟩ (1 : Fin 3) * 1 ≤ (i 1).val
      ∧ (i 1).val < win0_6.index ⟨16 * (i 0).val + 15, hlt⟩ (1 : Fin 3) * 1 + 1
    rw [e1]; omega
  | ⟨2, _⟩ =>
    show win0_6.index ⟨16 * (i 0).val + 15, hlt⟩ (2 : Fin 3) * 1 ≤ (i 2).val
      ∧ (i 2).val < win0_6.index ⟨16 * (i 0).val + 15, hlt⟩ (2 : Fin 3) * 1 + 1
    rw [e2]; omega

end Final

theorem final3 (c : Dev nD) :
    (dats m 0 c).arrAt 3 cfg0.N
      = Cert.Spec.kOutLogits (m ((c : Thread nD τ).loc main_arg0)) (m ((c : Thread nD τ).loc main_arg1)) :=
  (dats m 0 c).arrAt_eq_of_cover 3 (Cert.Spec.kOutLogits (m ((c : Thread nD τ).loc main_arg0)) (m ((c : Thread nD τ).loc main_arg1))) (fun t _ => Final.flushed3_eq m c t) Final.cover3

theorem final4 (c : Dev nD) :
    (dats m 0 c).arrAt 4 cfg0.N
      = Cert.Spec.accSum (m ((c : Thread nD τ).loc main_arg0)) (m ((c : Thread nD τ).loc main_arg3)) :=
  (dats m 0 c).arrAt_eq_of_cover 4 (Cert.Spec.accSum (m ((c : Thread nD τ).loc main_arg0)) (m ((c : Thread nD τ).loc main_arg3))) (Final.flushed4_eq m c) Final.cover4

theorem final5 (c : Dev nD) :
    (dats m 0 c).arrAt 5 cfg0.N = Cert.Spec.accCnt (m ((c : Thread nD τ).loc main_arg3)) :=
  (dats m 0 c).arrAt_eq_of_cover 5 (Cert.Spec.accCnt (m ((c : Thread nD τ).loc main_arg3))) (Final.flushed5_eq m c) Final.cover5

theorem final6 (c : Dev nD) :
    (dats m 0 c).arrAt 6 cfg0.N
      = Cert.Spec.accLoss (m ((c : Thread nD τ).loc main_arg0)) (m ((c : Thread nD τ).loc main_arg1))
          (m ((c : Thread nD τ).loc main_arg3)) :=
  (dats m 0 c).arrAt_eq_of_cover 6 (Cert.Spec.accLoss (m ((c : Thread nD τ).loc main_arg0)) (m ((c : Thread nD τ).loc main_arg1)) (m ((c : Thread nD τ).loc main_arg3))) (Final.flushed6_eq m c) Final.cover6

end Cert.KernelIdeal.KV

end
-- ==== Proof.KTail.lean ====
/-
  The kernel program's run read as values: after the region the host adds the two cores' accumulators, keeps the first
  1000 classes, divides the loss by the batch size, and forms the prototype update and the new counts; the results are
  the specification's tile-form results of the argument arrays.

  First the host's operations read at an index, over any arrays: a sum over the core axis is the two cores' entries
  added (the zero word is 0), a slice at offset 0 keeps the leading coordinates, a column broadcast reads its row, a
  compare with zero selects the blend exactly where the count is positive. Then the buffers the lines after the region
  leave, each an expression in the region's arrays and the arguments; then the run.
-/
import proofs.«417236_j85134841741643_3_alg».proof.Proof.KFinal
import proofs.«417236_j85134841741643_3_alg».proof.Proof.Spec
import proofs.«417236_j85134841741643_3_alg».proof.Proof.LibRowRead
import Idealize.ShloMosaic.Lib.StableHlo.Run
import Idealize.ShloMosaic.PureOps.Ideal.Laws
import Idealize.ShloMosaic.Lib.IdealHost
import Idealize.ShloMosaic.Lib.Pipeline.Value
import Idealize.ShloMosaic.Lib.ValueIdx

noncomputable section

namespace Cert.KernelIdeal.KV.Tail

open Idealize.ShloMosaic Idealize.ShloMosaic.ValueIdx

/-! ## Sums over the two cores -/

/-- Over the result index (p, q), the source index with core k put back on axis 0 is (k, p, q). -/
theorem lift_core {a b : ℕ} (h : (⟨3, ![2, a, b]⟩ : Shape).Reduces [0] (⟨2, ![a, b]⟩ : Shape)) (p : Fin a) (q : Fin b)
    (k : Fin ((⟨3, ![2, a, b]⟩ : Shape).size 0)) :
    h.lift (ix2 p q) k = ix3 (⟨k.val, k.isLt⟩ : Fin 2) p q := by
  funext c; apply Fin.ext
  fin_cases c <;> rfl

/-- The host's sum over axis 0 of a [2, a, b] array, from the zero word, at (p, q): the two cores' entries added. -/
theorem coreSum_apply {a b : ℕ} (x : FVec Ideal (⟨3, ![2, a, b]⟩ : Shape) .f32)
    (h' : (⟨3, ![2, a, b]⟩ : Shape).ReducesTo [0] (⟨2, ![a, b]⟩ : Shape))
    (h : (⟨3, ![2, a, b]⟩ : Shape).Reduces [0] (⟨2, ![a, b]⟩ : Shape))
    (hu : 0 < (⟨0, ![]⟩ : Shape).numel) (p : Fin a) (q : Fin b) :
    Host.reduceAdd x (constant (F := Ideal) (⟨0, ![]⟩ : Shape) .f32 0x00000000#32) h' hu (ix2 p q)
      = ∑ k : Fin 2, x (ix3 k p q) := by
  refine (Ideal.hostReduceAdd_single h' h x _ (ix2 p q)).trans ?_
  show Ideal.ofBits .f32 0x00000000#32 + _ = _
  rw [Ideal.ofBits_zero_f32, zero_add]
  exact Finset.sum_congr rfl fun k _ => congrArg x (lift_core h p q k)

/-! ## The first 1000 classes -/

/-- The first 1000 rows of a [1024, 512] array. -/
theorem sliceRows_apply {α : Type} (x : (⟨2, ![1024, 512]⟩ : Shape).Idx → α)
    (h : (⟨2, ![1024, 512]⟩ : Shape).Slices ![0, 0] (⟨2, ![1000, 512]⟩ : Shape)) (p : Fin 1000) (q : Fin 512) :
    extractStridedSlice (⟨2, ![1000, 512]⟩ : Shape) ![0, 0] x h (ix2 p q)
      = x (ix2 (⟨p.val, lt_trans p.isLt (by norm_num)⟩ : Fin 1024) q) :=
  extractStridedSlice_apply _ x h (ix2 p q) _ fun a => match a with
    | ⟨0, _⟩ => (Nat.zero_add _).symm
    | ⟨1, _⟩ => (Nat.zero_add _).symm

/-- The first 1000 columns of a [1, 1024] row, as a [1000] vector. -/
theorem sliceRow_apply {α : Type} (x : (⟨2, ![1, 1024]⟩ : Shape).Idx → α)
    (h : (⟨2, ![1, 1024]⟩ : Shape).Slices ![0, 0] (⟨2, ![1, 1000]⟩ : Shape))
    (h2 : (⟨2, ![1, 1000]⟩ : Shape).ShapeCasts (⟨1, ![1000]⟩ : Shape)) (p : Fin 1000) :
    shapeCast (⟨1, ![1000]⟩ : Shape) (extractStridedSlice (⟨2, ![1, 1000]⟩ : Shape) ![0, 0] x h) h2 (ix1 p)
      = x (ix2 (0 : Fin 1) (⟨p.val, lt_trans p.isLt (by norm_num)⟩ : Fin 1024)) := by
  refine (shapeCast_apply _ h2 (ix1 p) (ix2 (0 : Fin 1) p) ?_).trans ?_
  · rw [Shape.rowMajor_val_two, Shape.rowMajor_val_one]
    show 0 * 1000 + p.val = p.val
    omega
  · exact extractStridedSlice_apply _ x h (ix2 (0 : Fin 1) p) _ fun a => match a with
      | ⟨0, _⟩ => rfl
      | ⟨1, _⟩ => (Nat.zero_add _).symm

/-- The class counts the host forms: the two cores' count slots added, the first 1000 classes kept. -/
theorem counts_apply (A5 : FVec Ideal (⟨3, ![2, 1, 1024]⟩ : Shape) .f32)
    (h' : (⟨3, ![2, 1, 1024]⟩ : Shape).ReducesTo [0] (⟨2, ![1, 1024]⟩ : Shape)) (hu : 0 < (⟨0, ![]⟩ : Shape).numel)
    (hs : (⟨2, ![1, 1024]⟩ : Shape).Slices ![0, 0] (⟨2, ![1, 1000]⟩ : Shape))
    (hc : (⟨2, ![1, 1000]⟩ : Shape).ShapeCasts (⟨1, ![1000]⟩ : Shape)) (p : Fin 1000) :
    shapeCast (⟨1, ![1000]⟩ : Shape) (extractStridedSlice (⟨2, ![1, 1000]⟩ : Shape) ![0, 0]
        (Host.reduceAdd A5 (constant (F := Ideal) (⟨0, ![]⟩ : Shape) .f32 0x00000000#32) h' hu) hs) hc (ix1 p)
      = ∑ k : Fin 2, A5 (ix3 k (0 : Fin 1) (⟨p.val, lt_trans p.isLt (by norm_num)⟩ : Fin 1024)) :=
  (sliceRow_apply _ hs hc p).trans (coreSum_apply A5 h' (by decide) hu 0 _)

/-- The class sums the host forms: the two cores' sum slots added, the first 1000 classes kept. -/
theorem sums_apply (A4 : FVec Ideal (⟨3, ![2, 1024, 512]⟩ : Shape) .f32)
    (h' : (⟨3, ![2, 1024, 512]⟩ : Shape).ReducesTo [0] (⟨2, ![1024, 512]⟩ : Shape)) (hu : 0 < (⟨0, ![]⟩ : Shape).numel)
    (hs : (⟨2, ![1024, 512]⟩ : Shape).Slices ![0, 0] (⟨2, ![1000, 512]⟩ : Shape)) (p : Fin 1000) (q : Fin 512) :
    extractStridedSlice (⟨2, ![1000, 512]⟩ : Shape) ![0, 0]
        (Host.reduceAdd A4 (constant (F := Ideal) (⟨0, ![]⟩ : Shape) .f32 0x00000000#32) h' hu) hs (ix2 p q)
      = ∑ k : Fin 2, A4 (ix3 k (⟨p.val, lt_trans p.isLt (by norm_num)⟩ : Fin 1024) q) :=
  (sliceRows_apply _ hs p q).trans (coreSum_apply A4 h' (by decide) hu _ q)

/-! ## The loss -/

/-- A [2, 1, 1] array's indices are its cores. -/
def idx211 : (⟨3, ![2, 1, 1]⟩ : Shape).Idx ≃ Fin 2 where
  toFun i := i 0
  invFun k := ix3 k (0 : Fin 1) (0 : Fin 1)
  left_inv i := by
    funext a
    match a with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)
  right_inv _ := rfl

/-- The host's sum of a [2, 1, 1] array over all its axes, from the zero word, over the batch-size word. -/
theorem loss_eq (A6 : FVec Ideal (⟨3, ![2, 1, 1]⟩ : Shape) .f32)
    (h' : (⟨3, ![2, 1, 1]⟩ : Shape).ReducesTo [0, 1, 2] (⟨0, ![]⟩ : Shape)) (hu : 0 < (⟨0, ![]⟩ : Shape).numel) :
    Host.divf (Host.reduceAdd A6 (constant (F := Ideal) (⟨0, ![]⟩ : Shape) .f32 0x00000000#32) h' hu)
        (constant (F := Ideal) (⟨0, ![]⟩ : Shape) .f32 0x46800000#32)
      = fun _ => Ideal.div (∑ k : Fin 2, A6 (ix3 k (0 : Fin 1) (0 : Fin 1))) (Ideal.ofBits .f32 0x46800000#32) := by
  funext j
  show Ideal.div (Ideal.hostReduceAdd h' A6 (Ideal.ofBits .f32 0x00000000#32) j) (Ideal.ofBits .f32 0x46800000#32) = _
  rw [Ideal.hostReduceAdd_total h' (fun b => b.elim0), Ideal.ofBits_zero_f32, zero_add]
  exact congrArg (fun s => Ideal.div s (Ideal.ofBits .f32 0x46800000#32))
    (Fintype.sum_equiv idx211 _ _ fun i => congrArg A6 (idx211.left_inv i).symm)

/-! ## Columns, rows and scalars broadcast -/

/-- A [1000] vector as the column [1000, 1], at (p, u): the vector at p. -/
theorem col_apply {α : Type} (x : (⟨1, ![1000]⟩ : Shape).Idx → α)
    (h : (⟨1, ![1000]⟩ : Shape).BroadcastsInDim (⟨2, ![1000, 1]⟩ : Shape) ![0]) (p : Fin 1000) (u : Fin 1) :
    broadcastInDim (⟨2, ![1000, 1]⟩ : Shape) ![0] h x (ix2 p u) = x (ix1 p) :=
  broadcastInDim_apply _ h x (ix2 p u) (ix1 p) fun a => match a with | ⟨0, _⟩ => rfl

/-- A column [1000, 1] over the 512 features, at (p, q): the column's entry of row p. -/
theorem row_apply {α : Type} (v : (⟨2, ![1000, 1]⟩ : Shape).Idx → α)
    (h : (⟨2, ![1000, 1]⟩ : Shape).BroadcastsInDim (⟨2, ![1000, 512]⟩ : Shape) ![0, 1]) (p : Fin 1000) (q : Fin 512) :
    broadcastInDim (⟨2, ![1000, 512]⟩ : Shape) ![0, 1] h v (ix2 p q) = v (ix2 p (0 : Fin 1)) :=
  broadcastInDim_apply _ h v (ix2 p q) (ix2 p (0 : Fin 1)) fun a => match a with | ⟨0, _⟩ => rfl | ⟨1, _⟩ => rfl

/-! ## The prototype update -/

section Protos

variable (N : FVec Ideal (⟨1, ![1000]⟩ : Shape) .f32) (S P : FVec Ideal (⟨2, ![1000, 512]⟩ : Shape) .f32)
  (b1 : (⟨0, ![]⟩ : Shape).BroadcastsInDim (⟨1, ![1000]⟩ : Shape) ![])
  (b2 : (⟨1, ![1000]⟩ : Shape).BroadcastsInDim (⟨2, ![1000, 1]⟩ : Shape) ![0])
  (b3 : (⟨2, ![1000, 1]⟩ : Shape).BroadcastsInDim (⟨2, ![1000, 512]⟩ : Shape) ![0, 1])
  (b4 : (⟨0, ![]⟩ : Shape).BroadcastsInDim (⟨2, ![1000, 1]⟩ : Shape) ![])
  (b5 : (⟨0, ![]⟩ : Shape).BroadcastsInDim (⟨2, ![1000, 512]⟩ : Shape) ![])
  (r1 : (⟨2, ![1000, 512]⟩ : Shape).ReducesTo [1] (⟨1, ![1000]⟩ : Shape)) (hu : 0 < (⟨0, ![]⟩ : Shape).numel)

/-- The class mean as the host forms it: the class sums over the larger of the class count and one, the divisor
    a column broadcast over the features. -/
def hMean : FVec Ideal (⟨2, ![1000, 512]⟩ : Shape) .f32 :=
  Host.divf S (broadcastInDim (⟨2, ![1000, 512]⟩ : Shape) ![0, 1] b3 (broadcastInDim (⟨2, ![1000, 1]⟩ : Shape) ![0] b2
    (maximumf N (broadcastInDim (⟨1, ![1000]⟩ : Shape) ![] b1 (constant (F := Ideal) (⟨0, ![]⟩ : Shape) .f32 0x3F800000#32)))))

/-- At (p, q): the sum over the larger of the count of class p and one. -/
theorem hMean_apply (p : Fin 1000) (q : Fin 512) :
    hMean N S b1 b2 b3 (ix2 p q) = Ideal.div (S (ix2 p q)) (max (N (ix1 p)) (Ideal.ofBits .f32 0x3F800000#32)) := by
  unfold hMean
  exact congrArg (Ideal.div (S (ix2 p q)))
    ((row_apply _ b3 p q).trans ((col_apply _ b2 p 0).trans
      (congrArg (max (N (ix1 p))) (broadcastInDim_scalar_apply b1 _ (ix1 p)))))

/-- The squared length of row p of an array, as the host sums it from the zero word. -/
theorem sq_apply (M : FVec Ideal (⟨2, ![1000, 512]⟩ : Shape) .f32) (p : Fin 1000) :
    Host.reduceAdd (mulf M M) (constant (F := Ideal) (⟨0, ![]⟩ : Shape) .f32 0x00000000#32) r1 hu (ix1 p)
      = ∑ j : Fin 512, M (ix2 p j) * M (ix2 p j) := by
  refine (Ideal.hostReduceAdd_single r1 (by decide) (mulf M M) _ (ix1 p)).trans ?_
  show Ideal.ofBits .f32 0x00000000#32 + _ = _
  rw [Ideal.ofBits_zero_f32, zero_add]
  exact Finset.sum_congr rfl fun k _ => congrArg (mulf M M) (Cert.RowRead.lift_row _ p k)

/-- The direction's divisor as the host forms it, at (p, q): the larger of the length of row p and eps. -/
theorem den_apply (M : FVec Ideal (⟨2, ![1000, 512]⟩ : Shape) .f32) (μ : Fin 512 → EReal) (p : Fin 1000)
    (hM : ∀ j, M (ix2 p j) = μ j) (q : Fin 512) :
    broadcastInDim (⟨2, ![1000, 512]⟩ : Shape) ![0, 1] b3
        (maximumf (Host.sqrt (broadcastInDim (⟨2, ![1000, 1]⟩ : Shape) ![0] b2
            (Host.reduceAdd (mulf M M) (constant (F := Ideal) (⟨0, ![]⟩ : Shape) .f32 0x00000000#32) r1 hu)))
          (broadcastInDim (⟨2, ![1000, 1]⟩ : Shape) ![] b4 (constant (F := Ideal) (⟨0, ![]⟩ : Shape) .f32 0x2B8CBCCC#32)))
        (ix2 p q)
      = max (Ideal.sqrt (∑ j : Fin 512, μ j * μ j)) Cert.Spec.epsE :=
  (row_apply _ b3 p q).trans (congrArg₂ max
    (congrArg Ideal.sqrt ((col_apply _ b2 p 0).trans ((sq_apply r1 hu M p).trans
      (Finset.sum_congr rfl fun j _ => by rw [hM j]))))
    (broadcastInDim_scalar_apply b4 _ (ix2 p (0 : Fin 1))))

/-- A select on a count's compare with zero, at an index: the blend where the count is positive. -/
theorem select_pos {s : Shape} (C : IVec s 1) (T Q : s.Idx → EReal) (i : s.Idx) (n t : EReal)
    (hc : C i = Ideal.cmp .ogt n 0) (ht : T i = t) : select C T Q i = if (0 : EReal) < n then t else Q i := by
  show Scalar.select (C i) (T i) (Q i) = _
  rw [hc, ht]
  by_cases h : (0 : EReal) < n
  · rw [if_pos h]
    have e : Ideal.cmp .ogt n 0 = 1#1 := by
      show BitVec.ofBool (decide ((0 : EReal) < n)) = 1#1
      rw [decide_eq_true h]; rfl
    rw [e]; exact select_one _ _
  · rw [if_neg h]
    have e : Ideal.cmp .ogt n 0 = 0#1 := by
      show BitVec.ofBool (decide ((0 : EReal) < n)) = 0#1
      rw [decide_eq_false h]; rfl
    rw [e]; exact select_zero _ _

/-- The prototypes the host forms from the class counts N and the class sums S: where a class has a row, 0.9 of the
    prototype plus 0.1 of the class mean scaled to unit length; elsewhere the prototype. -/
theorem protos_apply (p : Fin 1000) (q : Fin 512) :
    select
        (broadcastInDim (⟨2, ![1000, 512]⟩ : Shape) ![0, 1] b3 (broadcastInDim (⟨2, ![1000, 1]⟩ : Shape) ![0] b2
          (cmpf .ogt N (broadcastInDim (⟨1, ![1000]⟩ : Shape) ![] b1 (constant (F := Ideal) (⟨0, ![]⟩ : Shape) .f32 0x00000000#32)))))
        (addf
          (mulf (broadcastInDim (⟨2, ![1000, 512]⟩ : Shape) ![] b5 (constant (F := Ideal) (⟨0, ![]⟩ : Shape) .f32 0x3F666666#32)) P)
          (mulf (broadcastInDim (⟨2, ![1000, 512]⟩ : Shape) ![] b5 (constant (F := Ideal) (⟨0, ![]⟩ : Shape) .f32 0x3DCCCCCD#32))
            (Host.divf (hMean N S b1 b2 b3)
              (broadcastInDim (⟨2, ![1000, 512]⟩ : Shape) ![0, 1] b3
                (maximumf (Host.sqrt (broadcastInDim (⟨2, ![1000, 1]⟩ : Shape) ![0] b2
                    (Host.reduceAdd (mulf (hMean N S b1 b2 b3) (hMean N S b1 b2 b3))
                      (constant (F := Ideal) (⟨0, ![]⟩ : Shape) .f32 0x00000000#32) r1 hu)))
                  (broadcastInDim (⟨2, ![1000, 1]⟩ : Shape) ![] b4 (constant (F := Ideal) (⟨0, ![]⟩ : Shape) .f32 0x2B8CBCCC#32)))))))
        P (ix2 p q)
      = Cert.Spec.protoUpd (fun c d => S (ix2 c d)) (fun c => N (ix1 c)) P (ix2 p q) := by
  refine (select_pos _ _ _ (ix2 p q) (N (ix1 p)) ?_ ?_ ?_).trans ?_
  · exact (Ideal.ofBits .f32 0x3F666666#32) * P (ix2 p q) + (Ideal.ofBits .f32 0x3DCCCCCD#32) *
      Ideal.div (Ideal.div (S (ix2 p q)) (max (N (ix1 p)) (Ideal.ofBits .f32 0x3F800000#32)))
        (max (Ideal.sqrt (∑ j : Fin 512, Ideal.div (S (ix2 p j)) (max (N (ix1 p)) (Ideal.ofBits .f32 0x3F800000#32))
            * Ideal.div (S (ix2 p j)) (max (N (ix1 p)) (Ideal.ofBits .f32 0x3F800000#32)))) Cert.Spec.epsE)
  · exact (row_apply _ b3 p q).trans ((col_apply _ b2 p 0).trans
      (congrArg (Ideal.cmp .ogt (N (ix1 p))) ((broadcastInDim_scalar_apply b1 _ (ix1 p)).trans Ideal.ofBits_zero_f32)))
  · exact congrArg₂ (· + ·)
      (congrArg (· * P (ix2 p q)) (broadcastInDim_scalar_apply b5 _ (ix2 p q)))
      (congrArg₂ (· * ·) (broadcastInDim_scalar_apply b5 _ (ix2 p q))
        (congrArg₂ Ideal.div (hMean_apply N S b1 b2 b3 p q)
          (den_apply b2 b3 b4 r1 hu (hMean N S b1 b2 b3) _ p (fun j => hMean_apply N S b1 b2 b3 p j) q)))
  · rfl

end Protos

/-! ## The four results as functions of the accumulator arrays -/

section Results

variable (X : (⟨2, ![16384, 512]⟩ : Shape).Idx → EReal) (Q : (⟨2, ![1000, 512]⟩ : Shape).Idx → EReal)
  (CC : (⟨1, ![1000]⟩ : Shape).Idx → EReal) (L : (⟨1, ![16384]⟩ : Shape).Idx → BitVec 32)

/-- The class counts the host forms, as a vector. -/
def hCounts (A5 : FVec Ideal (⟨3, ![2, 1, 1024]⟩ : Shape) .f32)
    (h' : (⟨3, ![2, 1, 1024]⟩ : Shape).ReducesTo [0] (⟨2, ![1, 1024]⟩ : Shape)) (hu : 0 < (⟨0, ![]⟩ : Shape).numel)
    (hs : (⟨2, ![1, 1024]⟩ : Shape).Slices ![0, 0] (⟨2, ![1, 1000]⟩ : Shape))
    (hc : (⟨2, ![1, 1000]⟩ : Shape).ShapeCasts (⟨1, ![1000]⟩ : Shape)) : FVec Ideal (⟨1, ![1000]⟩ : Shape) .f32 :=
  fun i => shapeCast (⟨1, ![1000]⟩ : Shape) (extractStridedSlice (⟨2, ![1, 1000]⟩ : Shape) ![0, 0]
    (Host.reduceAdd A5 (constant (F := Ideal) (⟨0, ![]⟩ : Shape) .f32 0x00000000#32) h' hu) hs) hc i

/-- The class sums the host forms, as an array. -/
def hSums (A4 : FVec Ideal (⟨3, ![2, 1024, 512]⟩ : Shape) .f32)
    (h' : (⟨3, ![2, 1024, 512]⟩ : Shape).ReducesTo [0] (⟨2, ![1024, 512]⟩ : Shape)) (hu : 0 < (⟨0, ![]⟩ : Shape).numel)
    (hs : (⟨2, ![1024, 512]⟩ : Shape).Slices ![0, 0] (⟨2, ![1000, 512]⟩ : Shape)) : FVec Ideal (⟨2, ![1000, 512]⟩ : Shape) .f32 :=
  extractStridedSlice (⟨2, ![1000, 512]⟩ : Shape) ![0, 0]
    (Host.reduceAdd A4 (constant (F := Ideal) (⟨0, ![]⟩ : Shape) .f32 0x00000000#32) h' hu) hs

/-- Of the count accumulator, the host's counts are the two cores' counts added. -/
theorem hCounts_acc (h' hu hs hc) (p : Fin 1000) :
    hCounts (Cert.Spec.accCnt L) h' hu hs hc (ix1 p) = Cert.Spec.kCnt L ⟨p.val, lt_trans p.isLt (by norm_num)⟩ :=
  (counts_apply _ h' hu hs hc p).trans rfl

/-- Of the sum accumulator, the host's sums are the two cores' sums added. -/
theorem hSums_acc (h' hu hs) (p : Fin 1000) (q : Fin 512) :
    hSums (Cert.Spec.accSum X L) h' hu hs (ix2 p q) = Cert.Spec.kSum X L ⟨p.val, lt_trans p.isLt (by norm_num)⟩ q :=
  (sums_apply _ h' hu hs p q).trans rfl

/-- Result 0: the two cores' loss accumulators added, over the batch size. -/
theorem loss_result (h' : (⟨3, ![2, 1, 1]⟩ : Shape).ReducesTo [0, 1, 2] (⟨0, ![]⟩ : Shape)) (hu : 0 < (⟨0, ![]⟩ : Shape).numel) :
    Host.divf (Host.reduceAdd (Cert.Spec.accLoss X Q L) (constant (F := Ideal) (⟨0, ![]⟩ : Shape) .f32 0x00000000#32) h' hu)
        (constant (F := Ideal) (⟨0, ![]⟩ : Shape) .f32 0x46800000#32)
      = Cert.Spec.kOutLoss X Q L :=
  (loss_eq _ h' hu).trans rfl

/-- Result 3: the counts argument plus the two cores' counts. -/
theorem counts_result (h' hu hs hc) :
    addf CC (hCounts (Cert.Spec.accCnt L) h' hu hs hc) = Cert.Spec.kOutCounts CC L := by
  funext i
  obtain ⟨p, rfl⟩ : ∃ p, i = ix1 p := ⟨i 0, eq_ix1 i⟩
  exact congrArg (CC (ix1 p) + ·) (hCounts_acc L h' hu hs hc p)

/-- Result 2: the prototype update from the two cores' sums and counts. -/
theorem protos_result (h5 hu hs5 hc5 h4 hs4)
    (b1 : (⟨0, ![]⟩ : Shape).BroadcastsInDim (⟨1, ![1000]⟩ : Shape) ![])
    (b2 : (⟨1, ![1000]⟩ : Shape).BroadcastsInDim (⟨2, ![1000, 1]⟩ : Shape) ![0])
    (b3 : (⟨2, ![1000, 1]⟩ : Shape).BroadcastsInDim (⟨2, ![1000, 512]⟩ : Shape) ![0, 1])
    (b4 : (⟨0, ![]⟩ : Shape).BroadcastsInDim (⟨2, ![1000, 1]⟩ : Shape) ![])
    (b5 : (⟨0, ![]⟩ : Shape).BroadcastsInDim (⟨2, ![1000, 512]⟩ : Shape) ![])
    (r1 : (⟨2, ![1000, 512]⟩ : Shape).ReducesTo [1] (⟨1, ![1000]⟩ : Shape)) :
    select
        (broadcastInDim (⟨2, ![1000, 512]⟩ : Shape) ![0, 1] b3 (broadcastInDim (⟨2, ![1000, 1]⟩ : Shape) ![0] b2
          (cmpf .ogt (hCounts (Cert.Spec.accCnt L) h5 hu hs5 hc5)
            (broadcastInDim (⟨1, ![1000]⟩ : Shape) ![] b1 (constant (F := Ideal) (⟨0, ![]⟩ : Shape) .f32 0x00000000#32)))))
        (addf
          (mulf (broadcastInDim (⟨2, ![1000, 512]⟩ : Shape) ![] b5 (constant (F := Ideal) (⟨0, ![]⟩ : Shape) .f32 0x3F666666#32)) Q)
          (mulf (broadcastInDim (⟨2, ![1000, 512]⟩ : Shape) ![] b5 (constant (F := Ideal) (⟨0, ![]⟩ : Shape) .f32 0x3DCCCCCD#32))
            (Host.divf (hMean (hCounts (Cert.Spec.accCnt L) h5 hu hs5 hc5) (hSums (Cert.Spec.accSum X L) h4 hu hs4) b1 b2 b3)
              (broadcastInDim (⟨2, ![1000, 512]⟩ : Shape) ![0, 1] b3
                (maximumf (Host.sqrt (broadcastInDim (⟨2, ![1000, 1]⟩ : Shape) ![0] b2
                    (Host.reduceAdd
                      (mulf (hMean (hCounts (Cert.Spec.accCnt L) h5 hu hs5 hc5) (hSums (Cert.Spec.accSum X L) h4 hu hs4) b1 b2 b3)
                        (hMean (hCounts (Cert.Spec.accCnt L) h5 hu hs5 hc5) (hSums (Cert.Spec.accSum X L) h4 hu hs4) b1 b2 b3))
                      (constant (F := Ideal) (⟨0, ![]⟩ : Shape) .f32 0x00000000#32) r1 hu)))
                  (broadcastInDim (⟨2, ![1000, 1]⟩ : Shape) ![] b4 (constant (F := Ideal) (⟨0, ![]⟩ : Shape) .f32 0x2B8CBCCC#32)))))))
        Q
      = Cert.Spec.kOutProtos X Q L := by
  funext i
  obtain ⟨p, q, rfl⟩ : ∃ p q, i = ix2 p q := ⟨i 0, i 1, eq_ix2 i⟩
  refine (protos_apply _ _ Q b1 b2 b3 b4 b5 r1 hu p q).trans ?_
  unfold Cert.Spec.kOutProtos
  congr 1
  · funext c d; exact hSums_acc X L h4 hu hs4 c d
  · funext c; exact hCounts_acc L h5 hu hs5 hc5 c

end Results

end Cert.KernelIdeal.KV.Tail

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## What the lines after the region find -/

/-- The class-sum array as the region leaves it: the sum accumulator of the arguments. -/
theorem tail_arr4 (c : Dev nD) :
    Pipeline.withArrays (cfgs (0 : Fin 1)).spec c (V0 m c) (fun w => (dats m 0 c).arrAt w (cfgs (0 : Fin 1)).N) (Proc.devRef .tc main_v11_1)
      = Cert.Spec.accSum (m ((c : Thread nD τ).loc main_arg0)) (m ((c : Thread nD τ).loc main_arg3)) :=
  (Pipeline.withArrays_arr spec0 launch0.win.arr_inj c _ _ 4).trans (final4 m c)

/-- The class-count array as the region leaves it: the count accumulator of the labels. -/
theorem tail_arr5 (c : Dev nD) :
    Pipeline.withArrays (cfgs (0 : Fin 1)).spec c (V0 m c) (fun w => (dats m 0 c).arrAt w (cfgs (0 : Fin 1)).N) (Proc.devRef .tc main_v11_2)
      = Cert.Spec.accCnt (m ((c : Thread nD τ).loc main_arg3)) :=
  (Pipeline.withArrays_arr spec0 launch0.win.arr_inj c _ _ 5).trans (final5 m c)

/-- The loss array as the region leaves it: the loss accumulator of the arguments. -/
theorem tail_arr6 (c : Dev nD) :
    Pipeline.withArrays (cfgs (0 : Fin 1)).spec c (V0 m c) (fun w => (dats m 0 c).arrAt w (cfgs (0 : Fin 1)).N) (Proc.devRef .tc main_v11_3)
      = Cert.Spec.accLoss (m ((c : Thread nD τ).loc main_arg0)) (m ((c : Thread nD τ).loc main_arg1))
          (m ((c : Thread nD τ).loc main_arg3)) :=
  (Pipeline.withArrays_arr spec0 launch0.win.arr_inj c _ _ 6).trans (final6 m c)

/-- The prototypes argument is no array of the region and no line before the region writes it. -/
theorem tail_arg1 (c : Dev nD) :
    Pipeline.withArrays (cfgs (0 : Fin 1)).spec c (V0 m c) (fun w => (dats m 0 c).arrAt w (cfgs (0 : Fin 1)).N) (Proc.devRef .tc main_arg1)
      = m ((c : Thread nD τ).loc main_arg1) :=
  (Pipeline.withArrays_of_ne _ c (V0 m c) _ main_arg1 (by exact (by decide : ∀ w, Pipeline.arrRef spec0 w ≠ main_arg1))).trans
    (V_main_arg1 m c)

/-- The counts argument likewise. -/
theorem tail_arg2 (c : Dev nD) :
    Pipeline.withArrays (cfgs (0 : Fin 1)).spec c (V0 m c) (fun w => (dats m 0 c).arrAt w (cfgs (0 : Fin 1)).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

/-! ## The buffers the lines after the region leave -/

/-- The loss buffer: the two cores' loss accumulators added, over the batch size. -/
theorem tail_loss (c : Dev nD) :
    Pipeline.afterTail₀ cfgs (dats m) 0 (V0 m) [hostOps1, hostOps1_1, hostOps1_2] c main_v18
      = Cert.Spec.kOutLoss (m ((c : Thread nD τ).loc main_arg0)) (m ((c : Thread nD τ).loc main_arg1))
          (m ((c : Thread nD τ).loc main_arg3)) := by
  unfold Pipeline.afterTail₀
  simp only [Gen.hostOps1, Gen.hostOps1_1, Gen.hostOps1_2, List.flatten_cons, List.flatten_nil, List.append_nil,
    List.cons_append, List.nil_append]
  open StableHlo in after_results_simp
  rw [tail_arr6 m c]
  exact Tail.loss_result _ _ _ _ _

set_option maxHeartbeats 1000000 in
/-- The counts buffer: the counts argument plus the two cores' counts of the first 1000 classes. -/
theorem tail_counts (c : Dev nD) :
    Pipeline.afterTail₀ cfgs (dats m) 0 (V0 m) [hostOps1, hostOps1_1, hostOps1_2] c main_v41
      = Cert.Spec.kOutCounts (m ((c : Thread nD τ).loc main_arg2)) (m ((c : Thread nD τ).loc main_arg3)) := by
  unfold Pipeline.afterTail₀
  simp only [Gen.hostOps1, Gen.hostOps1_1, Gen.hostOps1_2, List.flatten_cons, List.flatten_nil, List.append_nil,
    List.cons_append, List.nil_append]
  open StableHlo in after_results_simp
  rw [tail_arg2 m c, tail_arr5 m c]
  exact Tail.counts_result _ _ _ _ _ _

set_option maxHeartbeats 2000000 in
/-- The prototypes buffer: the update from the two cores' sums and counts of the first 1000 classes. -/
theorem tail_protos (c : Dev nD) :
    Pipeline.afterTail₀ cfgs (dats m) 0 (V0 m) [hostOps1, hostOps1_1, hostOps1_2] c main_v40
      = Cert.Spec.kOutProtos (m ((c : Thread nD τ).loc main_arg0)) (m ((c : Thread nD τ).loc main_arg1))
          (m ((c : Thread nD τ).loc main_arg3)) := by
  unfold Pipeline.afterTail₀
  simp only [Gen.hostOps1, Gen.hostOps1_1, Gen.hostOps1_2, List.flatten_cons, List.flatten_nil, List.append_nil,
    List.cons_append, List.nil_append]
  open StableHlo in after_results_simp
  simp only [StableHlo.TRef.ofBuf, StableHlo.TRef.toBuf, cast_eq]
  rw [tail_arg1 m c, tail_arr4 m c, tail_arr5 m c]
  exact Tail.protos_result _ _ _ _ _ _ _ _ _ _ _ _ _ _ _

/-! ## The run -/

theorem run : θ_run defs (onTc (τ := τ) (main (F := Ideal))) ⟨m, fun _ => 0, ρ⟩ fun r => ∀ c : Dev nD,
      r.2.mem ((c.tc : Thread nD τ).loc main_v18)
          = Cert.Spec.kOutLoss (m ((c.tc : Thread nD τ).loc main_arg0)) (m ((c.tc : Thread nD τ).loc main_arg1)) (m ((c.tc : Thread nD τ).loc main_arg3))
      ∧ r.2.mem ((c.tc : Thread nD τ).loc main_v11_0)
          = Cert.Spec.kOutLogits (m ((c.tc : Thread nD τ).loc main_arg0)) (m ((c.tc : Thread nD τ).loc main_arg1))
      ∧ r.2.mem ((c.tc : Thread nD τ).loc main_v40)
          = Cert.Spec.kOutProtos (m ((c.tc : Thread nD τ).loc main_arg0)) (m ((c.tc : Thread nD τ).loc main_arg1)) (m ((c.tc : Thread nD τ).loc main_arg3))
      ∧ r.2.mem ((c.tc : Thread nD τ).loc main_v41)
          = Cert.Spec.kOutCounts (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨?_, ?_, ?_, ?_, ?_, ?_, ?_, ?_⟩) (run_main m ρ)
  · exact ((h c).2 main_v18 (Pipeline.mem_restRefs_of main_v18 (by decide) (by decide))).trans (tail_loss m c)
  · exact ((h c).1 3).trans (final3 m c)
  · exact ((h c).2 main_v40 (Pipeline.mem_restRefs_of main_v40 (by decide) (by decide))).trans (tail_protos m c)
  · exact ((h c).2 main_v41 (Pipeline.mem_restRefs_of main_v41 (by decide) (by decide))).trans (tail_counts m c)
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)

end Cert.KernelIdeal.KV

end
-- ==== Proof.RefLogits.lean ====
/-
  The reference's logits, read index by index.

  The reference scales every feature row and every prototype row by the larger of its Euclidean length and eps
  (a row's sum of squares, its square root, the clamp, the broadcast back over the row, the division), transposes
  the scaled prototypes, contracts the 512 features of a scaled feature row against a scaled prototype row, and
  divides by the f32 word of 0.1. That word is the real 13421773 / 2^27, and dividing an extended real by a nonzero
  real is multiplying by its reciprocal, so the quotient is the product with 2^27 / 13421773.
-/
import proofs.«417236_j85134841741643_3_alg».proof.Proof.Spec
import proofs.«417236_j85134841741643_3_alg».proof.Proof.RefRead

noncomputable section

namespace Cert.ReferenceIdeal.RV

open Cert.ReferenceIdeal Cert.ReferenceIdeal.Read Idealize.ShloMosaic Idealize.ShloMosaic.ValueIdx

/-- The f32 word of 0.1 is the real 13421773 / 2^27. -/
theorem word_tenth : Ideal.ofBits .f32 0x3DCCCCCD#32 = ((13421773 / 134217728 : ℝ) : EReal) := by
  simp [Ideal.ofBits, Ideal.ieee, -EReal.coe_mul]
  norm_num

/-- Dividing by the f32 word of 0.1 is multiplying by the reciprocal of the temperature. -/
theorem div_tenth (s : EReal) : Ideal.div s (Ideal.ofBits .f32 0x3DCCCCCD#32) = s * Cert.Spec.invT := by
  rw [word_tenth, Ideal.div_coe (by norm_num)]
  unfold Cert.Spec.invT
  norm_num

/-- A scaled feature: entry `k` of row `b` over the larger of the row's Euclidean length and eps. -/
theorem feats_apply (x0 : (⟨S16384x512, .f32⟩ : BufTy).Contents (Elt Ideal)) (b : Fin 16384) (k : Fin 512) :
    val_main_v9 (F := Ideal) x0 (ix2 b k) = Cert.Spec.unit x0 b k := by
  have e8 : idx_main_v8 (ix2 b k) = ix2 b (0 : Fin 1) :=
    funext fun a => Fin.ext (by match a with | ⟨0, _⟩ => rfl | ⟨1, _⟩ => rfl)
  have e2 : idx_main_call1_v2 (ix2 b (0 : Fin 1)) = ix1 b :=
    funext fun a => Fin.ext (by match a with | ⟨0, _⟩ => rfl)
  have e1 : ∀ j : Fin 512, idx_main_call1_v1 (ix1 b) j = ix2 b j := fun j =>
    funext fun a => Fin.ext (by match a with | ⟨0, _⟩ => rfl | ⟨1, _⟩ => rfl)
  rw [val_main_v9_apply, val_main_v8_apply, e8, val_main_v7_apply, val_main_v5_apply, val_main_call1_v2_apply, e2,
    val_main_call1_v1_apply, val_main_v6_apply, val_main_cst_0_apply, val_main_call1_cst_apply]
  simp only [e1, val_main_call1_v0_apply, Ideal.hostDivf_def, Ideal.mulf_def, Ideal.maximumf_def,
    Ideal.hostUnary_sqrt_def, Ideal.ofBits_def, Ideal.ofBits_zero_f32, zero_add]
  rfl

/-- A scaled prototype: entry `k` of row `c` over the larger of the row's Euclidean length and eps. -/
theorem protos_apply (x1 : (⟨S1000x512, .f32⟩ : BufTy).Contents (Elt Ideal)) (c : Fin 1000) (k : Fin 512) :
    val_main_v4 (F := Ideal) x1 (ix2 c k) = Cert.Spec.unit x1 c k := by
  have e3 : idx_main_v3 (ix2 c k) = ix2 c (0 : Fin 1) :=
    funext fun a => Fin.ext (by match a with | ⟨0, _⟩ => rfl | ⟨1, _⟩ => rfl)
  have e2 : idx_main_call0_v2 (ix2 c (0 : Fin 1)) = ix1 c :=
    funext fun a => Fin.ext (by match a with | ⟨0, _⟩ => rfl)
  have e1 : ∀ j : Fin 512, idx_main_call0_v1 (ix1 c) j = ix2 c j := fun j =>
    funext fun a => Fin.ext (by match a with | ⟨0, _⟩ => rfl | ⟨1, _⟩ => rfl)
  rw [val_main_v4_apply, val_main_v3_apply, e3, val_main_v2_apply, val_main_v0_apply, val_main_call0_v2_apply, e2,
    val_main_call0_v1_apply, val_main_v1_apply, val_main_cst_apply, val_main_call0_cst_apply]
  simp only [e1, val_main_call0_v0_apply, Ideal.hostDivf_def, Ideal.mulf_def, Ideal.maximumf_def,
    Ideal.hostUnary_sqrt_def, Ideal.ofBits_def, Ideal.ofBits_zero_f32, zero_add]
  rfl

/-- The logits: the dot product of a scaled feature row with a scaled prototype row, times the reciprocal of the
    temperature. -/
theorem logits_eq (x0 : (⟨S16384x512, .f32⟩ : BufTy).Contents (Elt Ideal))
    (x1 : (⟨S1000x512, .f32⟩ : BufTy).Contents (Elt Ideal)) :
    val_main_v13 (F := Ideal) x0 x1 = Cert.Spec.outLogits x0 x1 := by
  funext i
  obtain ⟨b, c, rfl⟩ : ∃ (b : Fin 16384) (c : Fin 1000), i = ix2 b c := ⟨i 0, i 1, eq_ix2 i⟩
  have el : ∀ k : Fin 512, lidx_main_v11 (ix2 b c) k = ix2 b k := fun k =>
    funext fun a => Fin.ext (by match a with | ⟨0, _⟩ => rfl | ⟨1, _⟩ => rfl)
  have er : ∀ k : Fin 512, ridx_main_v11 (ix2 b c) k = ix2 k c := fun k =>
    funext fun a => Fin.ext (by match a with | ⟨0, _⟩ => rfl | ⟨1, _⟩ => rfl)
  have e10 : ∀ k : Fin 512, idx_main_v10 (ix2 k c) = ix2 c k := fun k =>
    funext fun a => Fin.ext (by match a with | ⟨0, _⟩ => rfl | ⟨1, _⟩ => rfl)
  rw [val_main_v13_apply, val_main_v11_apply, val_main_v12_apply, val_main_cst_1_apply]
  simp only [el, er, val_main_v10_apply, e10, feats_apply, protos_apply, Ideal.hostDivf_def, Ideal.ofBits_def]
  rw [div_tenth]
  rfl

end Cert.ReferenceIdeal.RV

end
-- ==== Proof.RefLoss.lean ====
/-
  The reference's loss is the specification's loss.

  A row's log-probabilities are its logits shifted by the row's largest logit, less the logarithm of the sum of the
  shifted logits' exponentials. The largest logit is a fold of max from minus infinity over the row's 1000 entries,
  which is the supremum of the row; the maximum with a further minus infinity changes nothing. The label column is read
  through a gather with a batching axis: row b of the result reads entry (b, label b) of the log-probabilities, the label
  being in range by hypothesis, so that the in-bounds test is the bit one on every row and the select keeps the gathered
  value. The sum over the 16384 rows of a one-column array is the sum over the rows; the one-hot sum of the
  specification collapses to the entry at the label's class. Both sides are then minus the quotient of one sum by the
  word of 16384.
-/
import proofs.«417236_j85134841741643_3_alg».proof.Proof.Spec
import proofs.«417236_j85134841741643_3_alg».proof.Proof.RefRead
import proofs.«417236_j85134841741643_3_alg».proof.Proof.LibRowRead

noncomputable section

namespace Cert.ReferenceIdeal.RV

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Words: a 32-bit label below 1000, read signed -/

/-- A word below 1000 read as a signed integer is its unsigned value. -/
theorem loss_toInt (l : BitVec 32) (h : l.toNat < 1000) : l.toInt = (l.toNat : Int) :=
  BitVec.toInt_eq_toNat_of_lt (by omega)

/-- It is not below zero. -/
theorem loss_slt_zero (l : BitVec 32) (h : l.toNat < 1000) : IntOp.cmpi .slt l 0#32 = 0#1 := by
  have e : l.slt 0#32 = false := by
    have hz : (0#32 : BitVec 32).toInt = 0 := by decide
    have hl := loss_toInt l h
    have hn : ¬ (l.toInt < (0#32 : BitVec 32).toInt) := by rw [hl, hz]; omega
    exact decide_eq_false hn
  show BitVec.ofBool (l.slt 0#32) = 0#1
  rw [e]; rfl

/-- It is at least zero. -/
theorem loss_sge_zero (l : BitVec 32) (h : l.toNat < 1000) : IntOp.cmpi .sge l 0#32 = 1#1 := by
  have e : (0#32 : BitVec 32).sle l = true := by
    have hz : (0#32 : BitVec 32).toInt = 0 := by decide
    have hl := loss_toInt l h
    have hn : (0#32 : BitVec 32).toInt ≤ l.toInt := by rw [hl, hz]; omega
    exact decide_eq_true hn
  show BitVec.ofBool ((0#32 : BitVec 32).sle l) = 1#1
  rw [e]; rfl

/-- It is at most 999. -/
theorem loss_sle_999 (l : BitVec 32) (h : l.toNat < 1000) : IntOp.cmpi .sle l 999#32 = 1#1 := by
  have e : l.sle 999#32 = true := by
    have hz : (999#32 : BitVec 32).toInt = 999 := by decide
    have hl := loss_toInt l h
    have hn : l.toInt ≤ (999#32 : BitVec 32).toInt := by rw [hl, hz]; omega
    exact decide_eq_true hn
  show BitVec.ofBool (l.sle 999#32) = 1#1
  rw [e]; rfl

/-- A class below 1000, as a 32-bit word, is the label exactly when it is the label's value. -/
theorem loss_hot_iff (l : BitVec 32) (h : l.toNat < 1000) (c : Fin 1000) :
    BitVec.ofNat 32 c.val = l ↔ c = ⟨l.toNat, h⟩ := by
  constructor
  · intro e
    apply Fin.ext
    have := congrArg BitVec.toNat e
    simp only [BitVec.toNat_ofNat] at this
    have hc := c.isLt
    show c.val = l.toNat
    omega
  · intro e
    subst e
    exact BitVec.ofNat_toNat 32 l |>.trans (by simp)

/-- A fold of the conjunction of ones from the bit one is the bit one. -/
theorem loss_foldl_and_one {β : Type} (l : List β) :
    l.foldl (fun r _ => IntOp.andi r 1#1) 1#1 = 1#1 := by
  induction l with
  | nil => rfl
  | cons a t ih => exact ih

/-! ## The log-probabilities -/

section LogSoftmax

variable (x0 : (⟨S16384x512, .f32⟩ : BufTy).Contents (Elt Ideal)) (x1 : (⟨S1000x512, .f32⟩ : BufTy).Contents (Elt Ideal))
  (hlog : val_main_v13 (F := Ideal) x0 x1 = Cert.Spec.outLogits x0 x1)
include hlog

/-- The row's largest logit: the fold of max from minus infinity over the row is the supremum of the row, and the
    maximum with minus infinity is the row's own. -/
theorem loss_rowmax (b : Fin 16384) :
    val_main_call2_v2 (F := Ideal) x0 x1 (ix1 b) = Cert.Spec.rowMax x0 x1 b := by
  have hred : val_main_call2_v0 (F := Ideal) x0 x1 (ix1 b)
      = (Finset.univ : Finset (Fin 1000)).fold max (val_main_call2_cst (F := Ideal) (Shape.Idx.first h_S_))
          (fun k => Cert.Spec.outLogits x0 x1 (ix2 b k)) := by
    unfold val_main_call2_v0
    rw [hlog]
    exact Cert.RowRead.hostRowMax_apply (R := 16384) (C := 1000) (φ := .f32) (Cert.Spec.outLogits x0 x1) _
      reducesTo_S16384x1000_S16384_d1 (by decide) h_S_ b
  rw [val_main_call2_v2_apply, val_main_call2_v1_apply, val_main_call2_cst_0_apply, hred, val_main_call2_cst_apply]
  simp only [Ideal.ofBits_def, Ideal.maximumf_def, Cert.RowRead.word_neg_inf]
  refine (max_bot_left _).trans ?_
  rfl

/-- The shifted logit at (b, c). -/
theorem loss_shift (b : Fin 16384) (c : Fin 1000) :
    val_main_call2_v5 (F := Ideal) x0 x1 (ix2 b c) = Cert.Spec.logit x0 x1 b c - Cert.Spec.rowMax x0 x1 b := by
  have hi : idx_main_call2_v3 (idx_main_call2_v4 (ix2 b c)) = ix1 b :=
    funext fun a => Fin.ext (by match a with | ⟨0, _⟩ => rfl)
  rw [val_main_call2_v5_apply, val_main_call2_v4_apply, val_main_call2_v3_apply, hi, loss_rowmax x0 x1 hlog b, hlog,
    Ideal.subf_def]
  rfl

/-- The row's sum of the shifted logits' exponentials. -/
theorem loss_expsum (b : Fin 16384) :
    val_main_call2_v7 (F := Ideal) x0 x1 (ix1 b)
      = ∑ c : Fin 1000, Ideal.exp (Cert.Spec.logit x0 x1 b c - Cert.Spec.rowMax x0 x1 b) := by
  rw [val_main_call2_v7_apply, val_main_call2_cst_1_apply, Ideal.ofBits_def, Cert.RowRead.word_zero, zero_add]
  refine Finset.sum_congr rfl fun k _ => ?_
  have hk : idx_main_call2_v7 (ix1 b) k = ix2 b k :=
    funext fun a => Fin.ext (by match a with | ⟨0, _⟩ => rfl | ⟨1, _⟩ => rfl)
  rw [hk, val_main_call2_v6_apply, loss_shift x0 x1 hlog b k, Ideal.hostUnary_exp_def]

/-- The log-probability at (b, c). -/
theorem loss_logp (b : Fin 16384) (c : Fin 1000) :
    val_main_v14 (F := Ideal) x0 x1 (ix2 b c) = Cert.Spec.logp x0 x1 b c := by
  have hi : idx_main_call2_v8 (idx_main_call2_v10 (ix2 b c)) = ix1 b :=
    funext fun a => Fin.ext (by match a with | ⟨0, _⟩ => rfl)
  rw [val_main_v14_apply, val_main_call2_v10_apply, val_main_call2_v9_apply, val_main_call2_v8_apply, hi,
    loss_expsum x0 x1 hlog b, loss_shift x0 x1 hlog b c, Ideal.hostUnary_log_def, Ideal.subf_def]
  rfl

end LogSoftmax

/-! ## The label column -/

section Labels

variable (x3 : (⟨S16384, .i32⟩ : BufTy).Contents (Elt Ideal)) (hL : ∀ b : Fin 16384, (x3 (ix1 b)).toNat < 1000)
include hL

/-- The start index of row b is its label: a label in range is not negative, so the wrapped value is never taken, and
    the reshape to [16384, 1, 1] keeps the row. -/
theorem loss_label (b : Fin 16384) (u v : Fin 1) :
    val_main_call3_v5 (F := Ideal) x3 (ix3 b u v) = x3 (ix1 b) := by
  have hi : idx_main_v15 (idx_main_call3_v5 (ix3 b u v)) = ix1 b :=
    funext fun a => Fin.ext (by
      match a with
      | ⟨0, _⟩ =>
        show ((b.val * 1 + u.val) * 1 + v.val) / 1 = b.val
        have := u.isLt; have := v.isLt; omega)
  rw [val_main_call3_v5_apply, val_main_call3_v4_apply, val_main_call3_v1_apply, val_main_v15_apply, hi,
    val_main_call3_v0_apply, val_main_call3_c_apply, loss_slt_zero _ (hL b)]
  exact select_zero _ _

/-- The in-bounds test 0 ≤ label ≤ 999 is the bit one at every index. -/
theorem loss_inb : val_main_call3_v11 (F := Ideal) x3 = fun _ => 1#1 := by
  funext i
  obtain ⟨b, u, v, rfl⟩ : ∃ (b : Fin 16384) (u v : Fin 1), i = ix3 b u v := ⟨i 0, i 1, i 2, eq_ix3 i⟩
  rw [val_main_call3_v11_apply, val_main_call3_v7_apply, val_main_call3_v10_apply, loss_label x3 hL b u v,
    val_main_call3_v6_apply, val_main_call3_c_2_apply, val_main_call3_v9_apply, val_main_call3_v8_apply,
    val_main_call3_c_1_apply, loss_sge_zero _ (hL b), loss_sle_999 _ (hL b)]
  first | rfl | decide

/-- Its conjunction over the unit axis, from the bit one, is the bit one. -/
theorem loss_inb_red (j : S16384x1.Idx) : val_main_call3_v12 (F := Ideal) x3 j = 1#1 := by
  unfold val_main_call3_v12
  rw [loss_inb x3 hL]
  unfold Host.reduce
  exact loss_foldl_and_one _

end Labels

/-! ## The gather with a batching axis, read at a row -/

/-- Row b of the result reads the operand at (b, start index of row b), the start index being in range: on the batching
    axis the coordinate is the row, on the collapsed axis the start index read signed and clamped to [0, 999]. -/
theorem loss_gather_read {α : Type} (x : S16384x1000.Idx → α) (idx : IVec S16384x1x1 32) (b : Fin 16384) (u : Fin 1)
    (l : BitVec 32) (hl : l.toNat < 1000) (hidx : idx (ix3 b u (0 : Fin 1)) = l) :
    Host.gather gather_S16384x1000_S16384x1x1_S16384x1_n_1_0_0_1_2_11 x idx (ix2 b u) = x (ix2 b ⟨l.toNat, hl⟩) := by
  unfold Host.gather
  refine congrArg x ?_
  funext a
  refine Fin.ext ?_
  match a with
  | ⟨0, _⟩ =>
    show (gather_S16384x1000_S16384x1x1_S16384x1_n_1_0_0_1_2_11).start (ix2 b u) idx 0
        + (gather_S16384x1000_S16384x1x1_S16384x1_n_1_0_0_1_2_11).batchCoord (ix2 b u) 0
        + (gather_S16384x1000_S16384x1x1_S16384x1_n_1_0_0_1_2_11).offCoord (ix2 b u) 0 = b.val
    have h0 : (0 : Fin 2) ∈ (gather_S16384x1000_S16384x1x1_S16384x1_n_1_0_0_1_2_11).operandBatchingDims := by decide
    rw [GatherDims.start_batching _ _ _ _ h0,
      GatherDims.offCoord_eq_zero _ _ _ (fun hk => ((GatherDims.mem_sKept _ _).mp hk).2 h0)]
    simp only [Nat.zero_add, Nat.add_zero]
    unfold GatherDims.batchCoord
    rw [dif_pos h0]
    rfl
  | ⟨1, _⟩ =>
    show (gather_S16384x1000_S16384x1x1_S16384x1_n_1_0_0_1_2_11).start (ix2 b u) idx 1
        + (gather_S16384x1000_S16384x1x1_S16384x1_n_1_0_0_1_2_11).batchCoord (ix2 b u) 1
        + (gather_S16384x1000_S16384x1x1_S16384x1_n_1_0_0_1_2_11).offCoord (ix2 b u) 1 = l.toNat
    have h1 : (1 : Fin 2) ∈ (gather_S16384x1000_S16384x1x1_S16384x1_n_1_0_0_1_2_11).collapsedSliceDims := by decide
    have h1' : (1 : Fin 2) ∉ (gather_S16384x1000_S16384x1x1_S16384x1_n_1_0_0_1_2_11).operandBatchingDims := by decide
    have h1m : (1 : Fin 2) ∈ (gather_S16384x1000_S16384x1x1_S16384x1_n_1_0_0_1_2_11).startIndexMap := by decide
    rw [GatherDims.batchCoord_eq_zero _ _ _ h1',
      GatherDims.offCoord_eq_zero _ _ _ (fun hk => ((GatherDims.mem_sKept _ _).mp hk).1 h1)]
    simp only [Nat.add_zero]
    unfold GatherDims.start
    rw [dif_pos h1m]
    have hsi : (gather_S16384x1000_S16384x1x1_S16384x1_n_1_0_0_1_2_11).siIdx (ix2 b u)
        ⟨List.idxOf (1 : Fin 2) (gather_S16384x1000_S16384x1x1_S16384x1_n_1_0_0_1_2_11).startIndexMap,
          List.idxOf_lt_length_iff.2 h1m⟩ = ix3 b u (0 : Fin 1) := by
      funext c; refine Fin.ext ?_
      match c with
      | ⟨0, _⟩ => rfl
      | ⟨1, _⟩ => rfl
      | ⟨2, _⟩ => rfl
    rw [hsi, hidx]
    have hl' := loss_toInt l hl
    show min l.toInt.toNat (1000 - 1) = l.toNat
    rw [hl']
    first | (rw [Int.toNat_natCast]; omega) | (simp only [Int.toNat_natCast]; omega) | omega

/-! ## The loss -/

section Loss

variable (x0 : (⟨S16384x512, .f32⟩ : BufTy).Contents (Elt Ideal)) (x1 : (⟨S1000x512, .f32⟩ : BufTy).Contents (Elt Ideal))
  (x3 : (⟨S16384, .i32⟩ : BufTy).Contents (Elt Ideal))

/-- The gathered entry of row b is the log-probability the row gives to its label. -/
theorem loss_gather (hlog : val_main_v13 (F := Ideal) x0 x1 = Cert.Spec.outLogits x0 x1)
    (hL : ∀ b : Fin 16384, (x3 (ix1 b)).toNat < 1000) (b : Fin 16384) (u : Fin 1) :
    val_main_call3_v13 (F := Ideal) x0 x1 x3 (ix2 b u) = Cert.Spec.logp x0 x1 b ⟨(x3 (ix1 b)).toNat, hL b⟩ := by
  unfold val_main_call3_v13
  exact (loss_gather_read _ _ b u (x3 (ix1 b)) (hL b) (loss_label x3 hL b u 0)).trans (loss_logp x0 x1 hlog b _)

/-- The select keeps it: the in-bounds bit is one. -/
theorem loss_sel (hlog : val_main_v13 (F := Ideal) x0 x1 = Cert.Spec.outLogits x0 x1)
    (hL : ∀ b : Fin 16384, (x3 (ix1 b)).toNat < 1000) (b : Fin 16384) (u : Fin 1) :
    val_main_v16 (F := Ideal) x0 x1 x3 (ix2 b u) = Cert.Spec.logp x0 x1 b ⟨(x3 (ix1 b)).toNat, hL b⟩ := by
  rw [val_main_v16_apply, loss_inb_red x3 hL, loss_gather x0 x1 x3 hlog hL b u]
  exact select_one _ _

/-- The one-hot sum over the classes is the entry at the label's class. -/
theorem loss_lab (hL : ∀ b : Fin 16384, (x3 (ix1 b)).toNat < 1000) (b : Fin 16384) :
    Cert.Spec.labLogp x0 x1 x3 b = Cert.Spec.logp x0 x1 b ⟨(x3 (ix1 b)).toNat, hL b⟩ := by
  unfold Cert.Spec.labLogp
  refine (Finset.sum_eq_single (⟨(x3 (ix1 b)).toNat, hL b⟩ : Fin 1000) ?_ ?_).trans ?_
  · intro c _ hc
    exact if_neg fun hh => hc ((loss_hot_iff _ (hL b) c).1 hh)
  · intro hm
    exact absurd (Finset.mem_univ _) hm
  · exact if_pos ((loss_hot_iff _ (hL b) _).2 rfl)

/-- Result 0 of the reference is the specification's loss. -/
theorem loss_eq (x0 : (⟨S16384x512, .f32⟩ : BufTy).Contents (Elt Ideal)) (x1 : (⟨S1000x512, .f32⟩ : BufTy).Contents (Elt Ideal))
    (x3 : (⟨S16384, .i32⟩ : BufTy).Contents (Elt Ideal))
    (hlog : val_main_v13 (F := Ideal) x0 x1 = Cert.Spec.outLogits x0 x1)
    (hL : ∀ b : Fin 16384, (x3 (ix1 b)).toNat < 1000) :
    val_main_v19 (F := Ideal) x0 x1 x3 = Cert.Spec.outLoss x0 x1 x3 := by
  have hsum : (∑ j : S16384x1.Idx, val_main_v16 (F := Ideal) x0 x1 x3 j)
      = ∑ b : Fin 16384, Cert.Spec.labLogp x0 x1 x3 b := by
    refine (sum_idx2 (n0 := 16384) (n1 := 1) (fun j => val_main_v16 (F := Ideal) x0 x1 x3 j)).trans ?_
    refine Finset.sum_congr rfl fun b _ => ?_
    refine (Fintype.sum_unique _).trans ?_
    rw [loss_sel x0 x1 x3 hlog hL b, loss_lab x0 x1 x3 hL b]
  funext i
  rw [val_main_v19_apply, val_main_v18_apply, val_main_v17_apply, hsum, val_main_cst_2_apply, val_main_cst_3_apply]
  simp only [Ideal.hostNegf_def, Ideal.negf_def, Ideal.hostDivf_def, Ideal.ofBits_def]
  rw [Cert.RowRead.word_zero, zero_add]
  rfl

end Loss

end Cert.ReferenceIdeal.RV

end
-- ==== Proof.RefUpd.lean ====
/-
  The reference's two segment sums and its prototype update, read at an index.

  The reference counts the rows of each class and adds up their scaled features by two accumulating scatters over the
  label column: update b lands on the class its label names, so the element of class c is the sum, over the batch rows,
  of the updates whose label is c. From the counts and the sums it forms each class's mean (the sum over the larger of
  the count and one), scales the mean to unit length (by the larger of its Euclidean length and eps) and, where the class
  has a row, blends it 0.9 / 0.1 into the prototype. Each step is read at one element and the whole met with the closed
  forms of the common vocabulary.
-/
import proofs.«417236_j85134841741643_3_alg».proof.Proof.RefRead
import proofs.«417236_j85134841741643_3_alg».proof.Proof.Spec
import proofs.«417236_j85134841741643_3_alg».proof.Proof.LibRowRead
import Idealize.ShloMosaic.Lib.ValueIdx
import Idealize.ShloMosaic.PureOps.Ideal.Laws

noncomputable section

namespace Cert.ReferenceIdeal.RV

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

namespace Upd

/-! ## Words and sums -/

/-- A 32-bit word below 1000, read as a signed integer, is its natural value. -/
theorem toInt_of_lt (w : BitVec 32) (h : w.toNat < 1000) : w.toInt = (w.toNat : Int) :=
  BitVec.toInt_eq_toNat_of_lt (by omega)

/-- A word is the word of the class number c exactly when its natural value is c. -/
theorem word_eq_iff (w : BitVec 32) (c : Fin 1000) : BitVec.ofNat 32 c.val = w ↔ w.toNat = c.val := by
  constructor
  · rintro rfl
    rw [BitVec.toNat_ofNat]
    have := c.isLt
    omega
  · intro h
    rw [← h]
    exact BitVec.ofNat_toNat _ _

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A select on "x is above y" is the `if` on the order. -/
theorem select_ogt {α : Type} (x y : EReal) (A B : α) :
    Scalar.select (Ideal.cmp .ogt x y) A B = if y < x then A else B := by
  show (if BitVec.ofBool (decide (y < x)) = 1 then A else B) = if y < x then A else B
  by_cases h : y < x
  · rw [if_pos h, decide_eq_true h]; rfl
  · rw [if_neg h, decide_eq_false h]; rfl

/-! ## The count scatter: operand [1000], indices the label column [16384, 1], updates [16384] -/

/-- Update b lands on the class its label names. -/
theorem cnt_resultIdx (idx : IVec S16384x1 32) (b : Fin 16384) (h : (idx (ix2 b (0 : Fin 1))).toNat < 1000) :
    scatter_S1000_S16384x1_S16384_n_0_0_1.resultIdx? (ix1 b) idx
      = some (ix1 (⟨(idx (ix2 b (0 : Fin 1))).toNat, h⟩ : Fin 1000)) := by
  have hs : ∀ a : Fin S1000.rank, scatter_S1000_S16384x1_S16384_n_0_0_1.start (ix1 b) idx a
      = ((idx (ix2 b (0 : Fin 1))).toNat : Int) := by
    intro a
    obtain rfl : a = ⟨0, by decide⟩ := Subsingleton.elim _ _
    rw [← toInt_of_lt _ h]
    unfold ScatterDims.start
    rw [dif_pos (show (⟨0, by decide⟩ : Fin S1000.rank) ∈ scatter_S1000_S16384x1_S16384_n_0_0_1.scatterDimsToOperandDims
      from List.mem_singleton.mpr rfl)]
    refine congrArg (fun j => (idx j).toInt) ?_
    funext a; refine Fin.ext ?_
    match a with
    | ⟨0, _⟩ => rfl
    | ⟨1, _⟩ => rfl
  have hw : ∀ a : Fin S1000.rank, scatter_S1000_S16384x1_S16384_n_0_0_1.window (ix1 b) a = 0 := by
    intro a
    obtain rfl : a = ⟨0, by decide⟩ := Subsingleton.elim _ _
    rfl
  have hall : ∀ a : Fin S1000.rank,
      0 ≤ scatter_S1000_S16384x1_S16384_n_0_0_1.start (ix1 b) idx a + scatter_S1000_S16384x1_S16384_n_0_0_1.window (ix1 b) a
      ∧ scatter_S1000_S16384x1_S16384_n_0_0_1.start (ix1 b) idx a + scatter_S1000_S16384x1_S16384_n_0_0_1.window (ix1 b) a
        < S1000.size a := by
    intro a
    rw [hs a, hw a]
    obtain rfl : a = ⟨0, by decide⟩ := Subsingleton.elim _ _
    show (0 : Int) ≤ ((idx (ix2 b (0 : Fin 1))).toNat : Int) + ((0 : Nat) : Int)
      ∧ ((idx (ix2 b (0 : Fin 1))).toNat : Int) + ((0 : Nat) : Int) < ((1000 : Nat) : Int)
    omega
  unfold ScatterDims.resultIdx?
  rw [dif_pos hall]
  refine congrArg some (funext fun a => Fin.ext ?_)
  obtain rfl : a = ⟨0, by decide⟩ := Subsingleton.elim _ _
  show (scatter_S1000_S16384x1_S16384_n_0_0_1.start (ix1 b) idx ⟨0, by decide⟩
    + scatter_S1000_S16384x1_S16384_n_0_0_1.window (ix1 b) ⟨0, by decide⟩).toNat = (idx (ix2 b (0 : Fin 1))).toNat
  rw [hs, hw]
  omega

/-- THE COUNT SCATTER AT CLASS c: the operand's element plus the updates of the rows whose label is c. -/
theorem cntScatter_apply (x : S1000.Idx → EReal) (idx : IVec S16384x1 32) (upd : S16384.Idx → EReal)
    (hL : ∀ b : Fin 16384, (idx (ix2 b (0 : Fin 1))).toNat < 1000) (c : Fin 1000) :
    Ideal.hostScatterAdd scatter_S1000_S16384x1_S16384_n_0_0_1 x idx upd (ix1 c)
      = x (ix1 c) + ∑ b : Fin 16384, if BitVec.ofNat 32 c.val = idx (ix2 b (0 : Fin 1)) then upd (ix1 b) else 0 := by
  unfold Ideal.hostScatterAdd
  refine congrArg (x (ix1 c) + ·) ?_
  rw [Finset.sum_filter, sum_idx1]
  refine Finset.sum_congr rfl fun b _ => ?_
  beta_reduce
  rw [cnt_resultIdx idx b (hL b)]
  by_cases hb : BitVec.ofNat 32 c.val = idx (ix2 b (0 : Fin 1))
  · rw [if_pos hb, if_pos]
    exact congrArg some (congrArg ix1 (Fin.ext ((word_eq_iff _ c).mp hb)))
  · rw [if_neg hb, if_neg]
    intro he
    exact hb ((word_eq_iff _ c).mpr (congrArg Fin.val (congrFun (Option.some.inj he) ⟨0, by decide⟩)))

/-! ## The sum scatter: operand [1000, 512], the same indices, updates [16384, 512] -/

/-- Update (b, k) lands on (the class b's label names, k). -/
theorem sum_resultIdx (idx : IVec S16384x1 32) (b : Fin 16384) (k : Fin 512) (h : (idx (ix2 b (0 : Fin 1))).toNat < 1000) :
    scatter_S1000x512_S16384x1_S16384x512_1_0_0_1.resultIdx? (ix2 b k) idx
      = some (ix2 (⟨(idx (ix2 b (0 : Fin 1))).toNat, h⟩ : Fin 1000) k) := by
  have hs0 : scatter_S1000x512_S16384x1_S16384x512_1_0_0_1.start (ix2 b k) idx ⟨0, by decide⟩
      = ((idx (ix2 b (0 : Fin 1))).toNat : Int) := by
    rw [← toInt_of_lt _ h]
    unfold ScatterDims.start
    rw [dif_pos (show (⟨0, by decide⟩ : Fin S1000x512.rank)
      ∈ scatter_S1000x512_S16384x1_S16384x512_1_0_0_1.scatterDimsToOperandDims from List.mem_singleton.mpr rfl)]
    refine congrArg (fun j => (idx j).toInt) ?_
    funext a; refine Fin.ext ?_
    match a with
    | ⟨0, _⟩ => rfl
    | ⟨1, _⟩ => rfl
  have hs1 : scatter_S1000x512_S16384x1_S16384x512_1_0_0_1.start (ix2 b k) idx ⟨1, by decide⟩ = 0 := rfl
  have hw0 : scatter_S1000x512_S16384x1_S16384x512_1_0_0_1.window (ix2 b k) ⟨0, by decide⟩ = 0 := rfl
  have hw1 : scatter_S1000x512_S16384x1_S16384x512_1_0_0_1.window (ix2 b k) ⟨1, by decide⟩ = k.val := rfl
  have hall : ∀ a : Fin S1000x512.rank,
      0 ≤ scatter_S1000x512_S16384x1_S16384x512_1_0_0_1.start (ix2 b k) idx a
          + scatter_S1000x512_S16384x1_S16384x512_1_0_0_1.window (ix2 b k) a
      ∧ scatter_S1000x512_S16384x1_S16384x512_1_0_0_1.start (ix2 b k) idx a
          + scatter_S1000x512_S16384x1_S16384x512_1_0_0_1.window (ix2 b k) a < S1000x512.size a := by
    intro a
    match a with
    | ⟨0, _⟩ =>
      show (0 : Int) ≤ scatter_S1000x512_S16384x1_S16384x512_1_0_0_1.start (ix2 b k) idx ⟨0, by decide⟩
            + ((scatter_S1000x512_S16384x1_S16384x512_1_0_0_1.window (ix2 b k) ⟨0, by decide⟩ : Nat) : Int)
        ∧ scatter_S1000x512_S16384x1_S16384x512_1_0_0_1.start (ix2 b k) idx ⟨0, by decide⟩
            + ((scatter_S1000x512_S16384x1_S16384x512_1_0_0_1.window (ix2 b k) ⟨0, by decide⟩ : Nat) : Int) < ((1000 : Nat) : Int)
      rw [hs0, hw0]
      omega
    | ⟨1, _⟩ =>
      show (0 : Int) ≤ scatter_S1000x512_S16384x1_S16384x512_1_0_0_1.start (ix2 b k) idx ⟨1, by decide⟩
            + ((scatter_S1000x512_S16384x1_S16384x512_1_0_0_1.window (ix2 b k) ⟨1, by decide⟩ : Nat) : Int)
        ∧ scatter_S1000x512_S16384x1_S16384x512_1_0_0_1.start (ix2 b k) idx ⟨1, by decide⟩
            + ((scatter_S1000x512_S16384x1_S16384x512_1_0_0_1.window (ix2 b k) ⟨1, by decide⟩ : Nat) : Int) < ((512 : Nat) : Int)
      rw [hs1, hw1]
      have := k.isLt
      omega
  unfold ScatterDims.resultIdx?
  rw [dif_pos hall]
  refine congrArg some (funext fun a => Fin.ext ?_)
  match a with
  | ⟨0, _⟩ =>
    show (scatter_S1000x512_S16384x1_S16384x512_1_0_0_1.start (ix2 b k) idx ⟨0, by decide⟩
      + ((scatter_S1000x512_S16384x1_S16384x512_1_0_0_1.window (ix2 b k) ⟨0, by decide⟩ : Nat) : Int)).toNat
        = (idx (ix2 b (0 : Fin 1))).toNat
    rw [hs0, hw0]
    omega
  | ⟨1, _⟩ =>
    show (scatter_S1000x512_S16384x1_S16384x512_1_0_0_1.start (ix2 b k) idx ⟨1, by decide⟩
      + ((scatter_S1000x512_S16384x1_S16384x512_1_0_0_1.window (ix2 b k) ⟨1, by decide⟩ : Nat) : Int)).toNat = k.val
    rw [hs1, hw1]
    omega

/-- THE SUM SCATTER AT (c, d): the operand's element plus, over the rows whose label is c, the update at (row, d). -/
theorem sumScatter_apply (x : S1000x512.Idx → EReal) (idx : IVec S16384x1 32) (U : S16384x512.Idx → EReal)
    (hL : ∀ b : Fin 16384, (idx (ix2 b (0 : Fin 1))).toNat < 1000) (c : Fin 1000) (d : Fin 512) :
    Ideal.hostScatterAdd scatter_S1000x512_S16384x1_S16384x512_1_0_0_1 x idx U (ix2 c d)
      = x (ix2 c d) + ∑ b : Fin 16384, if BitVec.ofNat 32 c.val = idx (ix2 b (0 : Fin 1)) then U (ix2 b d) else 0 := by
  unfold Ideal.hostScatterAdd
  refine congrArg (x (ix2 c d) + ·) ?_
  rw [Finset.sum_filter, sum_idx2]
  refine Finset.sum_congr rfl fun b _ => ?_
  have hk : ∀ k : Fin 512,
      (if scatter_S1000x512_S16384x1_S16384x512_1_0_0_1.resultIdx? (ix2 b k) idx = some (ix2 c d) then U (ix2 b k) else 0)
        = if k = d then (if BitVec.ofNat 32 c.val = idx (ix2 b (0 : Fin 1)) then U (ix2 b d) else 0) else 0 := by
    intro k
    rw [sum_resultIdx idx b k (hL b)]
    by_cases hkd : k = d
    · subst hkd
      rw [if_pos rfl]
      by_cases hb : BitVec.ofNat 32 c.val = idx (ix2 b (0 : Fin 1))
      · rw [if_pos hb, if_pos]
        exact congrArg some (congrArg (fun a => ix2 a k) (Fin.ext ((word_eq_iff _ c).mp hb)))
      · rw [if_neg hb, if_neg]
        intro he
        exact hb ((word_eq_iff _ c).mpr (congrArg Fin.val (congrFun (Option.some.inj he) ⟨0, by decide⟩)))
    · rw [if_neg hkd, if_neg]
      intro he
      exact hkd (congrFun (Option.some.inj he) ⟨1, Nat.one_lt_two⟩)
  refine (Finset.sum_congr rfl fun k _ => hk k).trans ?_
  rw [Finset.sum_ite_eq', if_pos (Finset.mem_univ d)]

/-! ## Index equations: the stages' composed index functions on coordinates -/

theorem e21 (b : Fin 16384) : idx_main_v21 (ix2 b (0 : Fin 1)) = ix1 b :=
  funext fun a => Fin.ext (by match a with | ⟨0, _⟩ => rfl)
theorem e25 (b : Fin 16384) : idx_main_v25 (ix2 b (0 : Fin 1)) = ix1 b :=
  funext fun a => Fin.ext (by match a with | ⟨0, _⟩ => rfl)
theorem e29_30 (c : Fin 1000) (d : Fin 512) : idx_main_v29 (idx_main_v30 (ix2 c d)) = ix1 c :=
  funext fun a => Fin.ext (by match a with | ⟨0, _⟩ => rfl)
theorem e_call4_v1 (c : Fin 1000) (k : Fin 512) : idx_main_call4_v1 (ix1 c) k = ix2 c k :=
  funext fun a => Fin.ext (by match a with | ⟨0, _⟩ => rfl | ⟨1, _⟩ => rfl)
theorem e_call4_v2 (c : Fin 1000) : idx_main_call4_v2 (ix2 c (0 : Fin 1)) = ix1 c :=
  funext fun a => Fin.ext (by match a with | ⟨0, _⟩ => rfl)
theorem e35 (c : Fin 1000) (d : Fin 512) : idx_main_v35 (ix2 c d) = ix2 c (0 : Fin 1) :=
  funext fun a => Fin.ext (by match a with | ⟨0, _⟩ => rfl | ⟨1, _⟩ => rfl)
theorem e39_call5 (c : Fin 1000) (d : Fin 512) : idx_main_v39 (idx_main_call5_v0 (ix2 c d)) = ix1 c :=
  funext fun a => Fin.ext (by match a with | ⟨0, _⟩ => rfl)

/-! ## The stages at an index -/

section Stages

variable (x0 : (⟨S16384x512, .f32⟩ : BufTy).Contents (Elt Ideal)) (x1 : (⟨S1000x512, .f32⟩ : BufTy).Contents (Elt Ideal))
  (x2 : (⟨S1000, .f32⟩ : BufTy).Contents (Elt Ideal)) (x3 : (⟨S16384, .i32⟩ : BufTy).Contents (Elt Ideal))

/-- The label column at row b is the label of b. -/
theorem v25_at (b : Fin 16384) : val_main_v25 (F := Ideal) x3 (ix2 b (0 : Fin 1)) = x3 (ix1 b) := by
  rw [val_main_v25_apply]; exact congrArg x3 (e25 b)
theorem v21_at (b : Fin 16384) : val_main_v21 (F := Ideal) x3 (ix2 b (0 : Fin 1)) = x3 (ix1 b) := by
  rw [val_main_v21_apply]; exact congrArg x3 (e21 b)

/-- The count scatter at class c is the number of rows labelled c. -/
theorem v26_at (hL : ∀ b : Fin 16384, (x3 (ix1 b)).toNat < 1000) (c : Fin 1000) :
    val_main_v26 (F := Ideal) x3 (ix1 c) = Cert.Spec.count x3 c := by
  unfold val_main_v26
  simp only [Host.scatterAdd, Ideal.hostScatterAdd_def]
  refine (cntScatter_apply (val_main_v24 (F := Ideal)) (val_main_v25 (F := Ideal) x3) (val_main_v23 (F := Ideal))
    (fun b => by rw [v25_at]; exact hL b) c).trans ?_
  rw [val_main_v24_apply, val_main_cst_6_apply, Ideal.ofBits_def, Cert.RowRead.word_zero, zero_add]
  unfold Cert.Spec.count
  refine Finset.sum_congr rfl fun b _ => ?_
  rw [v25_at, val_main_v23_apply, val_main_cst_5_apply, Ideal.ofBits_def, Cert.RowRead.word_one]
  exact if_congr Iff.rfl rfl rfl

/-- The sum scatter at (c, d) is the sum of the scaled features of the rows labelled c. -/
theorem v22_at (hfe : ∀ (b : Fin 16384) (k : Fin 512), val_main_v9 (F := Ideal) x0 (ix2 b k) = Cert.Spec.unit x0 b k)
    (hL : ∀ b : Fin 16384, (x3 (ix1 b)).toNat < 1000) (c : Fin 1000) (d : Fin 512) :
    val_main_v22 (F := Ideal) x0 x3 (ix2 c d) = Cert.Spec.classSum x0 x3 c d := by
  unfold val_main_v22
  simp only [Host.scatterAdd, Ideal.hostScatterAdd_def]
  refine (sumScatter_apply (val_main_v20 (F := Ideal)) (val_main_v21 (F := Ideal) x3) (val_main_v9 (F := Ideal) x0)
    (fun b => by rw [v21_at]; exact hL b) c d).trans ?_
  rw [val_main_v20_apply, val_main_cst_4_apply, Ideal.ofBits_def, Cert.RowRead.word_zero, zero_add]
  unfold Cert.Spec.classSum
  refine Finset.sum_congr rfl fun b _ => ?_
  rw [v21_at, hfe b d]
  exact if_congr Iff.rfl rfl rfl

/-- The larger of the count and one. -/
theorem v28_at (hL : ∀ b : Fin 16384, (x3 (ix1 b)).toNat < 1000) (c : Fin 1000) :
    val_main_v28 (F := Ideal) x3 (ix1 c) = max (Cert.Spec.count x3 c) (Ideal.ofBits .f32 0x3F800000#32) := by
  rw [val_main_v28_apply, Ideal.maximumf_def, v26_at x3 hL c, val_main_v27_apply, val_main_cst_7_apply, Ideal.ofBits_def]

theorem v30_at (hL : ∀ b : Fin 16384, (x3 (ix1 b)).toNat < 1000) (c : Fin 1000) (d : Fin 512) :
    val_main_v30 (F := Ideal) x3 (ix2 c d) = max (Cert.Spec.count x3 c) (Ideal.ofBits .f32 0x3F800000#32) := by
  rw [val_main_v30_apply, val_main_v29_apply]
  exact (congrArg (val_main_v28 (F := Ideal) x3) (e29_30 c d)).trans (v28_at x3 hL c)

/-- The class mean. -/
theorem v31_at (hfe : ∀ (b : Fin 16384) (k : Fin 512), val_main_v9 (F := Ideal) x0 (ix2 b k) = Cert.Spec.unit x0 b k)
    (hL : ∀ b : Fin 16384, (x3 (ix1 b)).toNat < 1000) (c : Fin 1000) (d : Fin 512) :
    val_main_v31 (F := Ideal) x0 x3 (ix2 c d) = Cert.Spec.classMean x0 x3 c d := by
  rw [val_main_v31_apply, Ideal.hostDivf_def, v22_at x0 x3 hfe hL c d, v30_at x3 hL c d]
  rfl

/-- The mean's sum of squares over the features. -/
theorem call4_v1_at (hfe : ∀ (b : Fin 16384) (k : Fin 512), val_main_v9 (F := Ideal) x0 (ix2 b k) = Cert.Spec.unit x0 b k)
    (hL : ∀ b : Fin 16384, (x3 (ix1 b)).toNat < 1000) (c : Fin 1000) :
    val_main_call4_v1 (F := Ideal) x0 x3 (ix1 c)
      = ∑ j : Fin 512, Cert.Spec.classMean x0 x3 c j * Cert.Spec.classMean x0 x3 c j := by
  rw [val_main_call4_v1_apply, val_main_call4_cst_apply, Ideal.ofBits_def, Cert.RowRead.word_zero, zero_add]
  refine Finset.sum_congr rfl fun k _ => ?_
  rw [e_call4_v1 c k, val_main_call4_v0_apply, Ideal.mulf_def, v31_at x0 x3 hfe hL c k]

/-- The larger of the mean's length and eps. -/
theorem v34_at (hfe : ∀ (b : Fin 16384) (k : Fin 512), val_main_v9 (F := Ideal) x0 (ix2 b k) = Cert.Spec.unit x0 b k)
    (hL : ∀ b : Fin 16384, (x3 (ix1 b)).toNat < 1000) (c : Fin 1000) :
    val_main_v34 (F := Ideal) x0 x3 (ix2 c (0 : Fin 1))
      = max (Ideal.sqrt (∑ j : Fin 512, Cert.Spec.classMean x0 x3 c j * Cert.Spec.classMean x0 x3 c j)) Cert.Spec.epsE := by
  rw [val_main_v34_apply, Ideal.maximumf_def, val_main_v32_apply, Ideal.hostUnary_sqrt_def, val_main_call4_v2_apply,
    e_call4_v2 c, call4_v1_at x0 x3 hfe hL c, val_main_v33_apply, val_main_cst_8_apply, Ideal.ofBits_def]
  rfl

/-- The class mean scaled to unit length. -/
theorem v36_at (hfe : ∀ (b : Fin 16384) (k : Fin 512), val_main_v9 (F := Ideal) x0 (ix2 b k) = Cert.Spec.unit x0 b k)
    (hL : ∀ b : Fin 16384, (x3 (ix1 b)).toNat < 1000) (c : Fin 1000) (d : Fin 512) :
    val_main_v36 (F := Ideal) x0 x3 (ix2 c d) = Cert.Spec.classDir x0 x3 c d := by
  rw [val_main_v36_apply, Ideal.hostDivf_def, v31_at x0 x3 hfe hL c d, val_main_v35_apply, e35 c d, v34_at x0 x3 hfe hL c]
  rfl

/-- The blend: 0.9 of the prototype plus 0.1 of the direction. -/
theorem v44_at (hfe : ∀ (b : Fin 16384) (k : Fin 512), val_main_v9 (F := Ideal) x0 (ix2 b k) = Cert.Spec.unit x0 b k)
    (hL : ∀ b : Fin 16384, (x3 (ix1 b)).toNat < 1000) (c : Fin 1000) (d : Fin 512) :
    val_main_v44 (F := Ideal) x0 x1 x3 (ix2 c d)
      = Ideal.ofBits .f32 0x3F666666#32 * x1 (ix2 c d) + Ideal.ofBits .f32 0x3DCCCCCD#32 * Cert.Spec.classDir x0 x3 c d := by
  rw [val_main_v44_apply, Ideal.addf_def, val_main_v41_apply, Ideal.mulf_def, val_main_v40_apply, val_main_cst_10_apply,
    Ideal.ofBits_def, val_main_v43_apply, Ideal.mulf_def, val_main_v42_apply, val_main_cst_11_apply, Ideal.ofBits_def,
    v36_at x0 x3 hfe hL c d]

/-- The condition: the class has a row. -/
theorem call5_v0_at (hL : ∀ b : Fin 16384, (x3 (ix1 b)).toNat < 1000) (c : Fin 1000) (d : Fin 512) :
    val_main_call5_v0 (F := Ideal) x3 (ix2 c d) = Ideal.cmp .ogt (Cert.Spec.count x3 c) 0 := by
  rw [val_main_call5_v0_apply, val_main_v39_apply, e39_call5 c d, val_main_v38_apply, Ideal.cmpf_def, v26_at x3 hL c,
    val_main_v37_apply, val_main_cst_9_apply, Ideal.ofBits_def, Cert.RowRead.word_zero]

end Stages

end Upd

open Upd

/-! ## The two results -/

/-- Result 3: the counts plus the number of rows of each class. -/
theorem counts_eq (x2 : (⟨S1000, .f32⟩ : BufTy).Contents (Elt Ideal)) (x3 : (⟨S16384, .i32⟩ : BufTy).Contents (Elt Ideal))
    (hL : ∀ b : Fin 16384, (x3 (ix1 b)).toNat < 1000) :
    val_main_v46 (F := Ideal) x2 x3 = Cert.Spec.outCounts x2 x3 := by
  funext i
  obtain ⟨c, rfl⟩ : ∃ c : Fin 1000, i = ix1 c := ⟨⟨(i 0).val, (i 0).isLt⟩, eq_ix1 i⟩
  rw [val_main_v46_apply, Ideal.addf_def, v26_at x3 hL c]
  rfl

/-- Result 2: the prototypes moved toward their classes' unit mean directions. -/
theorem protos_eq (x0 : (⟨S16384x512, .f32⟩ : BufTy).Contents (Elt Ideal)) (x1 : (⟨S1000x512, .f32⟩ : BufTy).Contents (Elt Ideal))
    (x3 : (⟨S16384, .i32⟩ : BufTy).Contents (Elt Ideal))
    (hfe : ∀ (b : Fin 16384) (k : Fin 512), val_main_v9 (F := Ideal) x0 (ix2 b k) = Cert.Spec.unit x0 b k)
    (hL : ∀ b : Fin 16384, (x3 (ix1 b)).toNat < 1000) :
    val_main_v45 (F := Ideal) x0 x1 x3 = Cert.Spec.rOutProtos x0 x1 x3 := by
  funext i
  obtain ⟨c, d, rfl⟩ : ∃ (c : Fin 1000) (d : Fin 512), i = ix2 c d :=
    ⟨⟨(i 0).val, idx2_lt0 i⟩, ⟨(i 1).val, idx2_lt1 i⟩, eq_ix2 i⟩
  rw [val_main_v45_apply, call5_v0_at x3 hL c d, v44_at x0 x1 x3 hfe hL c d, select_ogt]
  rfl

end Cert.ReferenceIdeal.RV

end
-- ==== Proof.lean ====
/-
  The certificate's claims assembled. Both idealized programs are proved equal to ONE specification (Proof/Spec.lean):
  the kernel's run ends at the specification's tile-by-tile forms (two cores, sixteen tiles each), the reference's at
  its whole-batch forms, and the two forms are equal — the logits, the class counts and the class sums by re-indexing
  sums of extended reals (batch row b is row b mod 512 of tile b / 512), the loss because with finite inputs every row's
  label log-probability is a real number, so the sign and the quotient by the batch size move across the sums.
  The temperature's reciprocal is read as one over the reference's own divisor, and the fill of the 24 padding columns
  as minus infinity, whose exponential is zero and which no row maximum ever attains (every row has 1000 live columns).
  The labels are class ids in [0, 1000): outside that range the reference's gather is undefined.
-/
import proofs.«417236_j85134841741643_3_alg».proof.Defs
import proofs.«417236_j85134841741643_3_alg».proof.Proof.Gen.Kernel
import proofs.«417236_j85134841741643_3_alg».proof.Proof.Gen.Kernel.Skeleton
import proofs.«417236_j85134841741643_3_alg».proof.Proof.Gen.Kernel.Launch
import proofs.«417236_j85134841741643_3_alg».proof.Proof.Gen.Kernel.Points
import proofs.«417236_j85134841741643_3_alg».proof.Proof.Gen.Kernel.Frame
import proofs.«417236_j85134841741643_3_alg».proof.Proof.Gen.KernelIdeal
import proofs.«417236_j85134841741643_3_alg».proof.Proof.Gen.KernelIdeal.Skeleton
import proofs.«417236_j85134841741643_3_alg».proof.Proof.Gen.KernelIdeal.Launch
import proofs.«417236_j85134841741643_3_alg».proof.Proof.Gen.KernelIdeal.Points
import proofs.«417236_j85134841741643_3_alg».proof.Proof.Gen.KernelIdeal.Frame
import proofs.«417236_j85134841741643_3_alg».proof.Proof.Gen.ReferenceIdeal
import proofs.«417236_j85134841741643_3_alg».proof.Proof.Gen.Pre_finite_inputs
import proofs.«417236_j85134841741643_3_alg».proof.Proof.RefRunHand
import proofs.«417236_j85134841741643_3_alg».proof.Proof.PreRead
import proofs.«417236_j85134841741643_3_alg».proof.Proof.BridgeIndex
import proofs.«417236_j85134841741643_3_alg».proof.Proof.BridgeRow
import proofs.«417236_j85134841741643_3_alg».proof.Proof.BridgeReal
import proofs.«417236_j85134841741643_3_alg».proof.Proof.BridgeLoss
import proofs.«417236_j85134841741643_3_alg».proof.Proof.KTail
import proofs.«417236_j85134841741643_3_alg».proof.Proof.RefLogits
import proofs.«417236_j85134841741643_3_alg».proof.Proof.RefLoss
import proofs.«417236_j85134841741643_3_alg».proof.Proof.RefUpd
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

/-- The word-level kernel runs and keeps its arguments: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference runs and keeps its arguments: its run with the results dropped. -/
theorem frame_ri : Cert.frame_ReferenceIdeal := fun m ρ _ =>
  (θ_run Cert.ReferenceIdeal.defs _ _).mono (fun _ h c => (h c).2.2.2.2) (Cert.ReferenceIdeal.RunHand.run (F := Ideal) m ρ)

/-- The two named constants: the certificate's table gives the scale the reciprocal of the reference's divisor and the
    padding fill minus infinity, and each printed constant is that value at the ideal instance. -/
theorem preserves : Cert.preserves_Kernel_KernelIdeal :=
  ⟨IdealRules.named_const.statement Cert.KernelIdeal.κ "inv_temperature" .f32 0x41200000#32 ((134217728 / 13421773 : ℝ) : EReal) rfl,
   IdealRules.named_const.statement Cert.KernelIdeal.κ "pad_fill" .f32 0xFF333332#32 ⊥ rfl⟩

/-- Both idealized programs end at the specification's results of arguments that agree. -/
theorem algebraic : Cert.algebraic_KernelIdeal_ReferenceIdeal := by
  intro m ρ m' ρ' hpre hagree
  have H := fun c => Cert.PreRead.read _ _ _ _ (hpre c)
  refine ⟨fun c => Cert.Spec.outLoss (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    fun c => Cert.Spec.outLogits (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Spec.rOutProtos (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    fun c => Cert.Spec.outCounts (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun _ h c => ?_) (Cert.KernelIdeal.KV.run m ρ)
    obtain ⟨hX, hP, _, hL⟩ := H c
    exact ⟨(h c).1.trans (Cert.Bridge.LossSum.kOutLoss_eq _ _ _ (Cert.Bridge.Row.tile_row_eq _ _ _ hL) (Cert.Bridge.Real.labLogp_real hX hP hL)),
      (h c).2.1.trans (Cert.Bridge.kOutLogits_eq _ _),
      (h c).2.2.1.trans (Cert.Bridge.kOutProtos_eq _ _ _),
      (h c).2.2.2.1.trans (Cert.Bridge.kOutCounts_eq _ _),
      (h c).2.2.2.2⟩
  · refine (θ_run Cert.ReferenceIdeal.defs _ _).mono (fun _ h c => ?_) (Cert.ReferenceIdeal.RunHand.run (F := Ideal) m' ρ')
    obtain ⟨hX, hP, _, hL⟩ := H c
    obtain ⟨e0, e1, e2, e3⟩ := hagree c
    refine ⟨(h c).1.trans ?_, (h c).2.1.trans ?_, (h c).2.2.1.trans ?_, (h c).2.2.2.1.trans ?_, (h c).2.2.2.2⟩
    · rw [e0, e1, e3]; exact Cert.ReferenceIdeal.RV.loss_eq _ _ _ (Cert.ReferenceIdeal.RV.logits_eq _ _) hL
    · rw [e0, e1]; exact Cert.ReferenceIdeal.RV.logits_eq _ _
    · rw [e0, e1, e3]; exact Cert.ReferenceIdeal.RV.protos_eq _ _ _ (Cert.ReferenceIdeal.RV.feats_apply _) hL
    · rw [e2, e3]; exact Cert.ReferenceIdeal.RV.counts_eq _ _ hL

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
